-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v53_0)) (v1 : (c : Dev Cert.KernelIdeal.nD) → Buf (Elt Ideal) ((c.tc : Thread Cert.KernelIdeal.nD Cert.KernelIdeal.τ).loc Cert.KernelIdeal.main_v53_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53_0) = v0 c
          ∧ r.2.mem ((c.tc : Thread Cert.KernelIdeal.nD Cert.KernelIdeal.τ).loc Cert.KernelIdeal.main_v53_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg10 : FVec F S128x64 .f32) (main_arg11 : FVec F S64 .f32) (main_v33 : IVec S_ 1) : IVec S_ 1 :=
  let main_v34 : FVec F S128x64 .f32 := Host.absf main_arg10
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg11
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg7 : FVec F S128 .f32) (main_arg8 : FVec F S128x128 .f32) (main_arg9 : FVec F S128 .f32) (main_arg10 : FVec F S128x64 .f32) (main_arg11 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_v33

def fn {F : FTy → Type} [FloatOps F] (main_arg0 : FVec F S100000x128 .f32) (main_arg1 : IVec S1600000 32) (main_arg2 : IVec S1600000 32) (main_arg3 : IVec S100000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x64 .f32) (main_arg11 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_v13 main_v16
-- ==== Kernel.lean ====
abbrev S100000x128 : Shape := ⟨2, ![100000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S5000x128 : Shape := ⟨2, ![5000, 128]⟩
abbrev S1x64 : Shape := ⟨2, ![1, 64]⟩
abbrev S64x128 : Shape := ⟨2, ![64, 128]⟩
abbrev S64x64 : Shape := ⟨2, ![64, 64]⟩
abbrev S5000x1 : Shape := ⟨2, ![5000, 1]⟩
abbrev S5000x64 : Shape := ⟨2, ![5000, 64]⟩

abbrev nBuf : Space → Nat
  | .hbm => 89
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S100000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S100000x1, .f32⟩
  | .hbm, ⟨32, _⟩ => ⟨S_, .f32⟩
  | .hbm, ⟨33, _⟩ => ⟨S100000x1, .f32⟩
  | .hbm, ⟨34, _⟩ => ⟨S100000x1, .i1⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x128, .f32⟩
  | .hbm, ⟨40, _⟩ => ⟨S100000x128, .f32⟩
  | .hbm, ⟨41, _⟩ => ⟨S_, .f32⟩
  | .hbm, ⟨42, _⟩ => ⟨S_, .f32⟩
  | .hbm, ⟨43, _⟩ => ⟨S100000x128, .i1⟩
  | .hbm, ⟨44, _⟩ => ⟨S100000x128, .f32⟩
  | .hbm, ⟨45, _⟩ => ⟨S100000x128, .f32⟩
  | .hbm, ⟨46, _⟩ => ⟨S1x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S100000x1, .f32⟩
  | .hbm, ⟨68, _⟩ => ⟨S_, .f32⟩
  | .hbm, ⟨69, _⟩ => ⟨S100000x1, .f32⟩
  | .hbm, ⟨70, _⟩ => ⟨S100000x1, .i1⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S100000x1, .f32⟩
  | .hbm, ⟨75, _⟩ => ⟨S100000x128, .f32⟩
  | .hbm, ⟨76, _⟩ => ⟨S100000x128, .f32⟩
  | .hbm, ⟨77, _⟩ => ⟨S_, .f32⟩
  | .hbm, ⟨78, _⟩ => ⟨S_, .f32⟩
  | .hbm, ⟨79, _⟩ => ⟨S100000x128, .i1⟩
  | .hbm, ⟨80, _⟩ => ⟨S100000x128, .f32⟩
  | .hbm, ⟨81, _⟩ => ⟨S100000x128, .f32⟩
  | .hbm, ⟨82, _⟩ => ⟨S1x128, .f32⟩
  | .hbm, ⟨83, _⟩ => ⟨S100000x128, .f32⟩
  | .hbm, ⟨84, _⟩ => ⟨S100000x1, .i32⟩
  | .hbm, ⟨85, _⟩ => ⟨S1x128, .f32⟩
  | .hbm, ⟨86, _⟩ => ⟨S1x64, .f32⟩
  | .hbm, ⟨87, _⟩ => ⟨S64x128, .f32⟩
  | .hbm, ⟨88, _⟩ => ⟨S64x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x1, .i32⟩
  | .local _ .vmem, ⟨19, _⟩ => ⟨S5000x1, .i32⟩
  | .local _ .vmem, ⟨20, _⟩ => ⟨S128x128, .f32⟩
  | .local _ .vmem, ⟨21, _⟩ => ⟨S1x128, .f32⟩
  | .local _ .vmem, ⟨22, _⟩ => ⟨S128x64, .f32⟩
  | .local _ .vmem, ⟨23, _⟩ => ⟨S1x64, .f32⟩
  | .local _ .vmem, ⟨24, _⟩ => ⟨S64x128, .f32⟩
  | .local _ .vmem, ⟨25, _⟩ => ⟨S64x64, .f32⟩
  | .local _ .vmem, ⟨26, _⟩ => ⟨S64x128, .f32⟩
  | .local _ .vmem, ⟨27, _⟩ => ⟨S64x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_5 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c_6 : Ref sig .tc := ⟨.hbm, 48, rfl⟩
abbrev main_v25 : Ref sig .tc := ⟨.hbm, 49, rfl⟩
abbrev main_v26 : Ref sig .tc := ⟨.hbm, 50, rfl⟩
abbrev main_c_7 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_8 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_9 : Ref sig .tc := ⟨.hbm, 61, rfl⟩
abbrev main_v35 : Ref sig .tc := ⟨.hbm, 62, rfl⟩
abbrev main_cst_10 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_11 : Ref sig .tc := ⟨.hbm, 68, rfl⟩
abbrev main_v40 : Ref sig .tc := ⟨.hbm, 69, rfl⟩
abbrev main_v41 : Ref sig .tc := ⟨.hbm, 70, rfl⟩
abbrev main_cst_12 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_13 : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53_0 : Ref sig .tc := ⟨.hbm, 87, rfl⟩
abbrev main_v53_1 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc2_scratch0 : Ref sig .tc := ⟨.vmem, 26, rfl⟩
abbrev cc2_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem7_0 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def k2_cond2 (i : grid2.Coords) : BitVec 1 :=
  let arg0 : BitVec 32 := BitVec.ofNat 32 (i 0).val
  let c19_i32 : BitVec 32 := 19#32
  let v28 : BitVec 1 := Scalar.cmpi .eq arg0 c19_i32
  let v29 : BitVec 32 := Scalar.extui v28
  let c0_i32_14 : BitVec 32 := 0#32
  let v30 : BitVec 1 := Scalar.cmpi .ne v29 c0_i32_14
  v30

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S100000_S100000x1 : S100000.ShapeCasts S100000x1
  shapeCasts_S64_S1x64 : S64.ShapeCasts S1x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S1x64_d1_w32 : S1x64.Iotas .tc 32 [1]
  broadcasts_S5000x1_S5000x64 : S5000x1.Broadcasts S5000x64
  broadcasts_S1x64_S5000x64 : S1x64.Broadcasts S5000x64
  natLt_1_32 : 1 < 32
  broadcasts_S1x128_S64x128 : S1x128.Broadcasts S64x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S64x64 : S1x64.Broadcasts S64x64
  inb_S64x64_S64x64_0_0 : ∀ a, (![0, 0] : Fin 2 → Nat) a + S64x64.size a ≤ S64x64.size a
  h_S64x64 : 0 < S64x64.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  dot_S5000x64_S5000x128_S64x128_0_0_1_1_n_n_wf : DotDims.WF S5000x64 S5000x128 S64x128 [0] [0] [1] [1] [] []
  dot_S64x128_S128x128_S64x128_1_0_0_1_n_n_wf : DotDims.WF S64x128 S128x128 S64x128 [1] [0] [0] [1] [] []
  dot_S64x128_S128x64_S64x64_1_0_0_1_n_n_wf : DotDims.WF S64x128 S128x64 S64x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .i32 = 32 ∨ (Rect.block (s := S100000x1) S5000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x64.size a ≤ S128x64.size a
  hwx2_4 : ∀ i : grid2.Coords, EltTy.bits .f32 = 32 ∨ (Rect.block (s := S128x64) S128x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x128.size a ≤ S64x128.size a
  hwx2_6 : ∀ i : grid2.Coords, EltTy.bits .f32 = 32 ∨ (Rect.block (s := S64x128) S64x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x64.size a ≤ S64x64.size a
  hwx2_7 : ∀ i : grid2.Coords, EltTy.bits .f32 = 32 ∨ (Rect.block (s := S64x64) S64x64.size (cc2_transform_7 i) (hinb2_7 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v49) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v53_0) S64x128.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v53_1) S64x64.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun i => !(k2_cond2 i == 1#1) | 7 => fun i => !(k2_cond2 i == 1#1) | ⟨_ + 8, h⟩ => absurd h (Nat.not_lt.2 (Nat.le_add_left _ _))

class Facts : Prop extends Facts₀ where

variable [Facts]
-- ==== ReferenceIdeal.lean ====
abbrev S100000x128 : Shape := ⟨2, ![100000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S64x128 : Shape := ⟨2, ![64, 128]⟩
abbrev S64x1 : Shape := ⟨2, ![64, 1]⟩
abbrev S64x64 : Shape := ⟨2, ![64, 64]⟩
abbrev S1x64 : Shape := ⟨2, ![1, 64]⟩

abbrev nBuf : Space → Nat
  | .hbm => 123
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S100000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S100000x1, .f32⟩
  | .hbm, ⟨32, _⟩ => ⟨S_, .f32⟩
  | .hbm, ⟨33, _⟩ => ⟨S100000x1, .f32⟩
  | .hbm, ⟨34, _⟩ => ⟨S100000x1, .i1⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x128, .f32⟩
  | .hbm, ⟨40, _⟩ => ⟨S100000x128, .f32⟩
  | .hbm, ⟨41, _⟩ => ⟨S_, .f32⟩
  | .hbm, ⟨42, _⟩ => ⟨S_, .f32⟩
  | .hbm, ⟨43, _⟩ => ⟨S100000x128, .i1⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S1x128, .f32⟩
  | .hbm, ⟨49, _⟩ => ⟨S100000x128, .f32⟩
  | .hbm, ⟨50, _⟩ => ⟨S100000x128, .f32⟩
  | .hbm, ⟨51, _⟩ => ⟨S_, .f32⟩
  | .hbm, ⟨52, _⟩ => ⟨S100000x128, .f32⟩
  | .hbm, ⟨53, _⟩ => ⟨S100000x128, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | .hbm, ⟨67, _⟩ => ⟨S_, .f32⟩
  | .hbm, ⟨68, _⟩ => ⟨S1600000, .f32⟩
  | .hbm, ⟨69, _⟩ => ⟨S_, .f32⟩
  | .hbm, ⟨70, _⟩ => ⟨S100000, .f32⟩
  | .hbm, ⟨71, _⟩ => ⟨S1600000x1, .i32⟩
  | .hbm, ⟨72, _⟩ => ⟨S100000, .f32⟩
  | .hbm, ⟨73, _⟩ => ⟨S100000x1, .f32⟩
  | .hbm, ⟨74, _⟩ => ⟨S_, .f32⟩
  | .hbm, ⟨75, _⟩ => ⟨S100000x1, .f32⟩
  | .hbm, ⟨76, _⟩ => ⟨S100000x1, .i1⟩
  | .hbm, ⟨77, _⟩ => ⟨S_, .f32⟩
  | .hbm, ⟨78, _⟩ => ⟨S100000, .f32⟩
  | .hbm, ⟨79, _⟩ => ⟨S100000, .f32⟩
  | .hbm, ⟨80, _⟩ => ⟨S100000x1, .f32⟩
  | .hbm, ⟨81, _⟩ => ⟨S100000x128, .f32⟩
  | .hbm, ⟨82, _⟩ => ⟨S100000x128, .f32⟩
  | .hbm, ⟨83, _⟩ => ⟨S_, .f32⟩
  | .hbm, ⟨84, _⟩ => ⟨S_, .f32⟩
  | .hbm, ⟨85, _⟩ => ⟨S100000x128, .i1⟩
  | .hbm, ⟨86, _⟩ => ⟨S100000x128, .f32⟩
  | .hbm, ⟨87, _⟩ => ⟨S100000x128, .f32⟩
  | .hbm, ⟨88, _⟩ => ⟨S100000x128, .f32⟩
  | .hbm, ⟨89, _⟩ => ⟨S100000x128, .f32⟩
  | .hbm, ⟨90, _⟩ => ⟨S1x128, .f32⟩
  | .hbm, ⟨91, _⟩ => ⟨S100000x128, .f32⟩
  | .hbm, ⟨92, _⟩ => ⟨S100000x128, .f32⟩
  | .hbm, ⟨93, _⟩ => ⟨S_, .f32⟩
  | .hbm, ⟨94, _⟩ => ⟨S100000x128, .f32⟩
  | .hbm, ⟨95, _⟩ => ⟨S100000x128, .f32⟩
  | .hbm, ⟨96, _⟩ => ⟨S_, .f32⟩
  | .hbm, ⟨97, _⟩ => ⟨S64x128, .f32⟩
  | .hbm, ⟨98, _⟩ => ⟨S100000x1, .i32⟩
  | .hbm, ⟨99, _⟩ => ⟨S64x128, .f32⟩
  | .hbm, ⟨100, _⟩ => ⟨S_, .f32⟩
  | .hbm, ⟨101, _⟩ => ⟨S100000, .f32⟩
  | .hbm, ⟨102, _⟩ => ⟨S_, .f32⟩
  | .hbm, ⟨103, _⟩ => ⟨S64, .f32⟩
  | .hbm, ⟨104, _⟩ => ⟨S100000x1, .i32⟩
  | .hbm, ⟨105, _⟩ => ⟨S64, .f32⟩
  | .hbm, ⟨106, _⟩ => ⟨S_, .f32⟩
  | .hbm, ⟨107, _⟩ => ⟨S64, .f32⟩
  | .hbm, ⟨108, _⟩ => ⟨S64, .f32⟩
  | .hbm, ⟨109, _⟩ => ⟨S64x1, .f32⟩
  | .hbm, ⟨110, _⟩ => ⟨S64x128, .f32⟩
  | .hbm, ⟨111, _⟩ => ⟨S64x128, .f32⟩
  | .hbm, ⟨112, _⟩ => ⟨S64x128, .f32⟩
  | .hbm, ⟨113, _⟩ => ⟨S1x128, .f32⟩
  | .hbm, ⟨114, _⟩ => ⟨S64x128, .f32⟩
  | .hbm, ⟨115, _⟩ => ⟨S64x128, .f32⟩
  | .hbm, ⟨116, _⟩ => ⟨S_, .f32⟩
  | .hbm, ⟨117, _⟩ => ⟨S64x128, .f32⟩
  | .hbm, ⟨118, _⟩ => ⟨S64x128, .f32⟩
  | .hbm, ⟨119, _⟩ => ⟨S64x64, .f32⟩
  | .hbm, ⟨120, _⟩ => ⟨S1x64, .f32⟩
  | .hbm, ⟨121, _⟩ => ⟨S64x64, .f32⟩
  | .hbm, ⟨122, _⟩ => ⟨S64x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_5 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_call1_cst : Ref sig .tc := ⟨.hbm, 51, rfl⟩
abbrev main_call1_v0 : Ref sig .tc := ⟨.hbm, 52, rfl⟩
abbrev main_v28 : Ref sig .tc := ⟨.hbm, 53, rfl⟩
abbrev main_c_6 : Ref sig .tc := ⟨.hbm, 54, rfl⟩
abbrev main_v29 : Ref sig .tc := ⟨.hbm, 55, rfl⟩
abbrev main_v30 : Ref sig .tc := ⟨.hbm, 56, rfl⟩
abbrev main_c_7 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_8 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_9 : Ref sig .tc := ⟨.hbm, 67, rfl⟩
abbrev main_v39 : Ref sig .tc := ⟨.hbm, 68, rfl⟩
abbrev main_cst_10 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_11 : Ref sig .tc := ⟨.hbm, 74, rfl⟩
abbrev main_v44 : Ref sig .tc := ⟨.hbm, 75, rfl⟩
abbrev main_v45 : Ref sig .tc := ⟨.hbm, 76, rfl⟩
abbrev main_cst_12 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_13 : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_call3_cst : Ref sig .tc := ⟨.hbm, 93, rfl⟩
abbrev main_call3_v0 : Ref sig .tc := ⟨.hbm, 94, rfl⟩
abbrev main_v57 : Ref sig .tc := ⟨.hbm, 95, rfl⟩
abbrev main_cst_14 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_cst_15 : Ref sig .tc := ⟨.hbm, 100, rfl⟩
abbrev main_v61 : Ref sig .tc := ⟨.hbm, 101, rfl⟩
abbrev main_cst_16 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_cst_17 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_call4_cst : Ref sig .tc := ⟨.hbm, 116, rfl⟩
abbrev main_call4_v0 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1x128_S64x128_0_1 : S1x128.BroadcastsInDim S64x128 (![0, 1] : Fin 2 → Fin S64x128.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x128_S64x128_1_0_0_1_n_n_wf : DotDims.WF S64x128 S128x128 S64x128 [1] [0] [0] [1] [] []
  dot_S64x128_S128x64_S64x64_1_0_0_1_n_n_wf : DotDims.WF S64x128 S128x64 S64x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf

class Facts : Prop extends Facts₀ where

variable [Facts]
-- ==== Proof.KFrame0.lean ====
/-
  Region 0 of the kernel program as printed: the first GIN combine call, twenty grid points of 5000 rows each.
  At a point the body reads the node block x (window 0), the aggregated-neighbour block (window 1), the whole weight
  matrix (window 2) and the bias row (window 3), and stores max((x + agg)·W + b, 0) over the whole output block
  (window 4).  Stated at ANY contents `V` of the TensorCore's buffers at the region's entry and at any float instance:
  what each window's staging buffer holds after the body, the body's triple, the per-core proof data and the body
  obligation the pipeline rule asks for.
-/
import proofs.«408682_j48163763257711_1_alg».proof.Proof.Gen.Kernel.Launch
import proofs.«408682_j48163763257711_1_alg».proof.Proof.Gen.Kernel.Skeleton
import proofs.«408682_j48163763257711_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetches it or not
    (a block whose index has not moved is still the block); one statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

abbrev rX0 : Rect S5000x128 := Rect.unit (s := S5000x128) ![0, 0] S5000x128.size inb_S5000x128_S5000x128_0_0
abbrev rW0 : Rect S128x128 := Rect.unit (s := S128x128) ![0, 0] S128x128.size inb_S128x128_S128x128_0_0
abbrev rB0 : Rect S1x128 := Rect.unit (s := S1x128) ![0, 0] S1x128.size inb_S1x128_S1x128_0_0

/-- The output block after the body: its one whole-block store, as a piece over the loaded inputs. -/
def out0_4 (x0 x1 : Vec F S5000x128 .f32) (x2 : Vec F S128x128 .f32) (x3 : Vec F S1x128 .f32) : Vec F S5000x128 .f32 :=
  View.canon [⟨rX0, k0_pay1 (View.ld x0 rX0) (View.ld x1 rX0) (View.ld x2 rW0) (View.ld x3 rB0)⟩]

theorem cover0_4 (p0 : Vec F S5000x128 .f32) (y : S5000x128.Idx) :
    ∃ pc ∈ ([⟨rX0, p0⟩] : List (View.Piece (Elt F) S5000x128 .f32)), y ∈ pc.1.set :=
  View.cover_of_tiled [⟨rX0, p0⟩] S5000x128.size (by rfl) y

set_option maxHeartbeats 4000000 in
/-- The body on whole staging memrefs: the inputs read, the output block overwritten by the one store. -/
theorem sound_kernel0 (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole)
    (x0 x1 : Vec F S5000x128 .f32) (x2 : Vec F S128x128 .f32) (x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)) -∗ K ⟨⟩))
      ⊢ wp frame (wpE (defs₀ (F := F)) Variants.none c none) E (cc0__gin_combine_kernel i arg1 harg1 arg2 harg2 arg3 harg3 arg4 harg4 arg5 harg5) K := by
  simp only [cc0__gin_combine_kernel_eq_skeleton]; unfold cc0__gin_combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-- The proof data of pipeline 0 on core `c`: arrays as found; inputs' buffers at their blocks, the output's at the
    body's result on the input blocks; the plain class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline rule's body obligation for region 0, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KFrame1.lean ====
/-
  Region 1 of the kernel program as printed: the second GIN combine call, twenty grid points of 5000 rows each.
  At a point the body reads the node block x (window 0), the aggregated-neighbour block (window 1), the whole weight
  matrix (window 2) and the bias row (window 3), and stores max((x + agg)·W + b, 0) over the whole output block
  (window 4).  Stated at ANY contents `V` of the TensorCore's buffers at the region's entry and at any float instance:
  what each window's staging buffer holds after the body, the body's triple, the per-core proof data and the body
  obligation the pipeline rule asks for.
-/
import proofs.«408682_j48163763257711_1_alg».proof.Proof.Gen.Kernel.Launch
import proofs.«408682_j48163763257711_1_alg».proof.Proof.Gen.Kernel.Skeleton
import proofs.«408682_j48163763257711_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetches it or not
    (a block whose index has not moved is still the block); one statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

abbrev rX1 : Rect S5000x128 := Rect.unit (s := S5000x128) ![0, 0] S5000x128.size inb_S5000x128_S5000x128_0_0
abbrev rW1 : Rect S128x128 := Rect.unit (s := S128x128) ![0, 0] S128x128.size inb_S128x128_S128x128_0_0
abbrev rB1 : Rect S1x128 := Rect.unit (s := S1x128) ![0, 0] S1x128.size inb_S1x128_S1x128_0_0

/-- The output block after the body: its one whole-block store, as a piece over the loaded inputs. -/
def out1_4 (x0 x1 : Vec F S5000x128 .f32) (x2 : Vec F S128x128 .f32) (x3 : Vec F S1x128 .f32) : Vec F S5000x128 .f32 :=
  View.canon [⟨rX1, k1_pay1 (View.ld x0 rX1) (View.ld x1 rX1) (View.ld x2 rW1) (View.ld x3 rB1)⟩]

theorem cover1_4 (p0 : Vec F S5000x128 .f32) (y : S5000x128.Idx) :
    ∃ pc ∈ ([⟨rX1, p0⟩] : List (View.Piece (Elt F) S5000x128 .f32)), y ∈ pc.1.set :=
  View.cover_of_tiled [⟨rX1, p0⟩] S5000x128.size (by rfl) y

set_option maxHeartbeats 4000000 in
/-- The body on whole staging memrefs: the inputs read, the output block overwritten by the one store. -/
theorem sound_kernel1 (c : Dev nD) (E : Set ℕ) (i : grid1.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole)
    (x0 x1 : Vec F S5000x128 .f32) (x2 : Vec F S128x128 .f32) (x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E (cc1__gin_combine_kernel i arg1 harg1 arg2 harg2 arg3 harg3 arg4 harg4 arg5 harg5) K := by
  simp only [cc1__gin_combine_kernel_eq_skeleton]; unfold cc1__gin_combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The proof data of pipeline 1 on core `c`: arrays as found; inputs' buffers at their blocks, the output's at the
    body's result on the input blocks; the plain class invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline rule's body obligation for region 1, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KData2.lean ====
/-
  Region 2 of the kernel program as printed: the pooling-and-decoder call, twenty grid points of 5000 node rows each,
  with two scratch accumulators (64 graphs x 128) carried from point to point.
  At every point the body adds onehot(graph id)ᵀ · h of the point's node block into the first scratch and
  onehot(graph id)ᵀ · 1 into the second; at point 0 both are first reset to zero; at point 19 it then stores
  sum / max(count, 1) into output window 6 and the two-layer decoder of that quotient into output window 7.
  This module only DEFINES: the windows' blocks, the two accumulators after each point (by recursion on the point), the
  invariant (before the first point nothing is known of the scratch; afterwards it holds the accumulators) and the
  per-core proof data.
-/
import proofs.«408682_j48163763257711_1_alg».proof.Proof.Gen.Kernel.Launch
import proofs.«408682_j48163763257711_1_alg».proof.Proof.Gen.Kernel.Skeleton
import proofs.«408682_j48163763257711_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The two scratch operands, whole scoped buffers of the kernel's own. -/
abbrev scM2_0 : Memref sig .tc .vmem S64x128 .f32 := Memref.whole cc2_scratch0
abbrev scM2_1 : Memref sig .tc .vmem S64x128 .f32 := Memref.whole cc2_scratch1

/-- The (sum, count) accumulators after the body at point `n`: at point 0 the update of the zeroed scratch, later the
    update of what the point before left. -/
def accAt (c : Dev nD) : (n : ℕ) → n < cfg2.N → Vec F S64x128 .f32 × Vec F S64x128 .f32
  | 0, hn => (k2_pay4 (iblk2 V c 1 ⟨0, hn⟩) (iblk2 V c 0 ⟨0, hn⟩) (k2_pay1 (F := F)), k2_pay5 (iblk2 V c 1 ⟨0, hn⟩) (k2_pay2 (F := F)))
  | n + 1, hn => (k2_pay4 (iblk2 V c 1 ⟨n + 1, hn⟩) (iblk2 V c 0 ⟨n + 1, hn⟩) (accAt c n (Nat.lt_of_succ_lt hn)).1,
      k2_pay5 (iblk2 V c 1 ⟨n + 1, hn⟩) (accAt c n (Nat.lt_of_succ_lt hn)).2)

theorem accAt_zero (c : Dev nD) (hn : 0 < cfg2.N) :
    accAt V c 0 hn = (k2_pay4 (iblk2 V c 1 ⟨0, hn⟩) (iblk2 V c 0 ⟨0, hn⟩) (k2_pay1 (F := F)), k2_pay5 (iblk2 V c 1 ⟨0, hn⟩) (k2_pay2 (F := F))) := rfl

theorem accAt_succ (c : Dev nD) (n : ℕ) (hn : n + 1 < cfg2.N) :
    accAt V c (n + 1) hn = (k2_pay4 (iblk2 V c 1 ⟨n + 1, hn⟩) (iblk2 V c 0 ⟨n + 1, hn⟩) (accAt V c n (Nat.lt_of_succ_lt hn)).1,
      k2_pay5 (iblk2 V c 1 ⟨n + 1, hn⟩) (accAt V c n (Nat.lt_of_succ_lt hn)).2) := rfl

/-- The region invariant before position `n`: before the first point the plain class invariant (every scratch at
    anything); afterwards the two scratch buffers at the accumulators the point before left, the core's other scoped
    buffers (the other calls' staging buffers) unopened at anything, and the generator register at some state. -/
def Phi2 (c : Dev nD) : (n : ℕ) → n ≤ cfg2.N → sProp 𝕄
  | 0, _ => Pipeline.ΦA spec2 c
  | n + 1, hn => iprop(owns (c : Thread nD τ) scM2_0 fullShare ((accAt V c n hn).1) ∗ owns (c : Thread nD τ) scM2_1 fullShare ((accAt V c n hn).2) ∗ Pipeline.scopedRestBut (Ix := Unit) (Name := ℕ) (U := UR sig nD τ) (Lvl := ℕ) (Val := Elt F) spec2 c [cc2_scratch0, cc2_scratch1] ∗ (∃ r, prngReg c r))

theorem Phi2_zero (c : Dev nD) (n : ℕ) (h : n ≤ cfg2.N) (hz : n = 0) : Phi2 V c n h = Pipeline.ΦA spec2 c := by
  subst hz; rfl

theorem Phi2_succ (c : Dev nD) (n : ℕ) (hn : n < cfg2.N) :
    Phi2 V c (n + 1) hn = iprop(owns (c : Thread nD τ) scM2_0 fullShare ((accAt V c n hn).1) ∗ owns (c : Thread nD τ) scM2_1 fullShare ((accAt V c n hn).2) ∗ Pipeline.scopedRestBut (Ix := Unit) (Name := ℕ) (U := UR sig nD τ) (Lvl := ℕ) (Val := Elt F) spec2 c [cc2_scratch0, cc2_scratch1] ∗ (∃ r, prngReg c r)) := rfl

theorem Phi2_pos (c : Dev nD) (n : ℕ) (h : n ≤ cfg2.N) (hz : n ≠ 0) :
    Phi2 V c n h = iprop(owns (c : Thread nD τ) scM2_0 fullShare ((accAt V c (n - 1) (by omega)).1) ∗ owns (c : Thread nD τ) scM2_1 fullShare ((accAt V c (n - 1) (by omega)).2) ∗ Pipeline.scopedRestBut (Ix := Unit) (Name := ℕ) (U := UR sig nD τ) (Lvl := ℕ) (Val := Elt F) spec2 c [cc2_scratch0, cc2_scratch1] ∗ (∃ r, prngReg c r)) := by
  cases n with
  | zero => exact absurd rfl hz
  | succ n => rfl

/-- The proof data of pipeline 2 on core `c`: arrays as found; each input's buffer at its block; the two outputs' buffers
    at the quotient and at the decoder of the accumulators so far (read only at the last point, the one point that stores and
    writes them back); the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => k2_pay6 (accAt V c t.val t.isLt).1 (accAt V c t.val t.isLt).2
    | ⟨7, _⟩ => k2_pay7 (accAt V c t.val t.isLt).1 (accAt V c t.val t.isLt).2 (iblk2 V c 2 t) (iblk2 V c 3 t) (iblk2 V c 4 t) (iblk2 V c 5 t)
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = Phi2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) :
    (dat2 V c).after 6 t = k2_pay6 (accAt V c t.val t.isLt).1 (accAt V c t.val t.isLt).2 := by dsimp only [dat2]
theorem after2_7 (c : Dev nD) (t : Fin cfg2.N) :
    (dat2 V c).after 7 t = k2_pay7 (accAt V c t.val t.isLt).1 (accAt V c t.val t.isLt).2 (iblk2 V c 2 t) (iblk2 V c 3 t) (iblk2 V c 4 t) (iblk2 V c 5 t) := by dsimp only [dat2]

end Cert.Kernel.Hand

end
-- ==== Proof.KFold.lean ====
/-
  The contents of the TensorCore's unscoped buffers at every boundary between the items of @main, as a fold from the
  launch memory: a stretch of host operations applies them; a kernel region leaves each of its arrays at what its
  write-backs made of it (an input array as found, an output array the fold of the flushed blocks) and every other buffer
  as it found it.  Items: host, host, host, REGION 0, host, host, host, REGION 1, host, REGION 2.
-/
import proofs.«408682_j48163763257711_1_alg».proof.Proof.Gen.Kernel.Launch
import proofs.«408682_j48163763257711_1_alg».proof.Proof.Gen.Kernel.Skeleton
import proofs.«408682_j48163763257711_1_alg».proof.Proof.Gen.Kernel.Points
import proofs.«408682_j48163763257711_1_alg».proof.Proof.KFrame0
import proofs.«408682_j48163763257711_1_alg».proof.Proof.KFrame1
import proofs.«408682_j48163763257711_1_alg».proof.Proof.KData2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

variable (m : (ℓ : Loc nD τ sig) → Buf (Elt F) ℓ)

/-- Core `c`'s buffers at launch. -/
abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
/-- At region 0's entry. -/
abbrev W3 : Dev nD → Valuation τ sig (Elt F) := fun c => StableHlo.after hostOps0_2 (W2 m c)
/-- The same read at the TensorCore's references: what region 0's proof data take. -/
abbrev U3 : (c : Dev nD) → (b : Ref sig .tc) → Buf (Elt F) ((c : Thread nD τ).loc b) := fun c b => W3 m c b
/-- At region 0's exit. -/
def W4 (c : Dev nD) : Valuation τ sig (Elt F) :=
  Pipeline.withArrays spec0 c (W3 m c) fun w => (dat0 (U3 m) c).arrAt w cfg0.N
theorem W4_arr (c : Dev nD) (w : Fin cfg0.W) :
    W4 m c (Proc.devRef .tc (Pipeline.arrRef spec0 w)) = (dat0 (U3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev U4 : (c : Dev nD) → (b : Ref sig .tc) → Buf (Elt F) ((c : Thread nD τ).loc b) := fun c b => W4 m c b
theorem hF0 (c : Dev nD) (w : Fin cfg0.W) : (dat0 (U3 m) c).arrAt w cfg0.N = U4 m c (Pipeline.arrRef spec0 w) :=
  (W4_arr m c w).symm
theorem hrest0 (c : Dev nD) : ∀ b, b ∉ Finset.univ.image (Pipeline.arrRef spec0) → U4 m c b = U3 m c b :=
  fun b hb => W4_of_ne m c b fun w e => hb (Finset.mem_image.mpr ⟨w, Finset.mem_univ _, e⟩)

abbrev W5 : Dev nD → Valuation τ sig (Elt F) := fun c => StableHlo.after hostOps1 (W4 m c)
abbrev W6 : Dev nD → Valuation τ sig (Elt F) := fun c => StableHlo.after hostOps1_1 (W5 m c)
/-- At region 1's entry. -/
abbrev W7 : Dev nD → Valuation τ sig (Elt F) := fun c => StableHlo.after hostOps1_2 (W6 m c)
abbrev U7 : (c : Dev nD) → (b : Ref sig .tc) → Buf (Elt F) ((c : Thread nD τ).loc b) := fun c b => W7 m c b
/-- At region 1's exit. -/
def W8 (c : Dev nD) : Valuation τ sig (Elt F) :=
  Pipeline.withArrays spec1 c (W7 m c) fun w => (dat1 (U7 m) c).arrAt w cfg1.N
theorem W8_arr (c : Dev nD) (w : Fin cfg1.W) :
    W8 m c (Proc.devRef .tc (Pipeline.arrRef spec1 w)) = (dat1 (U7 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb
abbrev U8 : (c : Dev nD) → (b : Ref sig .tc) → Buf (Elt F) ((c : Thread nD τ).loc b) := fun c b => W8 m c b
theorem hF1 (c : Dev nD) (w : Fin cfg1.W) : (dat1 (U7 m) c).arrAt w cfg1.N = U8 m c (Pipeline.arrRef spec1 w) :=
  (W8_arr m c w).symm
theorem hrest1 (c : Dev nD) : ∀ b, b ∉ Finset.univ.image (Pipeline.arrRef spec1) → U8 m c b = U7 m c b :=
  fun b hb => W8_of_ne m c b fun w e => hb (Finset.mem_image.mpr ⟨w, Finset.mem_univ _, e⟩)

/-- At region 2's entry. -/
abbrev W9 : Dev nD → Valuation τ sig (Elt F) := fun c => StableHlo.after hostOps2 (W8 m c)
abbrev U9 : (c : Dev nD) → (b : Ref sig .tc) → Buf (Elt F) ((c : Thread nD τ).loc b) := fun c b => W9 m c b
/-- At region 2's exit: the end of @main. -/
def W10 (c : Dev nD) : Valuation τ sig (Elt F) :=
  Pipeline.withArrays spec2 c (W9 m c) fun w => (dat2 (U9 m) c).arrAt w cfg2.N
theorem W10_arr (c : Dev nD) (w : Fin cfg2.W) :
    W10 m c (Proc.devRef .tc (Pipeline.arrRef spec2 w)) = (dat2 (U9 m) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m c (Proc.devRef .tc b) = W9 m c (Proc.devRef .tc b) := by
  unfold W10; exact Pipeline.withArrays_of_ne spec2 c _ _ b hb
abbrev U10 : (c : Dev nD) → (b : Ref sig .tc) → Buf (Elt F) ((c : Thread nD τ).loc b) := fun c b => W10 m c b
theorem hF2 (c : Dev nD) (w : Fin cfg2.W) : (dat2 (U9 m) c).arrAt w cfg2.N = U10 m c (Pipeline.arrRef spec2 w) :=
  (W10_arr m c w).symm
theorem hrest2 (c : Dev nD) : ∀ b, b ∉ Finset.univ.image (Pipeline.arrRef spec2) → U10 m c b = U9 m c b :=
  fun b hb => W10_of_ne m c b fun w e => hb (Finset.mem_image.mpr ⟨w, Finset.mem_univ _, e⟩)

/-- The two results at the end of @main are what region 2's write-backs left in its two output arrays. -/
theorem W10_res0 (c : Dev nD) : W10 m c (Proc.devRef .tc main_v53_0) = (dat2 (U9 m) c).arrAt 6 cfg2.N := W10_arr m c 6
theorem W10_res1 (c : Dev nD) : W10 m c (Proc.devRef .tc main_v53_1) = (dat2 (U9 m) c).arrAt 7 cfg2.N := W10_arr m c 7

end Cert.Kernel.Hand

end
-- ==== Proof.KFrame2.lean ====
/-
  Region 2's body obligation: at every grid point the pooling-and-decoder body, started from the invariant and the
  windows' current buffers, runs to the invariant at the next point — point 0 resets and updates the two scratch
  accumulators, points 1..18 update them, point 19 updates them and stores the two outputs — and the region's invariant
  is entered from, and gives back, the plain class invariant.
-/
import proofs.«408682_j48163763257711_1_alg».proof.Proof.Gen.Kernel.Launch
import proofs.«408682_j48163763257711_1_alg».proof.Proof.Gen.Kernel.Skeleton
import proofs.«408682_j48163763257711_1_alg».proof.Proof.Gen.Kernel.Points
import proofs.«408682_j48163763257711_1_alg».proof.Proof.KData2
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two conditions, in closed form over the grid -/

/-- The condition of the body's first conditional (reset the accumulators), from the grid coordinate. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val % 20 = 0 :=
  (by decide +kernel : ∀ t : Fin grid2.N, cond2_0 (grid2.coords t) ↔ t.val % 20 = 0)

/-- The condition of the body's second conditional (store the two outputs). -/
abbrev cond2_1 (i : grid2.Coords) : Prop := k2_cond2 i = 1#1
/-- It holds at the last point only. -/
theorem hcond2_1 : ∀ t : Fin cfg2.N, cond2_1 (grid2.coords t) ↔ t.val % 20 = 19 :=
  (by decide +kernel : ∀ t : Fin grid2.N, cond2_1 (grid2.coords t) ↔ t.val % 20 = 19)

/-! ## Where the two output windows are idle -/

/-- Away from the last point the configuration calls output 6 idle (the body stores nothing into it there), -/
theorem idleAt2_6 : ∀ t : Fin cfg2.N, ¬cond2_1 (grid2.coords t) → cfg2.idle 6 (grid2.coords t) = true := by decide +kernel
/-- and the pipeline does not write its block back. -/
theorem noFlush2_6 : ∀ t : Fin cfg2.N, ¬cond2_1 (grid2.coords t) → (cfg2.win 6).flush t = false := by decide +kernel
/-- At the last point it is live. -/
theorem liveAt2_6 : ∀ t : Fin cfg2.N, cond2_1 (grid2.coords t) → cfg2.idle 6 (grid2.coords t) = false := by decide +kernel
/-- The same for output 7. -/
theorem idleAt2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
theorem liveAt2_7 : ∀ t : Fin cfg2.N, cond2_1 (grid2.coords t) → cfg2.idle 7 (grid2.coords t) = false := by decide +kernel

/-! ## Whole-buffer stores cover -/

theorem zeroOff2 : (![0, 0] : Fin 2 → Nat) = fun _ => 0 := funext fun a => by fin_cases a <;> rfl

abbrev rAcc2 : Rect S64x128 := Rect.unit (s := S64x128) ![0, 0] S64x128.size inb_S64x128_S64x128_0_0
abbrev rOut2 : Rect S64x64 := Rect.unit (s := S64x64) ![0, 0] S64x64.size inb_S64x64_S64x64_0_0

/-- A list of stores whose last is a whole-buffer store covers the buffer. -/
theorem cover2_acc (p : Vec F S64x128 .f32) (L : List (View.Piece (Elt F) S64x128 .f32)) (y : S64x128.Idx) :
    ∃ pc ∈ ((⟨rAcc2, p⟩ : View.Piece (Elt F) S64x128 .f32) :: L), y ∈ pc.1.set :=
  ⟨_, List.mem_cons_self, View.mem_set_unit_zero zeroOff2 inb_S64x128_S64x128_0_0 y⟩

theorem cover2_out (p : Vec F S64x64 .f32) (L : List (View.Piece (Elt F) S64x64 .f32)) (y : S64x64.Idx) :
    ∃ pc ∈ ((⟨rOut2, p⟩ : View.Piece (Elt F) S64x64 .f32) :: L), y ∈ pc.1.set :=
  ⟨_, List.mem_cons_self, View.mem_set_unit_zero zeroOff2 inb_S64x64_S64x64_0_0 y⟩

/-! ## The class invariant, opened at the two scratch buffers -/

/-- The class invariant with this call's two scratch buffers taken out of the core's scoped rest as memrefs owned at
    some contents; the other scoped buffers stay unopened. -/
theorem PhiA2_eq (c : Dev nD) :
    (Pipeline.ΦA spec2 c : sProp 𝕄)
      = iprop((∃ d, owns (c : Thread nD τ) scM2_0 fullShare d) ∗ (∃ d, owns (c : Thread nD τ) scM2_1 fullShare d)
          ∗ Pipeline.scopedRestBut (Ix := Unit) (Name := ℕ) (U := UR sig nD τ) (Lvl := ℕ) (Val := Elt F) spec2 c [cc2_scratch0, cc2_scratch1]
          ∗ (∃ r, prngReg c r)) := by
  unfold Pipeline.ΦA
  rw [Pipeline.scopedRest_split_of_list spec2 c [cc2_scratch0, cc2_scratch1] (by decide) (by decide)]
  simp only [scM2_0, scM2_1, owns_whole, bigSepL]
  have h₁ : (iprop((((∃ f, ((c : Thread nD τ).loc cc2_scratch0) ↦{fullShare} f) ∗ (∃ f, ((c : Thread nD τ).loc cc2_scratch1) ↦{fullShare} f))
          ∗ Pipeline.scopedRestBut (Ix := Unit) (Name := ℕ) (U := UR sig nD τ) (Lvl := ℕ) (Val := Elt F) spec2 c [cc2_scratch0, cc2_scratch1]) ∗ ∃ r, prngReg c r) : sProp 𝕄)
      ⊢ (iprop((∃ d, ((c : Thread nD τ).loc cc2_scratch0) ↦{fullShare} d) ∗ (∃ d, ((c : Thread nD τ).loc cc2_scratch1) ↦{fullShare} d)
          ∗ Pipeline.scopedRestBut (Ix := Unit) (Name := ℕ) (U := UR sig nD τ) (Lvl := ℕ) (Val := Elt F) spec2 c [cc2_scratch0, cc2_scratch1] ∗ (∃ r, prngReg c r)) : sProp 𝕄) := by
    iintro ⟨⟨⟨H0, H1⟩, Hr⟩, Hg⟩
    isplitl [H0]; · iexact H0
    isplitl [H1]; · iexact H1
    isplitl [Hr]; · iexact Hr
    iexact Hg
  have h₂ : (iprop((∃ d, ((c : Thread nD τ).loc cc2_scratch0) ↦{fullShare} d) ∗ (∃ d, ((c : Thread nD τ).loc cc2_scratch1) ↦{fullShare} d)
          ∗ Pipeline.scopedRestBut (Ix := Unit) (Name := ℕ) (U := UR sig nD τ) (Lvl := ℕ) (Val := Elt F) spec2 c [cc2_scratch0, cc2_scratch1] ∗ (∃ r, prngReg c r)) : sProp 𝕄)
      ⊢ (iprop((((∃ f, ((c : Thread nD τ).loc cc2_scratch0) ↦{fullShare} f) ∗ (∃ f, ((c : Thread nD τ).loc cc2_scratch1) ↦{fullShare} f))
          ∗ Pipeline.scopedRestBut (Ix := Unit) (Name := ℕ) (U := UR sig nD τ) (Lvl := ℕ) (Val := Elt F) spec2 c [cc2_scratch0, cc2_scratch1]) ∗ ∃ r, prngReg c r) : sProp 𝕄) := by
    iintro ⟨H0, H1, Hr, Hg⟩
    isplitr [Hg]; swap; · iexact Hg
    isplitr [Hr]; swap; · iexact Hr
    isplitl [H0]; · iexact H0
    iexact H1
  exact BI.equiv_iff.mp ⟨h₁, h₂⟩

/-! ## The inputs' buffers hold their blocks at every point -/

/-- An input window's current staging buffer holds its block at every point, whether the point fetches it or not
    (a block whose index has not moved is still the block); one statement per input window. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The accumulators at a point, by the point's case -/

/-- At the first point: the update of the zeroed accumulators. -/
theorem accAt_first (c : Dev nD) (t : Fin cfg2.N) (ht0 : t.val = 0) :
    accAt V c t.val t.isLt = (k2_pay4 (iblk2 V c 1 t) (iblk2 V c 0 t) (k2_pay1 (F := F)), k2_pay5 (iblk2 V c 1 t) (k2_pay2 (F := F))) := by
  obtain ⟨n, hn⟩ := t
  cases n with
  | zero => rfl
  | succ n => exact absurd ht0 (Nat.succ_ne_zero _)

/-- At a later point: the update of what the point before left. -/
theorem accAt_later (c : Dev nD) (t : Fin cfg2.N) (ht0 : t.val ≠ 0) :
    accAt V c t.val t.isLt = (k2_pay4 (iblk2 V c 1 t) (iblk2 V c 0 t) (accAt V c (t.val - 1) (Nat.lt_of_le_of_lt (Nat.sub_le _ _) t.isLt)).1,
      k2_pay5 (iblk2 V c 1 t) (accAt V c (t.val - 1) (Nat.lt_of_le_of_lt (Nat.sub_le _ _) t.isLt)).2) := by
  obtain ⟨n, hn⟩ := t
  cases n with
  | zero => exact absurd rfl ht0
  | succ n => rfl

theorem accAt_first_1 (c : Dev nD) (t : Fin cfg2.N) (ht0 : t.val = 0) :
    (accAt V c t.val t.isLt).1 = k2_pay4 (iblk2 V c 1 t) (iblk2 V c 0 t) (k2_pay1 (F := F)) := by rw [accAt_first V c t ht0]
theorem accAt_first_2 (c : Dev nD) (t : Fin cfg2.N) (ht0 : t.val = 0) :
    (accAt V c t.val t.isLt).2 = k2_pay5 (iblk2 V c 1 t) (k2_pay2 (F := F)) := by rw [accAt_first V c t ht0]
theorem accAt_later_1 (c : Dev nD) (t : Fin cfg2.N) (ht0 : t.val ≠ 0) :
    (accAt V c t.val t.isLt).1 = k2_pay4 (iblk2 V c 1 t) (iblk2 V c 0 t) (accAt V c (t.val - 1) (Nat.lt_of_le_of_lt (Nat.sub_le _ _) t.isLt)).1 := by
  rw [accAt_later V c t ht0]
theorem accAt_later_2 (c : Dev nD) (t : Fin cfg2.N) (ht0 : t.val ≠ 0) :
    (accAt V c t.val t.isLt).2 = k2_pay5 (iblk2 V c 1 t) (accAt V c (t.val - 1) (Nat.lt_of_le_of_lt (Nat.sub_le _ _) t.isLt)).2 := by
  rw [accAt_later V c t ht0]

/-! ## The body on whole memrefs, case by case -/

set_option maxHeartbeats 4000000 in
/-- Point 0: the first conditional is taken, the second is not; both accumulators are zeroed, then updated. Whatever the
    scratch held on entry is overwritten. -/
theorem run2_A (c : Dev nD) (E : Set ℕ) (i : grid2.Coords)
    (arg1 : Memref sig .tc .vmem S5000x128 .f32) (harg1 : arg1.IsWhole) (arg2 : Memref sig .tc .vmem S5000x1 .i32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x64 .f32) (harg5 : arg5.IsWhole) (arg6 : Memref sig .tc .vmem S1x64 .f32) (harg6 : arg6.IsWhole)
    (arg7 : Memref sig .tc .vmem S64x128 .f32) (harg7 : arg7.IsWhole) (arg8 : Memref sig .tc .vmem S64x64 .f32) (harg8 : arg8.IsWhole)
    (arg9 : Memref sig .tc .vmem S64x128 .f32) (harg9 : arg9.IsWhole) (arg10 : Memref sig .tc .vmem S64x128 .f32) (harg10 : arg10.IsWhole)
    (hc0 : cond2_0 i) (hc1 : ¬cond2_1 i)
    (x0 : Vec F S5000x128 .f32) (x1 : Vec F S5000x1 .i32) (K : PUnit → sProp 𝕄) :
    iprop(owns (c : Thread nD τ) arg1 fullShare x0 ∗ owns (c : Thread nD τ) arg2 fullShare x1
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1
            ∗ owns (c : Thread nD τ) arg9 fullShare (k2_pay4 x1 x0 (k2_pay1 (F := F))) ∗ owns (c : Thread nD τ) arg10 fullShare (k2_pay5 x1 (k2_pay2 (F := F)))) -∗ K ⟨⟩))
      ⊢ wp frame (wpE (defs₀ (F := F)) Variants.none c none) E (cc2__pool_decode_kernel i arg1 harg1 arg2 harg2 arg3 harg3 arg4 harg4 arg5 harg5 arg6 harg6 arg7 harg7 arg8 harg8 arg9 harg9 arg10 harg10) K := by
  simp only [cc2__pool_decode_kernel_eq_skeleton]; unfold cc2__pool_decode_kernel_skel
  unfold owns
  iintro ⟨⟨%f0, %hf0, H0⟩, ⟨%f1, %hf1, H1⟩, ⟨%ds0, %fs0, -, HS0⟩, ⟨%ds1, %fs1, -, HS1⟩, Hk⟩
  obtain rfl := harg1.eq_unread hf0; obtain rfl := harg2.eq_unread hf1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [HS0]
  · iexists _; isplitr
    swap; · iexact HS0
    ipureintro
    rw [View.read_writes_eq_canon _ _ _ (cover2_acc _ _), View.canon_cons_unit_zero (S := S64x128) zeroOff2]
    sl_unfold_words
    simp only [View.readAt_eq_ld, harg1.read_unread, harg2.read_unread, View.readCov_unit_zero (S := S64x128) _ zeroOff2,
      View.ld_unit_zero (S := S5000x128) zeroOff2, View.ld_unit_zero (S := S5000x1) zeroOff2]
  iexists _; isplitr
  swap; · iexact HS1
  ipureintro
  rw [View.read_writes_eq_canon _ _ _ (cover2_acc _ _), View.canon_cons_unit_zero (S := S64x128) zeroOff2]
  sl_unfold_words
  simp only [View.readAt_eq_ld, harg2.read_unread, View.readCov_unit_zero (S := S64x128) _ zeroOff2,
    View.ld_unit_zero (S := S5000x1) zeroOff2]

set_option maxHeartbeats 4000000 in
/-- Points 1..18: neither conditional is taken; the two accumulators are updated from the point's blocks. -/
theorem run2_B (c : Dev nD) (E : Set ℕ) (i : grid2.Coords)
    (arg1 : Memref sig .tc .vmem S5000x128 .f32) (harg1 : arg1.IsWhole) (arg2 : Memref sig .tc .vmem S5000x1 .i32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x64 .f32) (harg5 : arg5.IsWhole) (arg6 : Memref sig .tc .vmem S1x64 .f32) (harg6 : arg6.IsWhole)
    (arg7 : Memref sig .tc .vmem S64x128 .f32) (harg7 : arg7.IsWhole) (arg8 : Memref sig .tc .vmem S64x64 .f32) (harg8 : arg8.IsWhole)
    (arg9 : Memref sig .tc .vmem S64x128 .f32) (harg9 : arg9.IsWhole) (arg10 : Memref sig .tc .vmem S64x128 .f32) (harg10 : arg10.IsWhole)
    (hc0 : ¬cond2_0 i) (hc1 : ¬cond2_1 i)
    (x0 : Vec F S5000x128 .f32) (x1 : Vec F S5000x1 .i32) (s n : Vec F S64x128 .f32) (K : PUnit → sProp 𝕄) :
    iprop(owns (c : Thread nD τ) arg1 fullShare x0 ∗ owns (c : Thread nD τ) arg2 fullShare x1
        ∗ owns (c : Thread nD τ) arg9 fullShare s ∗ owns (c : Thread nD τ) arg10 fullShare n
        ∗ (iprop(owns (c : Thread nD τ) arg1 fullShare x0 ∗ owns (c : Thread nD τ) arg2 fullShare x1
            ∗ owns (c : Thread nD τ) arg9 fullShare (k2_pay4 x1 x0 s) ∗ owns (c : Thread nD τ) arg10 fullShare (k2_pay5 x1 n)) -∗ K ⟨⟩))
      ⊢ wp frame (wpE (defs₀ (F := F)) Variants.none c none) E (cc2__pool_decode_kernel i arg1 harg1 arg2 harg2 arg3 harg3 arg4 harg4 arg5 harg5 arg6 harg6 arg7 harg7 arg8 harg8 arg9 harg9 arg10 harg10) K := by
  simp only [cc2__pool_decode_kernel_eq_skeleton]; unfold cc2__pool_decode_kernel_skel
  unfold owns
  iintro ⟨⟨%f0, %hf0, H0⟩, ⟨%f1, %hf1, H1⟩, ⟨%fs0, %hfs0, HS0⟩, ⟨%fs1, %hfs1, HS1⟩, Hk⟩
  obtain rfl := harg1.eq_unread hf0; obtain rfl := harg2.eq_unread hf1
  obtain rfl := harg9.eq_unread hfs0; obtain rfl := harg10.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [HS0]
  · iexists _; isplitr
    swap; · iexact HS0
    ipureintro
    rw [View.read_writes_eq_canon _ _ _ (cover2_acc _ _), View.canon_unit_zero zeroOff2]
    simp only [View.readAt_eq_ld, harg1.read_unread, harg2.read_unread, harg9.read_unread,
      View.ld_unit_zero (S := S5000x128) zeroOff2, View.ld_unit_zero (S := S5000x1) zeroOff2, View.ld_unit_zero (S := S64x128) zeroOff2]
  iexists _; isplitr
  swap; · iexact HS1
  ipureintro
  rw [View.read_writes_eq_canon _ _ _ (cover2_acc _ _), View.canon_unit_zero zeroOff2]
  simp only [View.readAt_eq_ld, harg2.read_unread, harg10.read_unread,
    View.ld_unit_zero (S := S5000x1) zeroOff2, View.ld_unit_zero (S := S64x128) zeroOff2]

set_option maxHeartbeats 8000000 in
/-- Point 19: the first conditional is not taken, the second is; after the update both accumulators are read back and
    the quotient and its decoder are stored over the two output blocks. -/
theorem run2_C (c : Dev nD) (E : Set ℕ) (i : grid2.Coords)
    (arg1 : Memref sig .tc .vmem S5000x128 .f32) (harg1 : arg1.IsWhole) (arg2 : Memref sig .tc .vmem S5000x1 .i32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x64 .f32) (harg5 : arg5.IsWhole) (arg6 : Memref sig .tc .vmem S1x64 .f32) (harg6 : arg6.IsWhole)
    (arg7 : Memref sig .tc .vmem S64x128 .f32) (harg7 : arg7.IsWhole) (arg8 : Memref sig .tc .vmem S64x64 .f32) (harg8 : arg8.IsWhole)
    (arg9 : Memref sig .tc .vmem S64x128 .f32) (harg9 : arg9.IsWhole) (arg10 : Memref sig .tc .vmem S64x128 .f32) (harg10 : arg10.IsWhole)
    (hc0 : ¬cond2_0 i) (hc1 : cond2_1 i)
    (x0 : Vec F S5000x128 .f32) (x1 : Vec F S5000x1 .i32) (x2 : Vec F S128x128 .f32) (x3 : Vec F S1x128 .f32)
    (x4 : Vec F S128x64 .f32) (x5 : Vec F S1x64 .f32) (s n : Vec F S64x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ owns (c : Thread nD τ) arg9 fullShare s ∗ owns (c : Thread nD τ) arg10 fullShare n
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (k2_pay6 (k2_pay4 x1 x0 s) (k2_pay5 x1 n))
            ∗ owns (c : Thread nD τ) arg8 fullShare (k2_pay7 (k2_pay4 x1 x0 s) (k2_pay5 x1 n) x2 x3 x4 x5)
            ∗ owns (c : Thread nD τ) arg9 fullShare (k2_pay4 x1 x0 s) ∗ owns (c : Thread nD τ) arg10 fullShare (k2_pay5 x1 n)) -∗ K ⟨⟩))
      ⊢ wp frame (wpE (defs₀ (F := F)) Variants.none c none) E (cc2__pool_decode_kernel i arg1 harg1 arg2 harg2 arg3 harg3 arg4 harg4 arg5 harg5 arg6 harg6 arg7 harg7 arg8 harg8 arg9 harg9 arg10 harg10) K := by
  simp only [cc2__pool_decode_kernel_eq_skeleton]; unfold cc2__pool_decode_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, ⟨%fs0, %hfs0, HS0⟩, ⟨%fs1, %hfs1, HS1⟩, Hk⟩
  obtain rfl := harg1.eq_unread hf0; obtain rfl := harg2.eq_unread hf1
  obtain rfl := harg3.eq_unread hf2; obtain rfl := harg4.eq_unread hf3
  obtain rfl := harg5.eq_unread hf4; obtain rfl := harg6.eq_unread hf5
  obtain rfl := harg9.eq_unread hfs0; obtain rfl := harg10.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    rw [View.read_writes_eq_canon _ _ _ (cover2_acc _ _), View.canon_unit_zero zeroOff2]
    sl_unfold_words
    simp only [View.readAt_eq_ld, harg1.read_unread, harg2.read_unread, harg9.read_unread, harg10.read_unread,
      View.readCov_unit_zero (S := S64x128) _ zeroOff2,
      View.ld_unit_zero (S := S5000x128) zeroOff2, View.ld_unit_zero (S := S5000x1) zeroOff2, View.ld_unit_zero (S := S64x128) zeroOff2]
  isplitl [H7]
  · iexists _; isplitr
    swap; · iexact H7
    ipureintro
    rw [View.read_writes_eq_canon _ _ _ (cover2_out _ _), View.canon_unit_zero zeroOff2]
    sl_unfold_words
    simp only [View.readAt_eq_ld, harg1.read_unread, harg2.read_unread, harg3.read_unread, harg4.read_unread,
      harg5.read_unread, harg6.read_unread, harg9.read_unread, harg10.read_unread,
      View.readCov_unit_zero (S := S64x128) _ zeroOff2,
      View.ld_unit_zero (S := S5000x128) zeroOff2, View.ld_unit_zero (S := S5000x1) zeroOff2, View.ld_unit_zero (S := S64x128) zeroOff2,
      View.ld_unit_zero (S := S128x128) zeroOff2, View.ld_unit_zero (S := S1x128) zeroOff2, View.ld_unit_zero (S := S128x64) zeroOff2,
      View.ld_unit_zero (S := S1x64) zeroOff2]
  isplitl [HS0]
  · iexists _; isplitr
    swap; · iexact HS0
    ipureintro
    sl_unfold_words
    rw [View.read_writes_eq_canon _ _ _ (cover2_acc _ _), View.canon_unit_zero zeroOff2]
    simp only [View.readAt_eq_ld, harg1.read_unread, harg2.read_unread, harg9.read_unread,
      View.ld_unit_zero (S := S5000x128) zeroOff2, View.ld_unit_zero (S := S5000x1) zeroOff2, View.ld_unit_zero (S := S64x128) zeroOff2]
  iexists _; isplitr
  swap; · iexact HS1
  ipureintro
  sl_unfold_words
  rw [View.read_writes_eq_canon _ _ _ (cover2_acc _ _), View.canon_unit_zero zeroOff2]
  simp only [View.readAt_eq_ld, harg2.read_unread, harg10.read_unread,
    View.ld_unit_zero (S := S5000x1) zeroOff2, View.ld_unit_zero (S := S64x128) zeroOff2]

/-! ## The body obligation at a point, the windows one by one -/

/-- What the body is called with at point `t`: the invariant, what the core owes, every window's current buffer. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- What it returns: the invariant at the next point and every current buffer at what the body left. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 8000000 in
/-- The body at any point. The inputs' buffers hold their blocks; the point's case is read off the closed forms of
    the two conditions; the invariant hands the body the two scratch buffers (at anything at the first point, at the
    accumulators the point before left afterwards) and takes them back at this point's accumulators; the other scoped
    buffers, the generator register and what the core owes pass through; the outputs' buffers come back untouched away
    from the last point and hold the quotient and its decoder at the last. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = Phi2 V c (t.val + 1) t.isLt from rfl, Phi2_succ]
  rw [show (dat2 V c).leavesExact 0 t = owns (c : Thread nD τ) (st2_0 t) fullShare ((dat2 V c).after 0 t) from rfl, after2_0]
  rw [show (dat2 V c).leavesExact 1 t = owns (c : Thread nD τ) (st2_1 t) fullShare ((dat2 V c).after 1 t) from rfl, after2_1]
  rw [show (dat2 V c).leavesExact 2 t = owns (c : Thread nD τ) (st2_2 t) fullShare ((dat2 V c).after 2 t) from rfl, after2_2]
  rw [show (dat2 V c).leavesExact 3 t = owns (c : Thread nD τ) (st2_3 t) fullShare ((dat2 V c).after 3 t) from rfl, after2_3]
  rw [show (dat2 V c).leavesExact 4 t = owns (c : Thread nD τ) (st2_4 t) fullShare ((dat2 V c).after 4 t) from rfl, after2_4]
  rw [show (dat2 V c).leavesExact 5 t = owns (c : Thread nD τ) (st2_5 t) fullShare ((dat2 V c).after 5 t) from rfl, after2_5]
  have hN : t.val < 20 := lt_of_lt_of_eq t.isLt (show cfg2.N = 20 from N_2)
  by_cases h1 : t.val % 20 = 19
  · have ht0 : t.val ≠ 0 := by omega
    have hc0 : ¬cond2_0 (grid2.coords t) := fun h => by have := (hcond2_0 t).mp h; omega
    have hc1 : cond2_1 (grid2.coords t) := (hcond2_1 t).mpr h1
    rw [show (dat2 V c).leavesExact 6 t = owns (c : Thread nD τ) (st2_6 t) fullShare ((dat2 V c).after 6 t) from by
      unfold Dat.leavesExact; rw [liveAt2_6 t hc1], after2_6]
    rw [show (dat2 V c).leavesExact 7 t = owns (c : Thread nD τ) (st2_7 t) fullShare ((dat2 V c).after 7 t) from by
      unfold Dat.leavesExact; rw [liveAt2_7 t hc1], after2_7]
    rw [accAt_later_1 V c t ht0, accAt_later_2 V c t ht0]
    rw [Phi2_castSucc V c t, Phi2_pos V c _ _ ht0]
    iintro ⟨⟨HS0, HS1, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run2_C c Set.univ (grid2.coords t) _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hr Hg]
    · isplitl [HS0]; · iexact HS0
      isplitl [HS1]; · iexact HS1
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hc1 : ¬cond2_1 (grid2.coords t) := fun h => h1 ((hcond2_1 t).mp h)
    rw [Dat.leavesExact_idle (dat2 V c) 6 t (idleAt2_6 t hc1) (noFlush2_6 t hc1),
        Dat.leavesExact_idle (dat2 V c) 7 t (idleAt2_7 t hc1) (noFlush2_7 t hc1)]
    by_cases h0 : t.val % 20 = 0
    · have ht0 : t.val = 0 := by omega
      have hc0 : cond2_0 (grid2.coords t) := (hcond2_0 t).mpr h0
      rw [accAt_first_1 V c t ht0, accAt_first_2 V c t ht0]
      rw [Phi2_castSucc V c t, Phi2_zero V c _ _ ht0, PhiA2_eq]
      iintro ⟨⟨HS0, HS1, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run2_A c Set.univ (grid2.coords t) _ _ _ _ _ _ _ _ _ _ _ _ _ _ _ _ _ _ _ _ hc0 hc1 (iblk2 V c 0 t) (iblk2 V c 1 t) _)
      isplitl [H0]; · iexact H0
      isplitl [H1]; · iexact H1
      isplitl [HS0]; · iexact HS0
      isplitl [HS1]; · iexact HS1
      iintro ⟨H0, H1, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · have ht0 : t.val ≠ 0 := by omega
      have hc0 : ¬cond2_0 (grid2.coords t) := fun h => h0 ((hcond2_0 t).mp h)
      rw [accAt_later_1 V c t ht0, accAt_later_2 V c t ht0]
      rw [Phi2_castSucc V c t, Phi2_pos V c _ _ ht0]
      iintro ⟨⟨HS0, HS1, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run2_B c Set.univ (grid2.coords t) _ _ _ _ _ _ _ _ _ _ _ _ _ _ _ _ _ _ _ _ hc0 hc1 (iblk2 V c 0 t) (iblk2 V c 1 t) _ _ _)
      isplitl [H0]; · iexact H0
      isplitl [H1]; · iexact H1
      isplitl [HS0]; · iexact HS0
      isplitl [HS1]; · iexact HS1
      iintro ⟨H0, H1, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The pipeline rule's body obligation for region 2, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = Phi2 V c 0 (Nat.zero_le _) from rfl, Phi2_zero V c 0 _ rfl]

/-- After the last point the invariant gives the class invariant back (the accumulators' contents forgotten). -/
theorem hout2 (c : Dev nD) : (dat2 V c).Φ (Fin.last cfg2.N) ⊢ (Pipeline.ΦA spec2 c : sProp 𝕄) := by
  rw [show (dat2 V c).Φ (Fin.last cfg2.N) = Phi2 V c (Fin.last cfg2.N).val (Nat.le_of_lt_succ (Fin.last cfg2.N).isLt) from rfl]
  rw [Phi2_pos V c _ _ (by rw [Fin.val_last]; have : cfg2.N = 20 := N_2; omega), PhiA2_eq]
  iintro ⟨HS0, HS1, Hr, Hg⟩
  isplitl [HS0]; · iexists _; iexact HS0
  isplitl [HS1]; · iexists _; iexact HS1
  isplitl [Hr]; · iexact Hr
  iexact Hg

end Cert.Kernel.Hand

end
-- ==== Proof.KRun.lean ====
/-
  The run of the whole idealized kernel program: @main as ten items (host stretches and the three kernel regions), each
  region entered with every unscoped buffer at the fold's contents before it and left at the contents after it; every
  weakly fair execution from the launch memory terminates without a fault with EVERY unscoped buffer at the fold's last
  contents.  The arguments are read back through the fold to their launch contents.
-/
import proofs.«408682_j48163763257711_1_alg».proof.Proof.Gen.Kernel.Launch
import proofs.«408682_j48163763257711_1_alg».proof.Proof.Gen.Kernel.Skeleton
import proofs.«408682_j48163763257711_1_alg».proof.Proof.Gen.Kernel.Points
import proofs.«408682_j48163763257711_1_alg».proof.Proof.KFold
import proofs.«408682_j48163763257711_1_alg».proof.Proof.KFrame2
import proofs.«408682_j48163763257711_1_alg».proof.Proof.Gen.Kernel.Regions
import Idealize.ShloMosaic.Lib.Pipeline.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

namespace Run

/-! ## What every item carries beside the buffers -/

/-- Each pipeline's proof data at the contents its region is entered with: region 0 after the third host stretch,
    region 1 after the sixth, region 2 after the seventh. -/
def pdats : (p : Fin 3) → (c : Dev nD) → Dat τ (Elt F) Unit ℕ (UR sig nD τ) ℕ (Pipeline.pin (pcfgs (F := F)) adm p) c
  | ⟨0, _⟩ => fun c => dat0 (U3 m) c
  | ⟨1, _⟩ => fun c => dat1 (U7 m) c
  | ⟨2, _⟩ => fun c => dat2 (U9 m) c

/-- No pair of cores is assigned a level: no core ever owes another a unit. -/
abbrev L : GSem nD τ sig → Finset Unit := fun _ => ∅
abbrev lv : GSem nD τ sig → Unit → ℕ := fun _ _ => 0

/-- The core owing nothing, whatever pairs its waits have recorded. -/
abbrev Owe0 (c : Dev nD) : sProp 𝕄 := iprop(∃ W, owes (c : Thread nD τ) (0 : CellTallies nD τ sig Unit) W)
/-- The core's generator register at some state. -/
abbrev Gen0 (c : Dev nD) : sProp 𝕄 := iprop(∃ r, prngReg c r)
/-- Beside the buffers every item is entered with, and leaves, the generator register at some state and nothing owed. -/
abbrev R (c : Dev nD) : sProp 𝕄 := iprop(Gen0 c ∗ Owe0 c)

/-- A stretch of host operations from the contents `W`: it leaves the unscoped buffers at the stretch applied to `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The state at the end of @main, the `owes` apart: every unscoped buffer at the fold's last contents and the generator
    register at some state. -/
abbrev Tₙ (c : Dev nD) : sProp 𝕄 := iprop(StableHlo.held (c : Thread nD τ) (Pipeline.ucRefs τ sig) (W10 m c) ∗ Gen0 c)

/-! ## Three small entailments every region's record uses -/

section Small
variable {cfg : Pipeline.Cfg sig Λ₀} {c : Dev nD} (dat : Dat τ (Elt F) Unit ℕ (UR sig nD τ) ℕ cfg c)

/-- At a point where the data owe nothing and leave the recorded pairs unbounded, the core owing nothing is the
    data's own account of what it owes. -/
theorem owesAt_intro (t : Fin (cfg.N + 1)) (h0 : dat.owed t = 0) (hrec : dat.recorded t = Set.univ) :
    (Owe0 c : sProp 𝕄) ⊢ dat.owesAt () t := by
  unfold Pipeline.Dat.owesAt Pipeline.owesWithin
  iintro ⟨%W, HO⟩
  iexists W
  isplitr
  · ipureintro; intro x _; left; rw [hrec]; trivial
  rw [h0]; iexact HO

/-- And back: the bound on the recorded pairs is dropped. -/
theorem owesAt_elim (t : Fin (cfg.N + 1)) (h0 : dat.owed t = 0) :
    dat.owesAt () t ⊢ (Owe0 c : sProp 𝕄) := by
  unfold Pipeline.Dat.owesAt Pipeline.owesWithin
  iintro ⟨%W, -, HO⟩
  iexists W
  rw [h0]; iexact HO

end Small

set_option backward.isDefEq.respectTransparency.types false in
/-- REGION 0 as an item: entered with every unscoped buffer at W3, left with them at W4.  Entry splits the region's
    arrays out of the unscoped buffers and passes the generator register to the invariant; exit puts the arrays back at
    what the write-backs left, the other buffers untouched.  The kernel has no semaphore of its own and no table. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (U3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := Gen0 c
  Y c := Gen0 c
  Z c := Pipeline.unscopedRest (Ix := Unit) (Name := ℕ) (U := UR sig nD τ) (Lvl := ℕ) spec0 c (U3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U3 m c) fun _ => rfl
    rw [Pipeline.unscopedBufs_held] at hsplit
    have howe := owesAt_intro (pdats m 0 c) 0 rfl rfl
    iintro ⟨⟨Hbufs, Hgen, Howe⟩, -, -⟩
    ihave Hsp := hsplit $$ Hbufs
    icases Hsp with ⟨Harr, Hrest⟩
    ihave Ho := howe $$ Howe
    imodintro
    isplitl [Harr]; · iexact Harr
    isplitr
    · unfold Pipeline.prefHeld; rw [show (Finset.univ : Finset (Fin 0)) = ∅ from rfl, BI.bigSep_empty]; iempintro
    isplitl [Ho]; · iexact Ho
    isplitl [Hgen]; · iexact Hgen
    iexact Hrest
  hin c := by
    rw [show (pdats m 0 c).Φ 0 = Pipeline.ΦA spec0 c from rfl]; unfold Pipeline.ΦA
    iintro ⟨Hgen, -, Hscr⟩
    isplitl [Hscr]; · iexact Hscr
    iexact Hgen
  hout c := by
    rw [Pipeline.ownSems0_none, show (pdats m 0 c).Φ (Fin.last _) = Pipeline.ΦA spec0 c from rfl]; unfold Pipeline.ΦA
    iintro ⟨Hscr, Hgen⟩
    isplitl [Hgen]; · iexact Hgen
    isplitr; · iempintro
    iexact Hscr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U3 m c) (U4 m c) ((pdats m 0 c).arrAt · cfg0.N) (hF0 m c) (hrest0 m c)
    rw [Pipeline.unscopedBufs_held] at hjoin
    have howe := owesAt_elim (pdats m 0 c) (Fin.last _) rfl
    iintro ⟨Harr, Howe, Hgen, Hrest⟩
    ihave Hbufs := hjoin $$ [Harr Hrest]
    · isplitl [Harr] <;> iassumption
    ihave Ho := howe $$ Howe
    imodintro
    isplitl [Hbufs]; · iexact Hbufs
    isplitl [Hgen]; · iexact Hgen
    iexact Ho

set_option backward.isDefEq.respectTransparency.types false in
/-- REGION 1 as an item: entered with every unscoped buffer at W7, left with them at W8.  Entry splits the region's
    arrays out of the unscoped buffers and passes the generator register to the invariant; exit puts the arrays back at
    what the write-backs left, the other buffers untouched.  The kernel has no semaphore of its own and no table. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (U7 m) c).loose
  hwaits := Pipeline.hwaits_of_owed_zero _ _ _ _ L lv 1 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := Gen0 c
  Y c := Gen0 c
  Z c := Pipeline.unscopedRest (Ix := Unit) (Name := ℕ) (U := UR sig nD τ) (Lvl := ℕ) spec1 c (U7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U7 m c) fun _ => rfl
    rw [Pipeline.unscopedBufs_held] at hsplit
    have howe := owesAt_intro (pdats m 1 c) 0 rfl rfl
    iintro ⟨⟨Hbufs, Hgen, Howe⟩, -, -⟩
    ihave Hsp := hsplit $$ Hbufs
    icases Hsp with ⟨Harr, Hrest⟩
    ihave Ho := howe $$ Howe
    imodintro
    isplitl [Harr]; · iexact Harr
    isplitr
    · unfold Pipeline.prefHeld; rw [show (Finset.univ : Finset (Fin 0)) = ∅ from rfl, BI.bigSep_empty]; iempintro
    isplitl [Ho]; · iexact Ho
    isplitl [Hgen]; · iexact Hgen
    iexact Hrest
  hin c := by
    rw [show (pdats m 1 c).Φ 0 = Pipeline.ΦA spec1 c from rfl]; unfold Pipeline.ΦA
    iintro ⟨Hgen, -, Hscr⟩
    isplitl [Hscr]; · iexact Hscr
    iexact Hgen
  hout c := by
    rw [Pipeline.ownSems0_none, show (pdats m 1 c).Φ (Fin.last _) = Pipeline.ΦA spec1 c from rfl]; unfold Pipeline.ΦA
    iintro ⟨Hscr, Hgen⟩
    isplitl [Hgen]; · iexact Hgen
    isplitr; · iempintro
    iexact Hscr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U7 m c) (U8 m c) ((pdats m 1 c).arrAt · cfg1.N) (hF1 m c) (hrest1 m c)
    rw [Pipeline.unscopedBufs_held] at hjoin
    have howe := owesAt_elim (pdats m 1 c) (Fin.last _) rfl
    iintro ⟨Harr, Howe, Hgen, Hrest⟩
    ihave Hbufs := hjoin $$ [Harr Hrest]
    · isplitl [Harr] <;> iassumption
    ihave Ho := howe $$ Howe
    imodintro
    isplitl [Hbufs]; · iexact Hbufs
    isplitl [Hgen]; · iexact Hgen
    iexact Ho

set_option backward.isDefEq.respectTransparency.types false in
/-- REGION 2 as an item: entered with every unscoped buffer at W9, left with them at W10.  Entry splits the region's
    arrays out of the unscoped buffers and passes the generator register to the invariant; exit puts the arrays back at
    what the write-backs left, the other buffers untouched.  The kernel has no semaphore of its own and no table. -/
def reg2 : Pipeline.RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (U9 m) c).loose
  hwaits := Pipeline.hwaits_of_owed_zero _ _ _ _ L lv 2 fun _ _ => rfl
  pre c := iprop(StableHlo.held (c : Thread nD τ) (Pipeline.ucRefs τ sig) (W9 m c) ∗ R c)
  post c := iprop(Tₙ m c ∗ Owe0 c)
  X c := Gen0 c
  Y c := Gen0 c
  Z c := Pipeline.unscopedRest (Ix := Unit) (Name := ℕ) (U := UR sig nD τ) (Lvl := ℕ) spec2 c (U9 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U9 m c) fun _ => rfl
    rw [Pipeline.unscopedBufs_held] at hsplit
    have howe := owesAt_intro (pdats m 2 c) 0 rfl rfl
    iintro ⟨⟨Hbufs, Hgen, Howe⟩, -, -⟩
    ihave Hsp := hsplit $$ Hbufs
    icases Hsp with ⟨Harr, Hrest⟩
    ihave Ho := howe $$ Howe
    imodintro
    isplitl [Harr]; · iexact Harr
    isplitr
    · unfold Pipeline.prefHeld; rw [show (Finset.univ : Finset (Fin 0)) = ∅ from rfl, BI.bigSep_empty]; iempintro
    isplitl [Ho]; · iexact Ho
    isplitl [Hgen]; · iexact Hgen
    iexact Hrest
  hin c := by
    refine BIBase.Entails.trans ?_ (hin2 (U9 m) c)
    unfold Pipeline.ΦA
    iintro ⟨Hgen, -, Hscr⟩
    isplitl [Hscr]; · iexact Hscr
    iexact Hgen
  hout c := by
    rw [Pipeline.ownSems0_none]
    refine BIBase.Entails.trans (hout2 (U9 m) c) ?_
    unfold Pipeline.ΦA
    iintro ⟨Hscr, Hgen⟩
    isplitl [Hgen]; · iexact Hgen
    isplitr; · iempintro
    iexact Hscr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U9 m c) (U10 m c) ((pdats m 2 c).arrAt · cfg2.N) (hF2 m c) (hrest2 m c)
    rw [Pipeline.unscopedBufs_held] at hjoin
    have howe := owesAt_elim (pdats m 2 c) (Fin.last _) rfl
    iintro ⟨Harr, Howe, Hgen, Hrest⟩
    ihave Hbufs := hjoin $$ [Harr Hrest]
    · isplitl [Harr] <;> iassumption
    ihave Ho := howe $$ Howe
    imodintro
    isplitl [Hbufs Hgen]
    · isplitl [Hbufs]; · iexact Hbufs
      iexact Hgen
    iexact Ho

/-! ## @main as its ten items, and the launch -/

/-- The ten items in @main's order: each host stretch from the fold's contents before it, each region's record. -/
abbrev segs : List (Pipeline.Seg (pcfgs (F := F)) adm (pdats m) () defs₀ Variants.none L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .host (hseg hostOps1_1 hostOps1_1_sub hostOps1_1_fresh (W5 m)),
    .host (hseg hostOps1_2 hostOps1_2_sub hostOps1_2_fresh (W6 m)),
    .region (reg1 m),
    .host (hseg hostOps2 hostOps2_sub hostOps2_fresh (W8 m)),
    .region (reg2 m) ]

/-- @main is the run of the items: it is the chain of its ten fragments, and the items' fragments are those ten. -/
theorem main_run (c : Dev nD) : main (F := F) c = Pipeline.Seg.run (segs m) := by
  rw [main_chain c, Pipeline.Seg.run_eq_chain]
  rfl

set_option backward.isDefEq.respectTransparency.types false in
/-- The launch over the ten items.  The launch deals each core its unscoped buffers at the launch memory, its generator
    register and an empty account of what it owes: the first item's state.  The items' states chain by definition
    (each is entered from exactly what the one before it leaves).  The last state holds every unscoped buffer at the
    fold's last contents, and a points-to read against the final memory says the memory holds exactly those. -/
theorem launch : θ_run defs (onTc (τ := τ) (main (F := F))) ⟨m, fun _ => 0, ρ⟩ (fun r => ∀ c : Dev nD,
      ∀ b ∈ Pipeline.ucRefs τ sig, r.2.mem ((c : Thread nD τ).1, b) = W10 m c b) :=
  Pipeline.θ_run_regions_kit (pcfgs (F := F)) adm (pdats m) () cellOf_inj emb₁ defs₀ Variants.none L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Howe, -, Hgen, -⟩, -⟩
      imodintro
      isplitl [Hbufs]; · iexact Hbufs
      isplitl [Hgen]; · iexists _; iexact Hgen
      iexists ∅; iexact Howe)
    (QY := fun c s => ∀ b ∈ Pipeline.ucRefs τ sig, s.mem (((c : Thread nD τ)).1, b) = W10 m c b)
    (hfin := fun c s' => by
      iintro ⟨⟨Hbufs, -⟩, HSI⟩
      unfold StableHlo.held
      imodintro
      iapply (pointsTo_read_all (Pipeline.ucRefs τ sig) (fun b => (((c : Thread nD τ)).1, b)) (W10 m c) s')
      isplitl [Hbufs] <;> iassumption)
    (hQ := fun s h => h)

/-! ## Reading an argument back through the fold

A host stretch leaves a buffer it does not write as it found it; a region leaves a buffer none of its windows names as
it found it, and an array it only reads likewise (an input window's array is never written back). -/

/-- Across the three host stretches before region 0. -/
theorem W3_keep (c : Dev nD) (r : Ref sig .tc) (h0 : r ∉ hostOps0_W) (h1 : r ∉ hostOps0_1_W) (h2 : r ∉ hostOps0_2_W) :
    W3 m c (Proc.devRef .tc r) = m ((c : Thread nD τ).loc r) :=
  (StableHlo.after_of_writes_sub hostOps0_2 _ hostOps0_2_writes h2).trans <|
    (StableHlo.after_of_writes_sub hostOps0_1 _ hostOps0_1_writes h1).trans <|
      (StableHlo.after_of_writes_sub hostOps0 _ hostOps0_writes h0).trans rfl

/-- Across the three host stretches between regions 0 and 1. -/
theorem W7_keep (c : Dev nD) (r : Ref sig .tc) (h0 : r ∉ hostOps1_W) (h1 : r ∉ hostOps1_1_W) (h2 : r ∉ hostOps1_2_W) :
    W7 m c (Proc.devRef .tc r) = W4 m c (Proc.devRef .tc r) :=
  (StableHlo.after_of_writes_sub hostOps1_2 _ hostOps1_2_writes h2).trans <|
    (StableHlo.after_of_writes_sub hostOps1_1 _ hostOps1_1_writes h1).trans <|
      StableHlo.after_of_writes_sub hostOps1 _ hostOps1_writes h0

/-- Across the host stretch between regions 1 and 2. -/
theorem W9_keep (c : Dev nD) (r : Ref sig .tc) (h : r ∉ hostOps2_W) :
    W9 m c (Proc.devRef .tc r) = W8 m c (Proc.devRef .tc r) :=
  StableHlo.after_of_writes_sub hostOps2 _ hostOps2_writes h

/-- Region 0 leaves the array of an input window as it found it. -/
theorem W4_input (c : Dev nD) (w : Fin cfg0.W) (hin : (cfg0.win w).isOut = false) :
    W4 m c (Proc.devRef .tc (Pipeline.arrRef spec0 w)) = W3 m c (Proc.devRef .tc (Pipeline.arrRef spec0 w)) :=
  (W4_arr m c w).trans (((dat0 (U3 m) c).arrAt_in w hin _).trans (A_eq0 (U3 m) c w))
/-- Region 1 likewise. -/
theorem W8_input (c : Dev nD) (w : Fin cfg1.W) (hin : (cfg1.win w).isOut = false) :
    W8 m c (Proc.devRef .tc (Pipeline.arrRef spec1 w)) = W7 m c (Proc.devRef .tc (Pipeline.arrRef spec1 w)) :=
  (W8_arr m c w).trans (((dat1 (U7 m) c).arrAt_in w hin _).trans (A_eq1 (U7 m) c w))
/-- Region 2 likewise. -/
theorem W10_input (c : Dev nD) (w : Fin cfg2.W) (hin : (cfg2.win w).isOut = false) :
    W10 m c (Proc.devRef .tc (Pipeline.arrRef spec2 w)) = W9 m c (Proc.devRef .tc (Pipeline.arrRef spec2 w)) :=
  (W10_arr m c w).trans (((dat2 (U9 m) c).arrAt_in w hin _).trans (A_eq2 (U9 m) c w))

/-- A reference no host stretch writes, walked back from the end of @main to the launch, GIVEN that each region
    leaves it as found (the three hypotheses: by no window naming it, or by an input window naming it). -/
theorem W10_walk (c : Dev nD) (r : Ref sig .tc)
    (h0 : r ∉ hostOps0_W) (h01 : r ∉ hostOps0_1_W) (h02 : r ∉ hostOps0_2_W)
    (h1 : r ∉ hostOps1_W) (h11 : r ∉ hostOps1_1_W) (h12 : r ∉ hostOps1_2_W) (h2 : r ∉ hostOps2_W)
    (k0 : W4 m c (Proc.devRef .tc r) = W3 m c (Proc.devRef .tc r))
    (k1 : W8 m c (Proc.devRef .tc r) = W7 m c (Proc.devRef .tc r))
    (k2 : W10 m c (Proc.devRef .tc r) = W9 m c (Proc.devRef .tc r)) :
    W10 m c (Proc.devRef .tc r) = m ((c : Thread nD τ).loc r) :=
  k2.trans <| (W9_keep m c r h2).trans <| k1.trans <| (W7_keep m c r h1 h11 h12).trans <| k0.trans (W3_keep m c r h0 h01 h02)

end Run

/-- THE RUN: every weakly fair execution of @main terminates, nothing faulting, with every unscoped buffer of every core
    at the fold's last contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W10 m c b) := by
  exact Run.launch m ρ

/-- No host operation and no region writes argument 0: the fold read at it walks back to the launch memory. -/
theorem W10_main_arg0 (c : Dev nD) : W10 m c (Proc.devRef .tc main_arg0) = m ((c : Thread nD τ).loc main_arg0) := by
  exact Run.W10_walk m c main_arg0 (by decide) (by decide) (by decide) (by decide) (by decide) (by decide) (by decide)
    (Run.W4_input m c 0 rfl) (W8_of_ne m c main_arg0 (by decide)) (W10_of_ne m c main_arg0 (by decide))

/-- No host operation and no region writes argument 1: the fold read at it walks back to the launch memory. -/
theorem W10_main_arg1 (c : Dev nD) : W10 m c (Proc.devRef .tc main_arg1) = m ((c : Thread nD τ).loc main_arg1) := by
  exact Run.W10_walk m c main_arg1 (by decide) (by decide) (by decide) (by decide) (by decide) (by decide) (by decide)
    (W4_of_ne m c main_arg1 (by decide)) (W8_of_ne m c main_arg1 (by decide)) (W10_of_ne m c main_arg1 (by decide))

/-- No host operation and no region writes argument 2: the fold read at it walks back to the launch memory. -/
theorem W10_main_arg2 (c : Dev nD) : W10 m c (Proc.devRef .tc main_arg2) = m ((c : Thread nD τ).loc main_arg2) := by
  exact Run.W10_walk m c main_arg2 (by decide) (by decide) (by decide) (by decide) (by decide) (by decide) (by decide)
    (W4_of_ne m c main_arg2 (by decide)) (W8_of_ne m c main_arg2 (by decide)) (W10_of_ne m c main_arg2 (by decide))

/-- No host operation and no region writes argument 3: the fold read at it walks back to the launch memory. -/
theorem W10_main_arg3 (c : Dev nD) : W10 m c (Proc.devRef .tc main_arg3) = m ((c : Thread nD τ).loc main_arg3) := by
  exact Run.W10_walk m c main_arg3 (by decide) (by decide) (by decide) (by decide) (by decide) (by decide) (by decide)
    (W4_of_ne m c main_arg3 (by decide)) (W8_of_ne m c main_arg3 (by decide)) (W10_of_ne m c main_arg3 (by decide))

/-- No host operation and no region writes argument 4: the fold read at it walks back to the launch memory. -/
theorem W10_main_arg4 (c : Dev nD) : W10 m c (Proc.devRef .tc main_arg4) = m ((c : Thread nD τ).loc main_arg4) := by
  exact Run.W10_walk m c main_arg4 (by decide) (by decide) (by decide) (by decide) (by decide) (by decide) (by decide)
    (Run.W4_input m c 2 rfl) (W8_of_ne m c main_arg4 (by decide)) (W10_of_ne m c main_arg4 (by decide))

/-- No host operation and no region writes argument 5: the fold read at it walks back to the launch memory. -/
theorem W10_main_arg5 (c : Dev nD) : W10 m c (Proc.devRef .tc main_arg5) = m ((c : Thread nD τ).loc main_arg5) := by
  exact Run.W10_walk m c main_arg5 (by decide) (by decide) (by decide) (by decide) (by decide) (by decide) (by decide)
    (W4_of_ne m c main_arg5 (by decide)) (W8_of_ne m c main_arg5 (by decide)) (W10_of_ne m c main_arg5 (by decide))

/-- No host operation and no region writes argument 6: the fold read at it walks back to the launch memory. -/
theorem W10_main_arg6 (c : Dev nD) : W10 m c (Proc.devRef .tc main_arg6) = m ((c : Thread nD τ).loc main_arg6) := by
  exact Run.W10_walk m c main_arg6 (by decide) (by decide) (by decide) (by decide) (by decide) (by decide) (by decide)
    (W4_of_ne m c main_arg6 (by decide)) (Run.W8_input m c 2 rfl) (W10_of_ne m c main_arg6 (by decide))

/-- No host operation and no region writes argument 7: the fold read at it walks back to the launch memory. -/
theorem W10_main_arg7 (c : Dev nD) : W10 m c (Proc.devRef .tc main_arg7) = m ((c : Thread nD τ).loc main_arg7) := by
  exact Run.W10_walk m c main_arg7 (by decide) (by decide) (by decide) (by decide) (by decide) (by decide) (by decide)
    (W4_of_ne m c main_arg7 (by decide)) (W8_of_ne m c main_arg7 (by decide)) (W10_of_ne m c main_arg7 (by decide))

/-- No host operation and no region writes argument 8: the fold read at it walks back to the launch memory. -/
theorem W10_main_arg8 (c : Dev nD) : W10 m c (Proc.devRef .tc main_arg8) = m ((c : Thread nD τ).loc main_arg8) := by
  exact Run.W10_walk m c main_arg8 (by decide) (by decide) (by decide) (by decide) (by decide) (by decide) (by decide)
    (W4_of_ne m c main_arg8 (by decide)) (W8_of_ne m c main_arg8 (by decide)) (Run.W10_input m c 2 rfl)

/-- No host operation and no region writes argument 9: the fold read at it walks back to the launch memory. -/
theorem W10_main_arg9 (c : Dev nD) : W10 m c (Proc.devRef .tc main_arg9) = m ((c : Thread nD τ).loc main_arg9) := by
  exact Run.W10_walk m c main_arg9 (by decide) (by decide) (by decide) (by decide) (by decide) (by decide) (by decide)
    (W4_of_ne m c main_arg9 (by decide)) (W8_of_ne m c main_arg9 (by decide)) (W10_of_ne m c main_arg9 (by decide))

/-- No host operation and no region writes argument 10: the fold read at it walks back to the launch memory. -/
theorem W10_main_arg10 (c : Dev nD) : W10 m c (Proc.devRef .tc main_arg10) = m ((c : Thread nD τ).loc main_arg10) := by
  exact Run.W10_walk m c main_arg10 (by decide) (by decide) (by decide) (by decide) (by decide) (by decide) (by decide)
    (W4_of_ne m c main_arg10 (by decide)) (W8_of_ne m c main_arg10 (by decide)) (Run.W10_input m c 4 rfl)

/-- No host operation and no region writes argument 11: the fold read at it walks back to the launch memory. -/
theorem W10_main_arg11 (c : Dev nD) : W10 m c (Proc.devRef .tc main_arg11) = m ((c : Thread nD τ).loc main_arg11) := by
  exact Run.W10_walk m c main_arg11 (by decide) (by decide) (by decide) (by decide) (by decide) (by decide) (by decide)
    (W4_of_ne m c main_arg11 (by decide)) (W8_of_ne m c main_arg11 (by decide)) (W10_of_ne m c main_arg11 (by decide))

end Cert.Kernel.Hand

end
-- ==== Proof.KIFrame0.lean ====
/-
  Region 0 of the idealized kernel program: the first GIN combine call, twenty grid points of 5000 rows each.
  At a point the body reads the node block x (window 0), the aggregated-neighbour block (window 1), the whole weight
  matrix (window 2) and the bias row (window 3), and stores max((x + agg)·W + b, 0) over the whole output block
  (window 4).  Stated at ANY contents `V` of the TensorCore's buffers at the region's entry and at any float instance:
  what each window's staging buffer holds after the body, the body's triple, the per-core proof data and the body
  obligation the pipeline rule asks for.
-/
import proofs.«408682_j48163763257711_1_alg».proof.Proof.Gen.KernelIdeal.Launch
import proofs.«408682_j48163763257711_1_alg».proof.Proof.Gen.KernelIdeal.Skeleton
import proofs.«408682_j48163763257711_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetches it or not
    (a block whose index has not moved is still the block); one statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

abbrev rX0 : Rect S5000x128 := Rect.unit (s := S5000x128) ![0, 0] S5000x128.size inb_S5000x128_S5000x128_0_0
abbrev rW0 : Rect S128x128 := Rect.unit (s := S128x128) ![0, 0] S128x128.size inb_S128x128_S128x128_0_0
abbrev rB0 : Rect S1x128 := Rect.unit (s := S1x128) ![0, 0] S1x128.size inb_S1x128_S1x128_0_0

/-- The output block after the body: its one whole-block store, as a piece over the loaded inputs. -/
def out0_4 (x0 x1 : Vec F S5000x128 .f32) (x2 : Vec F S128x128 .f32) (x3 : Vec F S1x128 .f32) : Vec F S5000x128 .f32 :=
  View.canon [⟨rX0, k0_pay1 (View.ld x0 rX0) (View.ld x1 rX0) (View.ld x2 rW0) (View.ld x3 rB0)⟩]

theorem cover0_4 (p0 : Vec F S5000x128 .f32) (y : S5000x128.Idx) :
    ∃ pc ∈ ([⟨rX0, p0⟩] : List (View.Piece (Elt F) S5000x128 .f32)), y ∈ pc.1.set :=
  View.cover_of_tiled [⟨rX0, p0⟩] S5000x128.size (by rfl) y

set_option maxHeartbeats 4000000 in
/-- The body on whole staging memrefs: the inputs read, the output block overwritten by the one store. -/
theorem sound_kernel0 (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole)
    (x0 x1 : Vec F S5000x128 .f32) (x2 : Vec F S128x128 .f32) (x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)) -∗ K ⟨⟩))
      ⊢ wp frame (wpE (defs₀ (F := F)) Variants.none c none) E (cc0__gin_combine_kernel i arg1 harg1 arg2 harg2 arg3 harg3 arg4 harg4 arg5 harg5) K := by
  simp only [cc0__gin_combine_kernel_eq_skeleton]; unfold cc0__gin_combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-- The proof data of pipeline 0 on core `c`: arrays as found; inputs' buffers at their blocks, the output's at the
    body's result on the input blocks; the plain class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline rule's body obligation for region 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIFrame1.lean ====
/-
  Region 1 of the idealized kernel program: the second GIN combine call, twenty grid points of 5000 rows each.
  At a point the body reads the node block x (window 0), the aggregated-neighbour block (window 1), the whole weight
  matrix (window 2) and the bias row (window 3), and stores max((x + agg)·W + b, 0) over the whole output block
  (window 4).  Stated at ANY contents `V` of the TensorCore's buffers at the region's entry and at any float instance:
  what each window's staging buffer holds after the body, the body's triple, the per-core proof data and the body
  obligation the pipeline rule asks for.
-/
import proofs.«408682_j48163763257711_1_alg».proof.Proof.Gen.KernelIdeal.Launch
import proofs.«408682_j48163763257711_1_alg».proof.Proof.Gen.KernelIdeal.Skeleton
import proofs.«408682_j48163763257711_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetches it or not
    (a block whose index has not moved is still the block); one statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

abbrev rX1 : Rect S5000x128 := Rect.unit (s := S5000x128) ![0, 0] S5000x128.size inb_S5000x128_S5000x128_0_0
abbrev rW1 : Rect S128x128 := Rect.unit (s := S128x128) ![0, 0] S128x128.size inb_S128x128_S128x128_0_0
abbrev rB1 : Rect S1x128 := Rect.unit (s := S1x128) ![0, 0] S1x128.size inb_S1x128_S1x128_0_0

/-- The output block after the body: its one whole-block store, as a piece over the loaded inputs. -/
def out1_4 (x0 x1 : Vec F S5000x128 .f32) (x2 : Vec F S128x128 .f32) (x3 : Vec F S1x128 .f32) : Vec F S5000x128 .f32 :=
  View.canon [⟨rX1, k1_pay1 (View.ld x0 rX1) (View.ld x1 rX1) (View.ld x2 rW1) (View.ld x3 rB1)⟩]

theorem cover1_4 (p0 : Vec F S5000x128 .f32) (y : S5000x128.Idx) :
    ∃ pc ∈ ([⟨rX1, p0⟩] : List (View.Piece (Elt F) S5000x128 .f32)), y ∈ pc.1.set :=
  View.cover_of_tiled [⟨rX1, p0⟩] S5000x128.size (by rfl) y

set_option maxHeartbeats 4000000 in
/-- The body on whole staging memrefs: the inputs read, the output block overwritten by the one store. -/
theorem sound_kernel1 (c : Dev nD) (E : Set ℕ) (i : grid1.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole)
    (x0 x1 : Vec F S5000x128 .f32) (x2 : Vec F S128x128 .f32) (x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E (cc1__gin_combine_kernel i arg1 harg1 arg2 harg2 arg3 harg3 arg4 harg4 arg5 harg5) K := by
  simp only [cc1__gin_combine_kernel_eq_skeleton]; unfold cc1__gin_combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The proof data of pipeline 1 on core `c`: arrays as found; inputs' buffers at their blocks, the output's at the
    body's result on the input blocks; the plain class invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline rule's body obligation for region 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIData2.lean ====
/-
  Region 2 of the idealized kernel program: the pooling-and-decoder call, twenty grid points of 5000 node rows each,
  with two scratch accumulators (64 graphs x 128) carried from point to point.
  At every point the body adds onehot(graph id)ᵀ · h of the point's node block into the first scratch and
  onehot(graph id)ᵀ · 1 into the second; at point 0 both are first reset to zero; at point 19 it then stores
  sum / max(count, 1) into output window 6 and the two-layer decoder of that quotient into output window 7.
  This module only DEFINES: the windows' blocks, the two accumulators after each point (by recursion on the point), the
  invariant (before the first point nothing is known of the scratch; afterwards it holds the accumulators) and the
  per-core proof data.
-/
import proofs.«408682_j48163763257711_1_alg».proof.Proof.Gen.KernelIdeal.Launch
import proofs.«408682_j48163763257711_1_alg».proof.Proof.Gen.KernelIdeal.Skeleton
import proofs.«408682_j48163763257711_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The two scratch operands, whole scoped buffers of the kernel's own. -/
abbrev scM2_0 : Memref sig .tc .vmem S64x128 .f32 := Memref.whole cc2_scratch0
abbrev scM2_1 : Memref sig .tc .vmem S64x128 .f32 := Memref.whole cc2_scratch1

/-- The (sum, count) accumulators after the body at point `n`: at point 0 the update of the zeroed scratch, later the
    update of what the point before left. -/
def accAt (c : Dev nD) : (n : ℕ) → n < cfg2.N → Vec F S64x128 .f32 × Vec F S64x128 .f32
  | 0, hn => (k2_pay4 (iblk2 V c 1 ⟨0, hn⟩) (iblk2 V c 0 ⟨0, hn⟩) (k2_pay1 (F := F)), k2_pay5 (iblk2 V c 1 ⟨0, hn⟩) (k2_pay2 (F := F)))
  | n + 1, hn => (k2_pay4 (iblk2 V c 1 ⟨n + 1, hn⟩) (iblk2 V c 0 ⟨n + 1, hn⟩) (accAt c n (Nat.lt_of_succ_lt hn)).1,
      k2_pay5 (iblk2 V c 1 ⟨n + 1, hn⟩) (accAt c n (Nat.lt_of_succ_lt hn)).2)

theorem accAt_zero (c : Dev nD) (hn : 0 < cfg2.N) :
    accAt V c 0 hn = (k2_pay4 (iblk2 V c 1 ⟨0, hn⟩) (iblk2 V c 0 ⟨0, hn⟩) (k2_pay1 (F := F)), k2_pay5 (iblk2 V c 1 ⟨0, hn⟩) (k2_pay2 (F := F))) := rfl

theorem accAt_succ (c : Dev nD) (n : ℕ) (hn : n + 1 < cfg2.N) :
    accAt V c (n + 1) hn = (k2_pay4 (iblk2 V c 1 ⟨n + 1, hn⟩) (iblk2 V c 0 ⟨n + 1, hn⟩) (accAt V c n (Nat.lt_of_succ_lt hn)).1,
      k2_pay5 (iblk2 V c 1 ⟨n + 1, hn⟩) (accAt V c n (Nat.lt_of_succ_lt hn)).2) := rfl

/-- The region invariant before position `n`: before the first point the plain class invariant (every scratch at
    anything); afterwards the two scratch buffers at the accumulators the point before left, the core's other scoped
    buffers (the other calls' staging buffers) unopened at anything, and the generator register at some state. -/
def Phi2 (c : Dev nD) : (n : ℕ) → n ≤ cfg2.N → sProp 𝕄
  | 0, _ => Pipeline.ΦA spec2 c
  | n + 1, hn => iprop(owns (c : Thread nD τ) scM2_0 fullShare ((accAt V c n hn).1) ∗ owns (c : Thread nD τ) scM2_1 fullShare ((accAt V c n hn).2) ∗ Pipeline.scopedRestBut (Ix := Unit) (Name := ℕ) (U := UR sig nD τ) (Lvl := ℕ) (Val := Elt F) spec2 c [cc2_scratch0, cc2_scratch1] ∗ (∃ r, prngReg c r))

theorem Phi2_zero (c : Dev nD) (n : ℕ) (h : n ≤ cfg2.N) (hz : n = 0) : Phi2 V c n h = Pipeline.ΦA spec2 c := by
  subst hz; rfl

theorem Phi2_succ (c : Dev nD) (n : ℕ) (hn : n < cfg2.N) :
    Phi2 V c (n + 1) hn = iprop(owns (c : Thread nD τ) scM2_0 fullShare ((accAt V c n hn).1) ∗ owns (c : Thread nD τ) scM2_1 fullShare ((accAt V c n hn).2) ∗ Pipeline.scopedRestBut (Ix := Unit) (Name := ℕ) (U := UR sig nD τ) (Lvl := ℕ) (Val := Elt F) spec2 c [cc2_scratch0, cc2_scratch1] ∗ (∃ r, prngReg c r)) := rfl

theorem Phi2_pos (c : Dev nD) (n : ℕ) (h : n ≤ cfg2.N) (hz : n ≠ 0) :
    Phi2 V c n h = iprop(owns (c : Thread nD τ) scM2_0 fullShare ((accAt V c (n - 1) (by omega)).1) ∗ owns (c : Thread nD τ) scM2_1 fullShare ((accAt V c (n - 1) (by omega)).2) ∗ Pipeline.scopedRestBut (Ix := Unit) (Name := ℕ) (U := UR sig nD τ) (Lvl := ℕ) (Val := Elt F) spec2 c [cc2_scratch0, cc2_scratch1] ∗ (∃ r, prngReg c r)) := by
  cases n with
  | zero => exact absurd rfl hz
  | succ n => rfl

/-- The proof data of pipeline 2 on core `c`: arrays as found; each input's buffer at its block; the two outputs' buffers
    at the quotient and at the decoder of the accumulators so far (read only at the last point, the one point that stores and
    writes them back); the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => k2_pay6 (accAt V c t.val t.isLt).1 (accAt V c t.val t.isLt).2
    | ⟨7, _⟩ => k2_pay7 (accAt V c t.val t.isLt).1 (accAt V c t.val t.isLt).2 (iblk2 V c 2 t) (iblk2 V c 3 t) (iblk2 V c 4 t) (iblk2 V c 5 t)
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = Phi2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) :
    (dat2 V c).after 6 t = k2_pay6 (accAt V c t.val t.isLt).1 (accAt V c t.val t.isLt).2 := by dsimp only [dat2]
theorem after2_7 (c : Dev nD) (t : Fin cfg2.N) :
    (dat2 V c).after 7 t = k2_pay7 (accAt V c t.val t.isLt).1 (accAt V c t.val t.isLt).2 (iblk2 V c 2 t) (iblk2 V c 3 t) (iblk2 V c 4 t) (iblk2 V c 5 t) := by dsimp only [dat2]

end Cert.KernelIdeal.Hand

end
-- ==== Proof.KIFold.lean ====
/-
  The contents of the TensorCore's unscoped buffers at every boundary between the items of @main, as a fold from the
  launch memory: a stretch of host operations applies them; a kernel region leaves each of its arrays at what its
  write-backs made of it (an input array as found, an output array the fold of the flushed blocks) and every other buffer
  as it found it.  Items: host, host, host, REGION 0, host, host, host, REGION 1, host, REGION 2.
-/
import proofs.«408682_j48163763257711_1_alg».proof.Proof.Gen.KernelIdeal.Launch
import proofs.«408682_j48163763257711_1_alg».proof.Proof.Gen.KernelIdeal.Skeleton
import proofs.«408682_j48163763257711_1_alg».proof.Proof.Gen.KernelIdeal.Points
import proofs.«408682_j48163763257711_1_alg».proof.Proof.KIFrame0
import proofs.«408682_j48163763257711_1_alg».proof.Proof.KIFrame1
import proofs.«408682_j48163763257711_1_alg».proof.Proof.KIData2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

variable (m : (ℓ : Loc nD τ sig) → Buf (Elt F) ℓ)

/-- Core `c`'s buffers at launch. -/
abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
/-- At region 0's entry. -/
abbrev W3 : Dev nD → Valuation τ sig (Elt F) := fun c => StableHlo.after hostOps0_2 (W2 m c)
/-- The same read at the TensorCore's references: what region 0's proof data take. -/
abbrev U3 : (c : Dev nD) → (b : Ref sig .tc) → Buf (Elt F) ((c : Thread nD τ).loc b) := fun c b => W3 m c b
/-- At region 0's exit. -/
def W4 (c : Dev nD) : Valuation τ sig (Elt F) :=
  Pipeline.withArrays spec0 c (W3 m c) fun w => (dat0 (U3 m) c).arrAt w cfg0.N
theorem W4_arr (c : Dev nD) (w : Fin cfg0.W) :
    W4 m c (Proc.devRef .tc (Pipeline.arrRef spec0 w)) = (dat0 (U3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev U4 : (c : Dev nD) → (b : Ref sig .tc) → Buf (Elt F) ((c : Thread nD τ).loc b) := fun c b => W4 m c b
theorem hF0 (c : Dev nD) (w : Fin cfg0.W) : (dat0 (U3 m) c).arrAt w cfg0.N = U4 m c (Pipeline.arrRef spec0 w) :=
  (W4_arr m c w).symm
theorem hrest0 (c : Dev nD) : ∀ b, b ∉ Finset.univ.image (Pipeline.arrRef spec0) → U4 m c b = U3 m c b :=
  fun b hb => W4_of_ne m c b fun w e => hb (Finset.mem_image.mpr ⟨w, Finset.mem_univ _, e⟩)

abbrev W5 : Dev nD → Valuation τ sig (Elt F) := fun c => StableHlo.after hostOps1 (W4 m c)
abbrev W6 : Dev nD → Valuation τ sig (Elt F) := fun c => StableHlo.after hostOps1_1 (W5 m c)
/-- At region 1's entry. -/
abbrev W7 : Dev nD → Valuation τ sig (Elt F) := fun c => StableHlo.after hostOps1_2 (W6 m c)
abbrev U7 : (c : Dev nD) → (b : Ref sig .tc) → Buf (Elt F) ((c : Thread nD τ).loc b) := fun c b => W7 m c b
/-- At region 1's exit. -/
def W8 (c : Dev nD) : Valuation τ sig (Elt F) :=
  Pipeline.withArrays spec1 c (W7 m c) fun w => (dat1 (U7 m) c).arrAt w cfg1.N
theorem W8_arr (c : Dev nD) (w : Fin cfg1.W) :
    W8 m c (Proc.devRef .tc (Pipeline.arrRef spec1 w)) = (dat1 (U7 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb
abbrev U8 : (c : Dev nD) → (b : Ref sig .tc) → Buf (Elt F) ((c : Thread nD τ).loc b) := fun c b => W8 m c b
theorem hF1 (c : Dev nD) (w : Fin cfg1.W) : (dat1 (U7 m) c).arrAt w cfg1.N = U8 m c (Pipeline.arrRef spec1 w) :=
  (W8_arr m c w).symm
theorem hrest1 (c : Dev nD) : ∀ b, b ∉ Finset.univ.image (Pipeline.arrRef spec1) → U8 m c b = U7 m c b :=
  fun b hb => W8_of_ne m c b fun w e => hb (Finset.mem_image.mpr ⟨w, Finset.mem_univ _, e⟩)

/-- At region 2's entry. -/
abbrev W9 : Dev nD → Valuation τ sig (Elt F) := fun c => StableHlo.after hostOps2 (W8 m c)
abbrev U9 : (c : Dev nD) → (b : Ref sig .tc) → Buf (Elt F) ((c : Thread nD τ).loc b) := fun c b => W9 m c b
/-- At region 2's exit: the end of @main. -/
def W10 (c : Dev nD) : Valuation τ sig (Elt F) :=
  Pipeline.withArrays spec2 c (W9 m c) fun w => (dat2 (U9 m) c).arrAt w cfg2.N
theorem W10_arr (c : Dev nD) (w : Fin cfg2.W) :
    W10 m c (Proc.devRef .tc (Pipeline.arrRef spec2 w)) = (dat2 (U9 m) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m c (Proc.devRef .tc b) = W9 m c (Proc.devRef .tc b) := by
  unfold W10; exact Pipeline.withArrays_of_ne spec2 c _ _ b hb
abbrev U10 : (c : Dev nD) → (b : Ref sig .tc) → Buf (Elt F) ((c : Thread nD τ).loc b) := fun c b => W10 m c b
theorem hF2 (c : Dev nD) (w : Fin cfg2.W) : (dat2 (U9 m) c).arrAt w cfg2.N = U10 m c (Pipeline.arrRef spec2 w) :=
  (W10_arr m c w).symm
theorem hrest2 (c : Dev nD) : ∀ b, b ∉ Finset.univ.image (Pipeline.arrRef spec2) → U10 m c b = U9 m c b :=
  fun b hb => W10_of_ne m c b fun w e => hb (Finset.mem_image.mpr ⟨w, Finset.mem_univ _, e⟩)

/-- The two results at the end of @main are what region 2's write-backs left in its two output arrays. -/
theorem W10_res0 (c : Dev nD) : W10 m c (Proc.devRef .tc main_v53_0) = (dat2 (U9 m) c).arrAt 6 cfg2.N := W10_arr m c 6
theorem W10_res1 (c : Dev nD) : W10 m c (Proc.devRef .tc main_v53_1) = (dat2 (U9 m) c).arrAt 7 cfg2.N := W10_arr m c 7

end Cert.KernelIdeal.Hand

end
-- ==== Proof.KIFrame2.lean ====
/-
  Region 2's body obligation: at every grid point the pooling-and-decoder body, started from the invariant and the
  windows' current buffers, runs to the invariant at the next point — point 0 resets and updates the two scratch
  accumulators, points 1..18 update them, point 19 updates them and stores the two outputs — and the region's invariant
  is entered from, and gives back, the plain class invariant.
-/
import proofs.«408682_j48163763257711_1_alg».proof.Proof.Gen.KernelIdeal.Launch
import proofs.«408682_j48163763257711_1_alg».proof.Proof.Gen.KernelIdeal.Skeleton
import proofs.«408682_j48163763257711_1_alg».proof.Proof.Gen.KernelIdeal.Points
import proofs.«408682_j48163763257711_1_alg».proof.Proof.KIData2
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two conditions, in closed form over the grid -/

/-- The condition of the body's first conditional (reset the accumulators), from the grid coordinate. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val % 20 = 0 :=
  (by decide +kernel : ∀ t : Fin grid2.N, cond2_0 (grid2.coords t) ↔ t.val % 20 = 0)

/-- The condition of the body's second conditional (store the two outputs). -/
abbrev cond2_1 (i : grid2.Coords) : Prop := k2_cond2 i = 1#1
/-- It holds at the last point only. -/
theorem hcond2_1 : ∀ t : Fin cfg2.N, cond2_1 (grid2.coords t) ↔ t.val % 20 = 19 :=
  (by decide +kernel : ∀ t : Fin grid2.N, cond2_1 (grid2.coords t) ↔ t.val % 20 = 19)

/-! ## Where the two output windows are idle -/

/-- Away from the last point the configuration calls output 6 idle (the body stores nothing into it there), -/
theorem idleAt2_6 : ∀ t : Fin cfg2.N, ¬cond2_1 (grid2.coords t) → cfg2.idle 6 (grid2.coords t) = true := by decide +kernel
/-- and the pipeline does not write its block back. -/
theorem noFlush2_6 : ∀ t : Fin cfg2.N, ¬cond2_1 (grid2.coords t) → (cfg2.win 6).flush t = false := by decide +kernel
/-- At the last point it is live. -/
theorem liveAt2_6 : ∀ t : Fin cfg2.N, cond2_1 (grid2.coords t) → cfg2.idle 6 (grid2.coords t) = false := by decide +kernel
/-- The same for output 7. -/
theorem idleAt2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
theorem liveAt2_7 : ∀ t : Fin cfg2.N, cond2_1 (grid2.coords t) → cfg2.idle 7 (grid2.coords t) = false := by decide +kernel

/-! ## Whole-buffer stores cover -/

theorem zeroOff2 : (![0, 0] : Fin 2 → Nat) = fun _ => 0 := funext fun a => by fin_cases a <;> rfl

abbrev rAcc2 : Rect S64x128 := Rect.unit (s := S64x128) ![0, 0] S64x128.size inb_S64x128_S64x128_0_0
abbrev rOut2 : Rect S64x64 := Rect.unit (s := S64x64) ![0, 0] S64x64.size inb_S64x64_S64x64_0_0

/-- A list of stores whose last is a whole-buffer store covers the buffer. -/
theorem cover2_acc (p : Vec F S64x128 .f32) (L : List (View.Piece (Elt F) S64x128 .f32)) (y : S64x128.Idx) :
    ∃ pc ∈ ((⟨rAcc2, p⟩ : View.Piece (Elt F) S64x128 .f32) :: L), y ∈ pc.1.set :=
  ⟨_, List.mem_cons_self, View.mem_set_unit_zero zeroOff2 inb_S64x128_S64x128_0_0 y⟩

theorem cover2_out (p : Vec F S64x64 .f32) (L : List (View.Piece (Elt F) S64x64 .f32)) (y : S64x64.Idx) :
    ∃ pc ∈ ((⟨rOut2, p⟩ : View.Piece (Elt F) S64x64 .f32) :: L), y ∈ pc.1.set :=
  ⟨_, List.mem_cons_self, View.mem_set_unit_zero zeroOff2 inb_S64x64_S64x64_0_0 y⟩

/-! ## The class invariant, opened at the two scratch buffers -/

/-- The class invariant with this call's two scratch buffers taken out of the core's scoped rest as memrefs owned at
    some contents; the other scoped buffers stay unopened. -/
theorem PhiA2_eq (c : Dev nD) :
    (Pipeline.ΦA spec2 c : sProp 𝕄)
      = iprop((∃ d, owns (c : Thread nD τ) scM2_0 fullShare d) ∗ (∃ d, owns (c : Thread nD τ) scM2_1 fullShare d)
          ∗ Pipeline.scopedRestBut (Ix := Unit) (Name := ℕ) (U := UR sig nD τ) (Lvl := ℕ) (Val := Elt F) spec2 c [cc2_scratch0, cc2_scratch1]
          ∗ (∃ r, prngReg c r)) := by
  unfold Pipeline.ΦA
  rw [Pipeline.scopedRest_split_of_list spec2 c [cc2_scratch0, cc2_scratch1] (by decide) (by decide)]
  simp only [scM2_0, scM2_1, owns_whole, bigSepL]
  have h₁ : (iprop((((∃ f, ((c : Thread nD τ).loc cc2_scratch0) ↦{fullShare} f) ∗ (∃ f, ((c : Thread nD τ).loc cc2_scratch1) ↦{fullShare} f))
          ∗ Pipeline.scopedRestBut (Ix := Unit) (Name := ℕ) (U := UR sig nD τ) (Lvl := ℕ) (Val := Elt F) spec2 c [cc2_scratch0, cc2_scratch1]) ∗ ∃ r, prngReg c r) : sProp 𝕄)
      ⊢ (iprop((∃ d, ((c : Thread nD τ).loc cc2_scratch0) ↦{fullShare} d) ∗ (∃ d, ((c : Thread nD τ).loc cc2_scratch1) ↦{fullShare} d)
          ∗ Pipeline.scopedRestBut (Ix := Unit) (Name := ℕ) (U := UR sig nD τ) (Lvl := ℕ) (Val := Elt F) spec2 c [cc2_scratch0, cc2_scratch1] ∗ (∃ r, prngReg c r)) : sProp 𝕄) := by
    iintro ⟨⟨⟨H0, H1⟩, Hr⟩, Hg⟩
    isplitl [H0]; · iexact H0
    isplitl [H1]; · iexact H1
    isplitl [Hr]; · iexact Hr
    iexact Hg
  have h₂ : (iprop((∃ d, ((c : Thread nD τ).loc cc2_scratch0) ↦{fullShare} d) ∗ (∃ d, ((c : Thread nD τ).loc cc2_scratch1) ↦{fullShare} d)
          ∗ Pipeline.scopedRestBut (Ix := Unit) (Name := ℕ) (U := UR sig nD τ) (Lvl := ℕ) (Val := Elt F) spec2 c [cc2_scratch0, cc2_scratch1] ∗ (∃ r, prngReg c r)) : sProp 𝕄)
      ⊢ (iprop((((∃ f, ((c : Thread nD τ).loc cc2_scratch0) ↦{fullShare} f) ∗ (∃ f, ((c : Thread nD τ).loc cc2_scratch1) ↦{fullShare} f))
          ∗ Pipeline.scopedRestBut (Ix := Unit) (Name := ℕ) (U := UR sig nD τ) (Lvl := ℕ) (Val := Elt F) spec2 c [cc2_scratch0, cc2_scratch1]) ∗ ∃ r, prngReg c r) : sProp 𝕄) := by
    iintro ⟨H0, H1, Hr, Hg⟩
    isplitr [Hg]; swap; · iexact Hg
    isplitr [Hr]; swap; · iexact Hr
    isplitl [H0]; · iexact H0
    iexact H1
  exact BI.equiv_iff.mp ⟨h₁, h₂⟩

/-! ## The inputs' buffers hold their blocks at every point -/

/-- An input window's current staging buffer holds its block at every point, whether the point fetches it or not
    (a block whose index has not moved is still the block); one statement per input window. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The accumulators at a point, by the point's case -/

/-- At the first point: the update of the zeroed accumulators. -/
theorem accAt_first (c : Dev nD) (t : Fin cfg2.N) (ht0 : t.val = 0) :
    accAt V c t.val t.isLt = (k2_pay4 (iblk2 V c 1 t) (iblk2 V c 0 t) (k2_pay1 (F := F)), k2_pay5 (iblk2 V c 1 t) (k2_pay2 (F := F))) := by
  obtain ⟨n, hn⟩ := t
  cases n with
  | zero => rfl
  | succ n => exact absurd ht0 (Nat.succ_ne_zero _)

/-- At a later point: the update of what the point before left. -/
theorem accAt_later (c : Dev nD) (t : Fin cfg2.N) (ht0 : t.val ≠ 0) :
    accAt V c t.val t.isLt = (k2_pay4 (iblk2 V c 1 t) (iblk2 V c 0 t) (accAt V c (t.val - 1) (Nat.lt_of_le_of_lt (Nat.sub_le _ _) t.isLt)).1,
      k2_pay5 (iblk2 V c 1 t) (accAt V c (t.val - 1) (Nat.lt_of_le_of_lt (Nat.sub_le _ _) t.isLt)).2) := by
  obtain ⟨n, hn⟩ := t
  cases n with
  | zero => exact absurd rfl ht0
  | succ n => rfl

theorem accAt_first_1 (c : Dev nD) (t : Fin cfg2.N) (ht0 : t.val = 0) :
    (accAt V c t.val t.isLt).1 = k2_pay4 (iblk2 V c 1 t) (iblk2 V c 0 t) (k2_pay1 (F := F)) := by rw [accAt_first V c t ht0]
theorem accAt_first_2 (c : Dev nD) (t : Fin cfg2.N) (ht0 : t.val = 0) :
    (accAt V c t.val t.isLt).2 = k2_pay5 (iblk2 V c 1 t) (k2_pay2 (F := F)) := by rw [accAt_first V c t ht0]
theorem accAt_later_1 (c : Dev nD) (t : Fin cfg2.N) (ht0 : t.val ≠ 0) :
    (accAt V c t.val t.isLt).1 = k2_pay4 (iblk2 V c 1 t) (iblk2 V c 0 t) (accAt V c (t.val - 1) (Nat.lt_of_le_of_lt (Nat.sub_le _ _) t.isLt)).1 := by
  rw [accAt_later V c t ht0]
theorem accAt_later_2 (c : Dev nD) (t : Fin cfg2.N) (ht0 : t.val ≠ 0) :
    (accAt V c t.val t.isLt).2 = k2_pay5 (iblk2 V c 1 t) (accAt V c (t.val - 1) (Nat.lt_of_le_of_lt (Nat.sub_le _ _) t.isLt)).2 := by
  rw [accAt_later V c t ht0]

/-! ## The body on whole memrefs, case by case -/

set_option maxHeartbeats 4000000 in
/-- Point 0: the first conditional is taken, the second is not; both accumulators are zeroed, then updated. Whatever the
    scratch held on entry is overwritten. -/
theorem run2_A (c : Dev nD) (E : Set ℕ) (i : grid2.Coords)
    (arg1 : Memref sig .tc .vmem S5000x128 .f32) (harg1 : arg1.IsWhole) (arg2 : Memref sig .tc .vmem S5000x1 .i32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x64 .f32) (harg5 : arg5.IsWhole) (arg6 : Memref sig .tc .vmem S1x64 .f32) (harg6 : arg6.IsWhole)
    (arg7 : Memref sig .tc .vmem S64x128 .f32) (harg7 : arg7.IsWhole) (arg8 : Memref sig .tc .vmem S64x64 .f32) (harg8 : arg8.IsWhole)
    (arg9 : Memref sig .tc .vmem S64x128 .f32) (harg9 : arg9.IsWhole) (arg10 : Memref sig .tc .vmem S64x128 .f32) (harg10 : arg10.IsWhole)
    (hc0 : cond2_0 i) (hc1 : ¬cond2_1 i)
    (x0 : Vec F S5000x128 .f32) (x1 : Vec F S5000x1 .i32) (K : PUnit → sProp 𝕄) :
    iprop(owns (c : Thread nD τ) arg1 fullShare x0 ∗ owns (c : Thread nD τ) arg2 fullShare x1
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1
            ∗ owns (c : Thread nD τ) arg9 fullShare (k2_pay4 x1 x0 (k2_pay1 (F := F))) ∗ owns (c : Thread nD τ) arg10 fullShare (k2_pay5 x1 (k2_pay2 (F := F)))) -∗ K ⟨⟩))
      ⊢ wp frame (wpE (defs₀ (F := F)) Variants.none c none) E (cc2__pool_decode_kernel i arg1 harg1 arg2 harg2 arg3 harg3 arg4 harg4 arg5 harg5 arg6 harg6 arg7 harg7 arg8 harg8 arg9 harg9 arg10 harg10) K := by
  simp only [cc2__pool_decode_kernel_eq_skeleton]; unfold cc2__pool_decode_kernel_skel
  unfold owns
  iintro ⟨⟨%f0, %hf0, H0⟩, ⟨%f1, %hf1, H1⟩, ⟨%ds0, %fs0, -, HS0⟩, ⟨%ds1, %fs1, -, HS1⟩, Hk⟩
  obtain rfl := harg1.eq_unread hf0; obtain rfl := harg2.eq_unread hf1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [HS0]
  · iexists _; isplitr
    swap; · iexact HS0
    ipureintro
    rw [View.read_writes_eq_canon _ _ _ (cover2_acc _ _), View.canon_cons_unit_zero (S := S64x128) zeroOff2]
    sl_unfold_words
    simp only [View.readAt_eq_ld, harg1.read_unread, harg2.read_unread, View.readCov_unit_zero (S := S64x128) _ zeroOff2,
      View.ld_unit_zero (S := S5000x128) zeroOff2, View.ld_unit_zero (S := S5000x1) zeroOff2]
  iexists _; isplitr
  swap; · iexact HS1
  ipureintro
  rw [View.read_writes_eq_canon _ _ _ (cover2_acc _ _), View.canon_cons_unit_zero (S := S64x128) zeroOff2]
  sl_unfold_words
  simp only [View.readAt_eq_ld, harg2.read_unread, View.readCov_unit_zero (S := S64x128) _ zeroOff2,
    View.ld_unit_zero (S := S5000x1) zeroOff2]

set_option maxHeartbeats 4000000 in
/-- Points 1..18: neither conditional is taken; the two accumulators are updated from the point's blocks. -/
theorem run2_B (c : Dev nD) (E : Set ℕ) (i : grid2.Coords)
    (arg1 : Memref sig .tc .vmem S5000x128 .f32) (harg1 : arg1.IsWhole) (arg2 : Memref sig .tc .vmem S5000x1 .i32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x64 .f32) (harg5 : arg5.IsWhole) (arg6 : Memref sig .tc .vmem S1x64 .f32) (harg6 : arg6.IsWhole)
    (arg7 : Memref sig .tc .vmem S64x128 .f32) (harg7 : arg7.IsWhole) (arg8 : Memref sig .tc .vmem S64x64 .f32) (harg8 : arg8.IsWhole)
    (arg9 : Memref sig .tc .vmem S64x128 .f32) (harg9 : arg9.IsWhole) (arg10 : Memref sig .tc .vmem S64x128 .f32) (harg10 : arg10.IsWhole)
    (hc0 : ¬cond2_0 i) (hc1 : ¬cond2_1 i)
    (x0 : Vec F S5000x128 .f32) (x1 : Vec F S5000x1 .i32) (s n : Vec F S64x128 .f32) (K : PUnit → sProp 𝕄) :
    iprop(owns (c : Thread nD τ) arg1 fullShare x0 ∗ owns (c : Thread nD τ) arg2 fullShare x1
        ∗ owns (c : Thread nD τ) arg9 fullShare s ∗ owns (c : Thread nD τ) arg10 fullShare n
        ∗ (iprop(owns (c : Thread nD τ) arg1 fullShare x0 ∗ owns (c : Thread nD τ) arg2 fullShare x1
            ∗ owns (c : Thread nD τ) arg9 fullShare (k2_pay4 x1 x0 s) ∗ owns (c : Thread nD τ) arg10 fullShare (k2_pay5 x1 n)) -∗ K ⟨⟩))
      ⊢ wp frame (wpE (defs₀ (F := F)) Variants.none c none) E (cc2__pool_decode_kernel i arg1 harg1 arg2 harg2 arg3 harg3 arg4 harg4 arg5 harg5 arg6 harg6 arg7 harg7 arg8 harg8 arg9 harg9 arg10 harg10) K := by
  simp only [cc2__pool_decode_kernel_eq_skeleton]; unfold cc2__pool_decode_kernel_skel
  unfold owns
  iintro ⟨⟨%f0, %hf0, H0⟩, ⟨%f1, %hf1, H1⟩, ⟨%fs0, %hfs0, HS0⟩, ⟨%fs1, %hfs1, HS1⟩, Hk⟩
  obtain rfl := harg1.eq_unread hf0; obtain rfl := harg2.eq_unread hf1
  obtain rfl := harg9.eq_unread hfs0; obtain rfl := harg10.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [HS0]
  · iexists _; isplitr
    swap; · iexact HS0
    ipureintro
    rw [View.read_writes_eq_canon _ _ _ (cover2_acc _ _), View.canon_unit_zero zeroOff2]
    simp only [View.readAt_eq_ld, harg1.read_unread, harg2.read_unread, harg9.read_unread,
      View.ld_unit_zero (S := S5000x128) zeroOff2, View.ld_unit_zero (S := S5000x1) zeroOff2, View.ld_unit_zero (S := S64x128) zeroOff2]
  iexists _; isplitr
  swap; · iexact HS1
  ipureintro
  rw [View.read_writes_eq_canon _ _ _ (cover2_acc _ _), View.canon_unit_zero zeroOff2]
  simp only [View.readAt_eq_ld, harg2.read_unread, harg10.read_unread,
    View.ld_unit_zero (S := S5000x1) zeroOff2, View.ld_unit_zero (S := S64x128) zeroOff2]

set_option maxHeartbeats 8000000 in
/-- Point 19: the first conditional is not taken, the second is; after the update both accumulators are read back and
    the quotient and its decoder are stored over the two output blocks. -/
theorem run2_C (c : Dev nD) (E : Set ℕ) (i : grid2.Coords)
    (arg1 : Memref sig .tc .vmem S5000x128 .f32) (harg1 : arg1.IsWhole) (arg2 : Memref sig .tc .vmem S5000x1 .i32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x64 .f32) (harg5 : arg5.IsWhole) (arg6 : Memref sig .tc .vmem S1x64 .f32) (harg6 : arg6.IsWhole)
    (arg7 : Memref sig .tc .vmem S64x128 .f32) (harg7 : arg7.IsWhole) (arg8 : Memref sig .tc .vmem S64x64 .f32) (harg8 : arg8.IsWhole)
    (arg9 : Memref sig .tc .vmem S64x128 .f32) (harg9 : arg9.IsWhole) (arg10 : Memref sig .tc .vmem S64x128 .f32) (harg10 : arg10.IsWhole)
    (hc0 : ¬cond2_0 i) (hc1 : cond2_1 i)
    (x0 : Vec F S5000x128 .f32) (x1 : Vec F S5000x1 .i32) (x2 : Vec F S128x128 .f32) (x3 : Vec F S1x128 .f32)
    (x4 : Vec F S128x64 .f32) (x5 : Vec F S1x64 .f32) (s n : Vec F S64x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ owns (c : Thread nD τ) arg9 fullShare s ∗ owns (c : Thread nD τ) arg10 fullShare n
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (k2_pay6 (k2_pay4 x1 x0 s) (k2_pay5 x1 n))
            ∗ owns (c : Thread nD τ) arg8 fullShare (k2_pay7 (k2_pay4 x1 x0 s) (k2_pay5 x1 n) x2 x3 x4 x5)
            ∗ owns (c : Thread nD τ) arg9 fullShare (k2_pay4 x1 x0 s) ∗ owns (c : Thread nD τ) arg10 fullShare (k2_pay5 x1 n)) -∗ K ⟨⟩))
      ⊢ wp frame (wpE (defs₀ (F := F)) Variants.none c none) E (cc2__pool_decode_kernel i arg1 harg1 arg2 harg2 arg3 harg3 arg4 harg4 arg5 harg5 arg6 harg6 arg7 harg7 arg8 harg8 arg9 harg9 arg10 harg10) K := by
  simp only [cc2__pool_decode_kernel_eq_skeleton]; unfold cc2__pool_decode_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, ⟨%fs0, %hfs0, HS0⟩, ⟨%fs1, %hfs1, HS1⟩, Hk⟩
  obtain rfl := harg1.eq_unread hf0; obtain rfl := harg2.eq_unread hf1
  obtain rfl := harg3.eq_unread hf2; obtain rfl := harg4.eq_unread hf3
  obtain rfl := harg5.eq_unread hf4; obtain rfl := harg6.eq_unread hf5
  obtain rfl := harg9.eq_unread hfs0; obtain rfl := harg10.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    rw [View.read_writes_eq_canon _ _ _ (cover2_acc _ _), View.canon_unit_zero zeroOff2]
    sl_unfold_words
    simp only [View.readAt_eq_ld, harg1.read_unread, harg2.read_unread, harg9.read_unread, harg10.read_unread,
      View.readCov_unit_zero (S := S64x128) _ zeroOff2,
      View.ld_unit_zero (S := S5000x128) zeroOff2, View.ld_unit_zero (S := S5000x1) zeroOff2, View.ld_unit_zero (S := S64x128) zeroOff2]
  isplitl [H7]
  · iexists _; isplitr
    swap; · iexact H7
    ipureintro
    rw [View.read_writes_eq_canon _ _ _ (cover2_out _ _), View.canon_unit_zero zeroOff2]
    sl_unfold_words
    simp only [View.readAt_eq_ld, harg1.read_unread, harg2.read_unread, harg3.read_unread, harg4.read_unread,
      harg5.read_unread, harg6.read_unread, harg9.read_unread, harg10.read_unread,
      View.readCov_unit_zero (S := S64x128) _ zeroOff2,
      View.ld_unit_zero (S := S5000x128) zeroOff2, View.ld_unit_zero (S := S5000x1) zeroOff2, View.ld_unit_zero (S := S64x128) zeroOff2,
      View.ld_unit_zero (S := S128x128) zeroOff2, View.ld_unit_zero (S := S1x128) zeroOff2, View.ld_unit_zero (S := S128x64) zeroOff2,
      View.ld_unit_zero (S := S1x64) zeroOff2]
  isplitl [HS0]
  · iexists _; isplitr
    swap; · iexact HS0
    ipureintro
    sl_unfold_words
    rw [View.read_writes_eq_canon _ _ _ (cover2_acc _ _), View.canon_unit_zero zeroOff2]
    simp only [View.readAt_eq_ld, harg1.read_unread, harg2.read_unread, harg9.read_unread,
      View.ld_unit_zero (S := S5000x128) zeroOff2, View.ld_unit_zero (S := S5000x1) zeroOff2, View.ld_unit_zero (S := S64x128) zeroOff2]
  iexists _; isplitr
  swap; · iexact HS1
  ipureintro
  sl_unfold_words
  rw [View.read_writes_eq_canon _ _ _ (cover2_acc _ _), View.canon_unit_zero zeroOff2]
  simp only [View.readAt_eq_ld, harg2.read_unread, harg10.read_unread,
    View.ld_unit_zero (S := S5000x1) zeroOff2, View.ld_unit_zero (S := S64x128) zeroOff2]

/-! ## The body obligation at a point, the windows one by one -/

/-- What the body is called with at point `t`: the invariant, what the core owes, every window's current buffer. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- What it returns: the invariant at the next point and every current buffer at what the body left. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 8000000 in
/-- The body at any point. The inputs' buffers hold their blocks; the point's case is read off the closed forms of
    the two conditions; the invariant hands the body the two scratch buffers (at anything at the first point, at the
    accumulators the point before left afterwards) and takes them back at this point's accumulators; the other scoped
    buffers, the generator register and what the core owes pass through; the outputs' buffers come back untouched away
    from the last point and hold the quotient and its decoder at the last. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = Phi2 V c (t.val + 1) t.isLt from rfl, Phi2_succ]
  rw [show (dat2 V c).leavesExact 0 t = owns (c : Thread nD τ) (st2_0 t) fullShare ((dat2 V c).after 0 t) from rfl, after2_0]
  rw [show (dat2 V c).leavesExact 1 t = owns (c : Thread nD τ) (st2_1 t) fullShare ((dat2 V c).after 1 t) from rfl, after2_1]
  rw [show (dat2 V c).leavesExact 2 t = owns (c : Thread nD τ) (st2_2 t) fullShare ((dat2 V c).after 2 t) from rfl, after2_2]
  rw [show (dat2 V c).leavesExact 3 t = owns (c : Thread nD τ) (st2_3 t) fullShare ((dat2 V c).after 3 t) from rfl, after2_3]
  rw [show (dat2 V c).leavesExact 4 t = owns (c : Thread nD τ) (st2_4 t) fullShare ((dat2 V c).after 4 t) from rfl, after2_4]
  rw [show (dat2 V c).leavesExact 5 t = owns (c : Thread nD τ) (st2_5 t) fullShare ((dat2 V c).after 5 t) from rfl, after2_5]
  have hN : t.val < 20 := lt_of_lt_of_eq t.isLt (show cfg2.N = 20 from N_2)
  by_cases h1 : t.val % 20 = 19
  · have ht0 : t.val ≠ 0 := by omega
    have hc0 : ¬cond2_0 (grid2.coords t) := fun h => by have := (hcond2_0 t).mp h; omega
    have hc1 : cond2_1 (grid2.coords t) := (hcond2_1 t).mpr h1
    rw [show (dat2 V c).leavesExact 6 t = owns (c : Thread nD τ) (st2_6 t) fullShare ((dat2 V c).after 6 t) from by
      unfold Dat.leavesExact; rw [liveAt2_6 t hc1], after2_6]
    rw [show (dat2 V c).leavesExact 7 t = owns (c : Thread nD τ) (st2_7 t) fullShare ((dat2 V c).after 7 t) from by
      unfold Dat.leavesExact; rw [liveAt2_7 t hc1], after2_7]
    rw [accAt_later_1 V c t ht0, accAt_later_2 V c t ht0]
    rw [Phi2_castSucc V c t, Phi2_pos V c _ _ ht0]
    iintro ⟨⟨HS0, HS1, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run2_C c Set.univ (grid2.coords t) _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hr Hg]
    · isplitl [HS0]; · iexact HS0
      isplitl [HS1]; · iexact HS1
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hc1 : ¬cond2_1 (grid2.coords t) := fun h => h1 ((hcond2_1 t).mp h)
    rw [Dat.leavesExact_idle (dat2 V c) 6 t (idleAt2_6 t hc1) (noFlush2_6 t hc1),
        Dat.leavesExact_idle (dat2 V c) 7 t (idleAt2_7 t hc1) (noFlush2_7 t hc1)]
    by_cases h0 : t.val % 20 = 0
    · have ht0 : t.val = 0 := by omega
      have hc0 : cond2_0 (grid2.coords t) := (hcond2_0 t).mpr h0
      rw [accAt_first_1 V c t ht0, accAt_first_2 V c t ht0]
      rw [Phi2_castSucc V c t, Phi2_zero V c _ _ ht0, PhiA2_eq]
      iintro ⟨⟨HS0, HS1, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run2_A c Set.univ (grid2.coords t) _ _ _ _ _ _ _ _ _ _ _ _ _ _ _ _ _ _ _ _ hc0 hc1 (iblk2 V c 0 t) (iblk2 V c 1 t) _)
      isplitl [H0]; · iexact H0
      isplitl [H1]; · iexact H1
      isplitl [HS0]; · iexact HS0
      isplitl [HS1]; · iexact HS1
      iintro ⟨H0, H1, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · have ht0 : t.val ≠ 0 := by omega
      have hc0 : ¬cond2_0 (grid2.coords t) := fun h => h0 ((hcond2_0 t).mp h)
      rw [accAt_later_1 V c t ht0, accAt_later_2 V c t ht0]
      rw [Phi2_castSucc V c t, Phi2_pos V c _ _ ht0]
      iintro ⟨⟨HS0, HS1, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run2_B c Set.univ (grid2.coords t) _ _ _ _ _ _ _ _ _ _ _ _ _ _ _ _ _ _ _ _ hc0 hc1 (iblk2 V c 0 t) (iblk2 V c 1 t) _ _ _)
      isplitl [H0]; · iexact H0
      isplitl [H1]; · iexact H1
      isplitl [HS0]; · iexact HS0
      isplitl [HS1]; · iexact HS1
      iintro ⟨H0, H1, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The pipeline rule's body obligation for region 2, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = Phi2 V c 0 (Nat.zero_le _) from rfl, Phi2_zero V c 0 _ rfl]

/-- After the last point the invariant gives the class invariant back (the accumulators' contents forgotten). -/
theorem hout2 (c : Dev nD) : (dat2 V c).Φ (Fin.last cfg2.N) ⊢ (Pipeline.ΦA spec2 c : sProp 𝕄) := by
  rw [show (dat2 V c).Φ (Fin.last cfg2.N) = Phi2 V c (Fin.last cfg2.N).val (Nat.le_of_lt_succ (Fin.last cfg2.N).isLt) from rfl]
  rw [Phi2_pos V c _ _ (by rw [Fin.val_last]; have : cfg2.N = 20 := N_2; omega), PhiA2_eq]
  iintro ⟨HS0, HS1, Hr, Hg⟩
  isplitl [HS0]; · iexists _; iexact HS0
  isplitl [HS1]; · iexists _; iexact HS1
  isplitl [Hr]; · iexact Hr
  iexact Hg

end Cert.KernelIdeal.Hand

end
-- ==== Proof.KIRun.lean ====
/-
  The run of the whole idealized kernel program: @main as ten items (host stretches and the three kernel regions), each
  region entered with every unscoped buffer at the fold's contents before it and left at the contents after it; every
  weakly fair execution from the launch memory terminates without a fault with EVERY unscoped buffer at the fold's last
  contents.  The arguments are read back through the fold to their launch contents.
-/
import proofs.«408682_j48163763257711_1_alg».proof.Proof.Gen.KernelIdeal.Launch
import proofs.«408682_j48163763257711_1_alg».proof.Proof.Gen.KernelIdeal.Skeleton
import proofs.«408682_j48163763257711_1_alg».proof.Proof.Gen.KernelIdeal.Points
import proofs.«408682_j48163763257711_1_alg».proof.Proof.KIFold
import proofs.«408682_j48163763257711_1_alg».proof.Proof.KIFrame2
import proofs.«408682_j48163763257711_1_alg».proof.Proof.Gen.KernelIdeal.Regions
import Idealize.ShloMosaic.Lib.Pipeline.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

namespace Run

/-! ## What every item carries beside the buffers -/

/-- Each pipeline's proof data at the contents its region is entered with: region 0 after the third host stretch,
    region 1 after the sixth, region 2 after the seventh. -/
def pdats : (p : Fin 3) → (c : Dev nD) → Dat τ (Elt F) Unit ℕ (UR sig nD τ) ℕ (Pipeline.pin (pcfgs (F := F)) adm p) c
  | ⟨0, _⟩ => fun c => dat0 (U3 m) c
  | ⟨1, _⟩ => fun c => dat1 (U7 m) c
  | ⟨2, _⟩ => fun c => dat2 (U9 m) c

/-- No pair of cores is assigned a level: no core ever owes another a unit. -/
abbrev L : GSem nD τ sig → Finset Unit := fun _ => ∅
abbrev lv : GSem nD τ sig → Unit → ℕ := fun _ _ => 0

/-- The core owing nothing, whatever pairs its waits have recorded. -/
abbrev Owe0 (c : Dev nD) : sProp 𝕄 := iprop(∃ W, owes (c : Thread nD τ) (0 : CellTallies nD τ sig Unit) W)
/-- The core's generator register at some state. -/
abbrev Gen0 (c : Dev nD) : sProp 𝕄 := iprop(∃ r, prngReg c r)
/-- Beside the buffers every item is entered with, and leaves, the generator register at some state and nothing owed. -/
abbrev R (c : Dev nD) : sProp 𝕄 := iprop(Gen0 c ∗ Owe0 c)

/-- A stretch of host operations from the contents `W`: it leaves the unscoped buffers at the stretch applied to `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The state at the end of @main, the `owes` apart: every unscoped buffer at the fold's last contents and the generator
    register at some state. -/
abbrev Tₙ (c : Dev nD) : sProp 𝕄 := iprop(StableHlo.held (c : Thread nD τ) (Pipeline.ucRefs τ sig) (W10 m c) ∗ Gen0 c)

/-! ## Three small entailments every region's record uses -/

section Small
variable {cfg : Pipeline.Cfg sig Λ₀} {c : Dev nD} (dat : Dat τ (Elt F) Unit ℕ (UR sig nD τ) ℕ cfg c)

/-- At a point where the data owe nothing and leave the recorded pairs unbounded, the core owing nothing is the
    data's own account of what it owes. -/
theorem owesAt_intro (t : Fin (cfg.N + 1)) (h0 : dat.owed t = 0) (hrec : dat.recorded t = Set.univ) :
    (Owe0 c : sProp 𝕄) ⊢ dat.owesAt () t := by
  unfold Pipeline.Dat.owesAt Pipeline.owesWithin
  iintro ⟨%W, HO⟩
  iexists W
  isplitr
  · ipureintro; intro x _; left; rw [hrec]; trivial
  rw [h0]; iexact HO

/-- And back: the bound on the recorded pairs is dropped. -/
theorem owesAt_elim (t : Fin (cfg.N + 1)) (h0 : dat.owed t = 0) :
    dat.owesAt () t ⊢ (Owe0 c : sProp 𝕄) := by
  unfold Pipeline.Dat.owesAt Pipeline.owesWithin
  iintro ⟨%W, -, HO⟩
  iexists W
  rw [h0]; iexact HO

end Small

set_option backward.isDefEq.respectTransparency.types false in
/-- REGION 0 as an item: entered with every unscoped buffer at W3, left with them at W4.  Entry splits the region's
    arrays out of the unscoped buffers and passes the generator register to the invariant; exit puts the arrays back at
    what the write-backs left, the other buffers untouched.  The kernel has no semaphore of its own and no table. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (U3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := Gen0 c
  Y c := Gen0 c
  Z c := Pipeline.unscopedRest (Ix := Unit) (Name := ℕ) (U := UR sig nD τ) (Lvl := ℕ) spec0 c (U3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U3 m c) fun _ => rfl
    rw [Pipeline.unscopedBufs_held] at hsplit
    have howe := owesAt_intro (pdats m 0 c) 0 rfl rfl
    iintro ⟨⟨Hbufs, Hgen, Howe⟩, -, -⟩
    ihave Hsp := hsplit $$ Hbufs
    icases Hsp with ⟨Harr, Hrest⟩
    ihave Ho := howe $$ Howe
    imodintro
    isplitl [Harr]; · iexact Harr
    isplitr
    · unfold Pipeline.prefHeld; rw [show (Finset.univ : Finset (Fin 0)) = ∅ from rfl, BI.bigSep_empty]; iempintro
    isplitl [Ho]; · iexact Ho
    isplitl [Hgen]; · iexact Hgen
    iexact Hrest
  hin c := by
    rw [show (pdats m 0 c).Φ 0 = Pipeline.ΦA spec0 c from rfl]; unfold Pipeline.ΦA
    iintro ⟨Hgen, -, Hscr⟩
    isplitl [Hscr]; · iexact Hscr
    iexact Hgen
  hout c := by
    rw [Pipeline.ownSems0_none, show (pdats m 0 c).Φ (Fin.last _) = Pipeline.ΦA spec0 c from rfl]; unfold Pipeline.ΦA
    iintro ⟨Hscr, Hgen⟩
    isplitl [Hgen]; · iexact Hgen
    isplitr; · iempintro
    iexact Hscr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U3 m c) (U4 m c) ((pdats m 0 c).arrAt · cfg0.N) (hF0 m c) (hrest0 m c)
    rw [Pipeline.unscopedBufs_held] at hjoin
    have howe := owesAt_elim (pdats m 0 c) (Fin.last _) rfl
    iintro ⟨Harr, Howe, Hgen, Hrest⟩
    ihave Hbufs := hjoin $$ [Harr Hrest]
    · isplitl [Harr] <;> iassumption
    ihave Ho := howe $$ Howe
    imodintro
    isplitl [Hbufs]; · iexact Hbufs
    isplitl [Hgen]; · iexact Hgen
    iexact Ho

set_option backward.isDefEq.respectTransparency.types false in
/-- REGION 1 as an item: entered with every unscoped buffer at W7, left with them at W8.  Entry splits the region's
    arrays out of the unscoped buffers and passes the generator register to the invariant; exit puts the arrays back at
    what the write-backs left, the other buffers untouched.  The kernel has no semaphore of its own and no table. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (U7 m) c).loose
  hwaits := Pipeline.hwaits_of_owed_zero _ _ _ _ L lv 1 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := Gen0 c
  Y c := Gen0 c
  Z c := Pipeline.unscopedRest (Ix := Unit) (Name := ℕ) (U := UR sig nD τ) (Lvl := ℕ) spec1 c (U7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U7 m c) fun _ => rfl
    rw [Pipeline.unscopedBufs_held] at hsplit
    have howe := owesAt_intro (pdats m 1 c) 0 rfl rfl
    iintro ⟨⟨Hbufs, Hgen, Howe⟩, -, -⟩
    ihave Hsp := hsplit $$ Hbufs
    icases Hsp with ⟨Harr, Hrest⟩
    ihave Ho := howe $$ Howe
    imodintro
    isplitl [Harr]; · iexact Harr
    isplitr
    · unfold Pipeline.prefHeld; rw [show (Finset.univ : Finset (Fin 0)) = ∅ from rfl, BI.bigSep_empty]; iempintro
    isplitl [Ho]; · iexact Ho
    isplitl [Hgen]; · iexact Hgen
    iexact Hrest
  hin c := by
    rw [show (pdats m 1 c).Φ 0 = Pipeline.ΦA spec1 c from rfl]; unfold Pipeline.ΦA
    iintro ⟨Hgen, -, Hscr⟩
    isplitl [Hscr]; · iexact Hscr
    iexact Hgen
  hout c := by
    rw [Pipeline.ownSems0_none, show (pdats m 1 c).Φ (Fin.last _) = Pipeline.ΦA spec1 c from rfl]; unfold Pipeline.ΦA
    iintro ⟨Hscr, Hgen⟩
    isplitl [Hgen]; · iexact Hgen
    isplitr; · iempintro
    iexact Hscr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U7 m c) (U8 m c) ((pdats m 1 c).arrAt · cfg1.N) (hF1 m c) (hrest1 m c)
    rw [Pipeline.unscopedBufs_held] at hjoin
    have howe := owesAt_elim (pdats m 1 c) (Fin.last _) rfl
    iintro ⟨Harr, Howe, Hgen, Hrest⟩
    ihave Hbufs := hjoin $$ [Harr Hrest]
    · isplitl [Harr] <;> iassumption
    ihave Ho := howe $$ Howe
    imodintro
    isplitl [Hbufs]; · iexact Hbufs
    isplitl [Hgen]; · iexact Hgen
    iexact Ho

set_option backward.isDefEq.respectTransparency.types false in
/-- REGION 2 as an item: entered with every unscoped buffer at W9, left with them at W10.  Entry splits the region's
    arrays out of the unscoped buffers and passes the generator register to the invariant; exit puts the arrays back at
    what the write-backs left, the other buffers untouched.  The kernel has no semaphore of its own and no table. -/
def reg2 : Pipeline.RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (U9 m) c).loose
  hwaits := Pipeline.hwaits_of_owed_zero _ _ _ _ L lv 2 fun _ _ => rfl
  pre c := iprop(StableHlo.held (c : Thread nD τ) (Pipeline.ucRefs τ sig) (W9 m c) ∗ R c)
  post c := iprop(Tₙ m c ∗ Owe0 c)
  X c := Gen0 c
  Y c := Gen0 c
  Z c := Pipeline.unscopedRest (Ix := Unit) (Name := ℕ) (U := UR sig nD τ) (Lvl := ℕ) spec2 c (U9 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U9 m c) fun _ => rfl
    rw [Pipeline.unscopedBufs_held] at hsplit
    have howe := owesAt_intro (pdats m 2 c) 0 rfl rfl
    iintro ⟨⟨Hbufs, Hgen, Howe⟩, -, -⟩
    ihave Hsp := hsplit $$ Hbufs
    icases Hsp with ⟨Harr, Hrest⟩
    ihave Ho := howe $$ Howe
    imodintro
    isplitl [Harr]; · iexact Harr
    isplitr
    · unfold Pipeline.prefHeld; rw [show (Finset.univ : Finset (Fin 0)) = ∅ from rfl, BI.bigSep_empty]; iempintro
    isplitl [Ho]; · iexact Ho
    isplitl [Hgen]; · iexact Hgen
    iexact Hrest
  hin c := by
    refine BIBase.Entails.trans ?_ (hin2 (U9 m) c)
    unfold Pipeline.ΦA
    iintro ⟨Hgen, -, Hscr⟩
    isplitl [Hscr]; · iexact Hscr
    iexact Hgen
  hout c := by
    rw [Pipeline.ownSems0_none]
    refine BIBase.Entails.trans (hout2 (U9 m) c) ?_
    unfold Pipeline.ΦA
    iintro ⟨Hscr, Hgen⟩
    isplitl [Hgen]; · iexact Hgen
    isplitr; · iempintro
    iexact Hscr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U9 m c) (U10 m c) ((pdats m 2 c).arrAt · cfg2.N) (hF2 m c) (hrest2 m c)
    rw [Pipeline.unscopedBufs_held] at hjoin
    have howe := owesAt_elim (pdats m 2 c) (Fin.last _) rfl
    iintro ⟨Harr, Howe, Hgen, Hrest⟩
    ihave Hbufs := hjoin $$ [Harr Hrest]
    · isplitl [Harr] <;> iassumption
    ihave Ho := howe $$ Howe
    imodintro
    isplitl [Hbufs Hgen]
    · isplitl [Hbufs]; · iexact Hbufs
      iexact Hgen
    iexact Ho

/-! ## @main as its ten items, and the launch -/

/-- The ten items in @main's order: each host stretch from the fold's contents before it, each region's record. -/
abbrev segs : List (Pipeline.Seg (pcfgs (F := F)) adm (pdats m) () defs₀ Variants.none L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .host (hseg hostOps1_1 hostOps1_1_sub hostOps1_1_fresh (W5 m)),
    .host (hseg hostOps1_2 hostOps1_2_sub hostOps1_2_fresh (W6 m)),
    .region (reg1 m),
    .host (hseg hostOps2 hostOps2_sub hostOps2_fresh (W8 m)),
    .region (reg2 m) ]

/-- @main is the run of the items: it is the chain of its ten fragments, and the items' fragments are those ten. -/
theorem main_run (c : Dev nD) : main (F := F) c = Pipeline.Seg.run (segs m) := by
  rw [main_chain c, Pipeline.Seg.run_eq_chain]
  rfl

set_option backward.isDefEq.respectTransparency.types false in
/-- The launch over the ten items.  The launch deals each core its unscoped buffers at the launch memory, its generator
    register and an empty account of what it owes: the first item's state.  The items' states chain by definition
    (each is entered from exactly what the one before it leaves).  The last state holds every unscoped buffer at the
    fold's last contents, and a points-to read against the final memory says the memory holds exactly those. -/
theorem launch : θ_run defs (onTc (τ := τ) (main (F := F))) ⟨m, fun _ => 0, ρ⟩ (fun r => ∀ c : Dev nD,
      ∀ b ∈ Pipeline.ucRefs τ sig, r.2.mem ((c : Thread nD τ).1, b) = W10 m c b) :=
  Pipeline.θ_run_regions_kit (pcfgs (F := F)) adm (pdats m) () cellOf_inj emb₁ defs₀ Variants.none L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Howe, -, Hgen, -⟩, -⟩
      imodintro
      isplitl [Hbufs]; · iexact Hbufs
      isplitl [Hgen]; · iexists _; iexact Hgen
      iexists ∅; iexact Howe)
    (QY := fun c s => ∀ b ∈ Pipeline.ucRefs τ sig, s.mem (((c : Thread nD τ)).1, b) = W10 m c b)
    (hfin := fun c s' => by
      iintro ⟨⟨Hbufs, -⟩, HSI⟩
      unfold StableHlo.held
      imodintro
      iapply (pointsTo_read_all (Pipeline.ucRefs τ sig) (fun b => (((c : Thread nD τ)).1, b)) (W10 m c) s')
      isplitl [Hbufs] <;> iassumption)
    (hQ := fun s h => h)

/-! ## Reading an argument back through the fold

A host stretch leaves a buffer it does not write as it found it; a region leaves a buffer none of its windows names as
it found it, and an array it only reads likewise (an input window's array is never written back). -/

/-- Across the three host stretches before region 0. -/
theorem W3_keep (c : Dev nD) (r : Ref sig .tc) (h0 : r ∉ hostOps0_W) (h1 : r ∉ hostOps0_1_W) (h2 : r ∉ hostOps0_2_W) :
    W3 m c (Proc.devRef .tc r) = m ((c : Thread nD τ).loc r) :=
  (StableHlo.after_of_writes_sub hostOps0_2 _ hostOps0_2_writes h2).trans <|
    (StableHlo.after_of_writes_sub hostOps0_1 _ hostOps0_1_writes h1).trans <|
      (StableHlo.after_of_writes_sub hostOps0 _ hostOps0_writes h0).trans rfl

/-- Across the three host stretches between regions 0 and 1. -/
theorem W7_keep (c : Dev nD) (r : Ref sig .tc) (h0 : r ∉ hostOps1_W) (h1 : r ∉ hostOps1_1_W) (h2 : r ∉ hostOps1_2_W) :
    W7 m c (Proc.devRef .tc r) = W4 m c (Proc.devRef .tc r) :=
  (StableHlo.after_of_writes_sub hostOps1_2 _ hostOps1_2_writes h2).trans <|
    (StableHlo.after_of_writes_sub hostOps1_1 _ hostOps1_1_writes h1).trans <|
      StableHlo.after_of_writes_sub hostOps1 _ hostOps1_writes h0

/-- Across the host stretch between regions 1 and 2. -/
theorem W9_keep (c : Dev nD) (r : Ref sig .tc) (h : r ∉ hostOps2_W) :
    W9 m c (Proc.devRef .tc r) = W8 m c (Proc.devRef .tc r) :=
  StableHlo.after_of_writes_sub hostOps2 _ hostOps2_writes h

/-- Region 0 leaves the array of an input window as it found it. -/
theorem W4_input (c : Dev nD) (w : Fin cfg0.W) (hin : (cfg0.win w).isOut = false) :
    W4 m c (Proc.devRef .tc (Pipeline.arrRef spec0 w)) = W3 m c (Proc.devRef .tc (Pipeline.arrRef spec0 w)) :=
  (W4_arr m c w).trans (((dat0 (U3 m) c).arrAt_in w hin _).trans (A_eq0 (U3 m) c w))
/-- Region 1 likewise. -/
theorem W8_input (c : Dev nD) (w : Fin cfg1.W) (hin : (cfg1.win w).isOut = false) :
    W8 m c (Proc.devRef .tc (Pipeline.arrRef spec1 w)) = W7 m c (Proc.devRef .tc (Pipeline.arrRef spec1 w)) :=
  (W8_arr m c w).trans (((dat1 (U7 m) c).arrAt_in w hin _).trans (A_eq1 (U7 m) c w))
/-- Region 2 likewise. -/
theorem W10_input (c : Dev nD) (w : Fin cfg2.W) (hin : (cfg2.win w).isOut = false) :
    W10 m c (Proc.devRef .tc (Pipeline.arrRef spec2 w)) = W9 m c (Proc.devRef .tc (Pipeline.arrRef spec2 w)) :=
  (W10_arr m c w).trans (((dat2 (U9 m) c).arrAt_in w hin _).trans (A_eq2 (U9 m) c w))

/-- A reference no host stretch writes, walked back from the end of @main to the launch, GIVEN that each region
    leaves it as found (the three hypotheses: by no window naming it, or by an input window naming it). -/
theorem W10_walk (c : Dev nD) (r : Ref sig .tc)
    (h0 : r ∉ hostOps0_W) (h01 : r ∉ hostOps0_1_W) (h02 : r ∉ hostOps0_2_W)
    (h1 : r ∉ hostOps1_W) (h11 : r ∉ hostOps1_1_W) (h12 : r ∉ hostOps1_2_W) (h2 : r ∉ hostOps2_W)
    (k0 : W4 m c (Proc.devRef .tc r) = W3 m c (Proc.devRef .tc r))
    (k1 : W8 m c (Proc.devRef .tc r) = W7 m c (Proc.devRef .tc r))
    (k2 : W10 m c (Proc.devRef .tc r) = W9 m c (Proc.devRef .tc r)) :
    W10 m c (Proc.devRef .tc r) = m ((c : Thread nD τ).loc r) :=
  k2.trans <| (W9_keep m c r h2).trans <| k1.trans <| (W7_keep m c r h1 h11 h12).trans <| k0.trans (W3_keep m c r h0 h01 h02)

end Run

/-- THE RUN: every weakly fair execution of @main terminates, nothing faulting, with every unscoped buffer of every core
    at the fold's last contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W10 m c b) := by
  exact Run.launch m ρ

/-- No host operation and no region writes argument 0: the fold read at it walks back to the launch memory. -/
theorem W10_main_arg0 (c : Dev nD) : W10 m c (Proc.devRef .tc main_arg0) = m ((c : Thread nD τ).loc main_arg0) := by
  exact Run.W10_walk m c main_arg0 (by decide) (by decide) (by decide) (by decide) (by decide) (by decide) (by decide)
    (Run.W4_input m c 0 rfl) (W8_of_ne m c main_arg0 (by decide)) (W10_of_ne m c main_arg0 (by decide))

/-- No host operation and no region writes argument 1: the fold read at it walks back to the launch memory. -/
theorem W10_main_arg1 (c : Dev nD) : W10 m c (Proc.devRef .tc main_arg1) = m ((c : Thread nD τ).loc main_arg1) := by
  exact Run.W10_walk m c main_arg1 (by decide) (by decide) (by decide) (by decide) (by decide) (by decide) (by decide)
    (W4_of_ne m c main_arg1 (by decide)) (W8_of_ne m c main_arg1 (by decide)) (W10_of_ne m c main_arg1 (by decide))

/-- No host operation and no region writes argument 2: the fold read at it walks back to the launch memory. -/
theorem W10_main_arg2 (c : Dev nD) : W10 m c (Proc.devRef .tc main_arg2) = m ((c : Thread nD τ).loc main_arg2) := by
  exact Run.W10_walk m c main_arg2 (by decide) (by decide) (by decide) (by decide) (by decide) (by decide) (by decide)
    (W4_of_ne m c main_arg2 (by decide)) (W8_of_ne m c main_arg2 (by decide)) (W10_of_ne m c main_arg2 (by decide))

/-- No host operation and no region writes argument 3: the fold read at it walks back to the launch memory. -/
theorem W10_main_arg3 (c : Dev nD) : W10 m c (Proc.devRef .tc main_arg3) = m ((c : Thread nD τ).loc main_arg3) := by
  exact Run.W10_walk m c main_arg3 (by decide) (by decide) (by decide) (by decide) (by decide) (by decide) (by decide)
    (W4_of_ne m c main_arg3 (by decide)) (W8_of_ne m c main_arg3 (by decide)) (W10_of_ne m c main_arg3 (by decide))

/-- No host operation and no region writes argument 4: the fold read at it walks back to the launch memory. -/
theorem W10_main_arg4 (c : Dev nD) : W10 m c (Proc.devRef .tc main_arg4) = m ((c : Thread nD τ).loc main_arg4) := by
  exact Run.W10_walk m c main_arg4 (by decide) (by decide) (by decide) (by decide) (by decide) (by decide) (by decide)
    (Run.W4_input m c 2 rfl) (W8_of_ne m c main_arg4 (by decide)) (W10_of_ne m c main_arg4 (by decide))

/-- No host operation and no region writes argument 5: the fold read at it walks back to the launch memory. -/
theorem W10_main_arg5 (c : Dev nD) : W10 m c (Proc.devRef .tc main_arg5) = m ((c : Thread nD τ).loc main_arg5) := by
  exact Run.W10_walk m c main_arg5 (by decide) (by decide) (by decide) (by decide) (by decide) (by decide) (by decide)
    (W4_of_ne m c main_arg5 (by decide)) (W8_of_ne m c main_arg5 (by decide)) (W10_of_ne m c main_arg5 (by decide))

/-- No host operation and no region writes argument 6: the fold read at it walks back to the launch memory. -/
theorem W10_main_arg6 (c : Dev nD) : W10 m c (Proc.devRef .tc main_arg6) = m ((c : Thread nD τ).loc main_arg6) := by
  exact Run.W10_walk m c main_arg6 (by decide) (by decide) (by decide) (by decide) (by decide) (by decide) (by decide)
    (W4_of_ne m c main_arg6 (by decide)) (Run.W8_input m c 2 rfl) (W10_of_ne m c main_arg6 (by decide))

/-- No host operation and no region writes argument 7: the fold read at it walks back to the launch memory. -/
theorem W10_main_arg7 (c : Dev nD) : W10 m c (Proc.devRef .tc main_arg7) = m ((c : Thread nD τ).loc main_arg7) := by
  exact Run.W10_walk m c main_arg7 (by decide) (by decide) (by decide) (by decide) (by decide) (by decide) (by decide)
    (W4_of_ne m c main_arg7 (by decide)) (W8_of_ne m c main_arg7 (by decide)) (W10_of_ne m c main_arg7 (by decide))

/-- No host operation and no region writes argument 8: the fold read at it walks back to the launch memory. -/
theorem W10_main_arg8 (c : Dev nD) : W10 m c (Proc.devRef .tc main_arg8) = m ((c : Thread nD τ).loc main_arg8) := by
  exact Run.W10_walk m c main_arg8 (by decide) (by decide) (by decide) (by decide) (by decide) (by decide) (by decide)
    (W4_of_ne m c main_arg8 (by decide)) (W8_of_ne m c main_arg8 (by decide)) (Run.W10_input m c 2 rfl)

/-- No host operation and no region writes argument 9: the fold read at it walks back to the launch memory. -/
theorem W10_main_arg9 (c : Dev nD) : W10 m c (Proc.devRef .tc main_arg9) = m ((c : Thread nD τ).loc main_arg9) := by
  exact Run.W10_walk m c main_arg9 (by decide) (by decide) (by decide) (by decide) (by decide) (by decide) (by decide)
    (W4_of_ne m c main_arg9 (by decide)) (W8_of_ne m c main_arg9 (by decide)) (W10_of_ne m c main_arg9 (by decide))

/-- No host operation and no region writes argument 10: the fold read at it walks back to the launch memory. -/
theorem W10_main_arg10 (c : Dev nD) : W10 m c (Proc.devRef .tc main_arg10) = m ((c : Thread nD τ).loc main_arg10) := by
  exact Run.W10_walk m c main_arg10 (by decide) (by decide) (by decide) (by decide) (by decide) (by decide) (by decide)
    (W4_of_ne m c main_arg10 (by decide)) (W8_of_ne m c main_arg10 (by decide)) (Run.W10_input m c 4 rfl)

/-- No host operation and no region writes argument 11: the fold read at it walks back to the launch memory. -/
theorem W10_main_arg11 (c : Dev nD) : W10 m c (Proc.devRef .tc main_arg11) = m ((c : Thread nD τ).loc main_arg11) := by
  exact Run.W10_walk m c main_arg11 (by decide) (by decide) (by decide) (by decide) (by decide) (by decide) (by decide)
    (W4_of_ne m c main_arg11 (by decide)) (W8_of_ne m c main_arg11 (by decide)) (W10_of_ne m c main_arg11 (by decide))

end Cert.KernelIdeal.Hand

end
-- ==== Proof.Spec.lean ====
/-
  What the whole program computes, as functions of its inputs on the extended reals, element by element.

  * `gin x agg W b`     one GIN layer on 100000 nodes x 128 features:  max(((x + agg) · W) + b, 0).
  * `poolSum h gid`     the per-graph feature sums over the 100000 nodes: entry (g, d) adds h(r, d) over the nodes r whose
                         graph-id WORD is g's word (an id outside 0..63 matches no g and adds nowhere).
  * `poolCnt gid`       the per-graph node counts, by the same test.
  * `pool h gid`        the mean: poolSum / max(poolCnt, 1).
  * `dec hg W1 b1 W2 b2` the two-layer decoder on the 64 pooled rows: (max(hg · W1 + b1, 0)) · W2 + b2.
  Biases are given as functions of the feature coordinate and graph ids as a function of the node, so that a row vector
  [1, n], a vector [n] and a column [n, 1] all present themselves the same way.
  Library imports only.
-/
import Idealize.ShloMosaic.PureOps.Ideal
import Idealize.ShloMosaic.Lib.ValueIdx

noncomputable section

namespace Cert.Spec

open Idealize.ShloMosaic Idealize.ShloMosaic.ValueIdx

abbrev SNxD : Shape := ⟨2, ![100000, 128]⟩
abbrev SDxD : Shape := ⟨2, ![128, 128]⟩
abbrev SDxO : Shape := ⟨2, ![128, 64]⟩
abbrev SGxD : Shape := ⟨2, ![64, 128]⟩
abbrev SGxO : Shape := ⟨2, ![64, 64]⟩

/-- One GIN layer: row r, feature j. -/
def gin (x agg : SNxD.Idx → EReal) (W : SDxD.Idx → EReal) (b : Fin 128 → EReal) : SNxD.Idx → EReal :=
  fun i => max ((∑ k : Fin 128, (x (ix2 (i 0) k) + agg (ix2 (i 0) k)) * W (ix2 k (i 1))) + b (i 1)) 0

/-- Per-graph sums of the node features. -/
def poolSum (h : SNxD.Idx → EReal) (gid : Fin 100000 → BitVec 32) : SGxD.Idx → EReal :=
  fun i => ∑ r : Fin 100000, if gid r = BitVec.ofNat 32 (i 0).val then h (ix2 r (i 1)) else 0

/-- Per-graph node counts. -/
def poolCnt (gid : Fin 100000 → BitVec 32) : Fin 64 → EReal :=
  fun g => ∑ r : Fin 100000, if gid r = BitVec.ofNat 32 g.val then (1 : EReal) else 0

/-- Per-graph means (an empty graph divides by 1). -/
def pool (h : SNxD.Idx → EReal) (gid : Fin 100000 → BitVec 32) : SGxD.Idx → EReal :=
  fun i => Ideal.div (poolSum h gid i) (max (poolCnt gid (i 0)) 1)

/-- The decoder on the pooled rows. -/
def dec (hg : SGxD.Idx → EReal) (W1 : SDxD.Idx → EReal) (b1 : Fin 128 → EReal) (W2 : SDxO.Idx → EReal) (b2 : Fin 64 → EReal) :
    SGxO.Idx → EReal :=
  fun i => (∑ k : Fin 128, (max ((∑ l : Fin 128, hg (ix2 (i 0) l) * W1 (ix2 l k)) + b1 k) 0) * W2 (ix2 k (i 1))) + b2 (i 1)

end Cert.Spec

end
-- ==== Proof.ValGin.lean ====
/-
  The two GIN regions' output arrays at the ideal instance, as ONE function of the arrays each region finds: block t of
  the output is rows 5000·t .. 5000·t + 4999, twenty blocks tile the 100000 rows, and every entry (r, j) is
  max(Σ_k (x(r,k) + agg(r,k)) · W(k,j) + b(j), 0): the matrix unit's product into a zero accumulator is the plain sum.
-/
import proofs.«408682_j48163763257711_1_alg».proof.Proof.KIFrame0
import proofs.«408682_j48163763257711_1_alg».proof.Proof.KIFrame1
import proofs.«408682_j48163763257711_1_alg».proof.Proof.Spec
import Idealize.ShloMosaic.Lib.ValueIdx
import Idealize.ShloMosaic.Lib.ValueLayout
import Idealize.ShloMosaic.Lib.Pipeline.Value
import Idealize.ShloMosaic.PureOps.Ideal.Laws
set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-! ## The block product at an entry

The matrix unit contracts the left operand's axis 1 with the right operand's axis 0; its contraction index has one
coordinate, so at the output entry (p, q) the left operand is read at (p, k) and the right at (k, q). -/

/-- Left operand, axis 0: the output row. -/
theorem mm_lhs_0 (i : S5000x128.Idx) (r : dot_S5000x128_S128x128_S5000x128_1_0_0_1_n_n.contr.Idx) :
    (dot_S5000x128_S128x128_S5000x128_1_0_0_1_n_n.lhsIdx i r 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
/-- Left operand, axis 1: the contraction coordinate. -/
theorem mm_lhs_1 (i : S5000x128.Idx) (r : dot_S5000x128_S128x128_S5000x128_1_0_0_1_n_n.contr.Idx) :
    (dot_S5000x128_S128x128_S5000x128_1_0_0_1_n_n.lhsIdx i r 1).val = (r ⟨0, by decide⟩).val :=
  dot_S5000x128_S128x128_S5000x128_1_0_0_1_n_n.lhsIdx_val_of_single rfl i r
/-- Right operand, axis 0: the contraction coordinate. -/
theorem mm_rhs_0 (i : S5000x128.Idx) (r : dot_S5000x128_S128x128_S5000x128_1_0_0_1_n_n.contr.Idx) :
    (dot_S5000x128_S128x128_S5000x128_1_0_0_1_n_n.rhsIdx i r 0).val = (r ⟨0, by decide⟩).val :=
  dot_S5000x128_S128x128_S5000x128_1_0_0_1_n_n.rhsIdx_val_of_single rfl i r
/-- Right operand, axis 1: the output column. -/
theorem mm_rhs_1 (i : S5000x128.Idx) (r : dot_S5000x128_S128x128_S5000x128_1_0_0_1_n_n.contr.Idx) :
    (dot_S5000x128_S128x128_S5000x128_1_0_0_1_n_n.rhsIdx i r 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The product into a zero accumulator, at entry (p, q): the plain sum over the 128 contraction positions. -/
theorem mm_apply (a : FVec Ideal S5000x128 .bf16) (w : FVec Ideal S128x128 .bf16) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun ax => Fin.ext (by
      match ax with
      | ⟨0, _⟩ => exact mm_lhs_0 _ _
      | ⟨1, _⟩ => exact (mm_lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun ax => Fin.ext (by
      match ax with
      | ⟨0, _⟩ => exact (mm_rhs_0 _ _).trans hk
      | ⟨1, _⟩ => exact mm_rhs_1 _ _)
  rw [el, er]

/-! ## The body's stored value at an entry -/

/-- Region 0's stored block at (p, q): the rectified affine combination of row p of the two node blocks. -/
theorem k0_pay1_apply (x0 x1 : Vec Ideal S5000x128 .f32) (x2 : Vec Ideal S128x128 .f32) (x3 : Vec Ideal S1x128 .f32)
    (p : Fin 5000) (q : Fin 128) :
    k0_pay1 x0 x1 x2 x3 (ix2 p q)
      = max ((∑ k : Fin 128, (x0 (ix2 p k) + x1 (ix2 p k)) * x2 (ix2 k q)) + x3 (ix2 (0 : Fin 1) q)) 0 := by
  unfold k0_pay1
  simp only [shapeCast_self]
  rw [maximumf_apply, addf_apply, mm_apply, broadcastTo_1b_ab_apply, broadcast_apply]
  show max _ (Ideal.ofBits .f32 0x00000000#32) = _
  rw [Ideal.ofBits_zero_f32]
  rfl

/-- Region 1's stored block at (p, q): the same value (its two node blocks both pass a same-shape cast first). -/
theorem k1_pay1_apply (x0 x1 : Vec Ideal S5000x128 .f32) (x2 : Vec Ideal S128x128 .f32) (x3 : Vec Ideal S1x128 .f32)
    (p : Fin 5000) (q : Fin 128) :
    k1_pay1 x0 x1 x2 x3 (ix2 p q)
      = max ((∑ k : Fin 128, (x0 (ix2 p k) + x1 (ix2 p k)) * x2 (ix2 k q)) + x3 (ix2 (0 : Fin 1) q)) 0 := by
  unfold k1_pay1
  simp only [shapeCast_self]
  rw [maximumf_apply, addf_apply, mm_apply, broadcastTo_1b_ab_apply, broadcast_apply]
  show max _ (Ideal.ofBits .f32 0x00000000#32) = _
  rw [Ideal.ofBits_zero_f32]
  rfl

/-! ## One entry of the layer from one entry of a block -/

/-- If row p of the two node blocks is row (i 0) of the node arrays, the weight block is the weight matrix and the bias
    block the bias row, then the stored value at (p, q) is the layer's value at the array entry i = (i 0, q). -/
theorem gin_of_block (X A : S100000x128.Idx → EReal) (W : S128x128.Idx → EReal) (B : S1x128.Idx → EReal)
    (x0 x1 : Vec Ideal S5000x128 .f32) (x2 : Vec Ideal S128x128 .f32) (x3 : Vec Ideal S1x128 .f32)
    (p : Fin 5000) (q : Fin 128) (i : S100000x128.Idx)
    (h0 : ∀ k : Fin 128, x0 (ix2 p k) = X (ix2 (i 0) k)) (h1 : ∀ k : Fin 128, x1 (ix2 p k) = A (ix2 (i 0) k))
    (h2 : ∀ k : Fin 128, x2 (ix2 k q) = W (ix2 k (i 1))) (h3 : x3 (ix2 (0 : Fin 1) q) = B (ix2 (0 : Fin 1) (i 1))) :
    max ((∑ k : Fin 128, (x0 (ix2 p k) + x1 (ix2 p k)) * x2 (ix2 k q)) + x3 (ix2 (0 : Fin 1) q)) 0
      = Cert.Spec.gin X A W (fun j => B (ix2 (0 : Fin 1) j)) i := by
  unfold Cert.Spec.gin
  simp only [h0, h1, h2, h3]

variable (V : (c : Dev nD) → (b : Ref sig .tc) → Buf (Elt Ideal) ((c : Thread nD τ).loc b))

/-! ## Region 0: from the blocks to the array -/

/-- The offsets of a whole-block rectangle, all zero. -/
theorem zeroOff0 : (![0, 0] : Fin 2 → Nat) = fun _ => 0 :=
  funext fun a => by match a with | ⟨0, _⟩ => rfl | ⟨1, _⟩ => rfl

/-- Where each window's block sits at grid point t: the two node windows and the output at block row t, column
    block 0; the weight and the bias windows at block (0, 0) throughout. -/
theorem blockIndex0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row p of the node block at point t is row 5000·t + p of the node array. -/
theorem nodeBlock0_apply (c : Dev nD) (t : Fin cfg0.N) (p : Fin 5000) (k : Fin 128) (r : Fin 100000)
    (hr : r.val = 5000 * t.val + p.val) :
    (iblk0 V c 0 t : Vec Ideal S5000x128 .f32) (ix2 p k) = (V c main_arg0 : S100000x128.Idx → EReal) (ix2 r k) := by
  obtain ⟨e0, e1, -⟩ := blockIndex0 t
  unfold iblk0
  rw [View.read_apply]
  show V c main_arg0 _ = V c main_arg0 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- Row p of the aggregate block at point t is row 5000·t + p of the aggregate array. -/
theorem aggBlock0_apply (c : Dev nD) (t : Fin cfg0.N) (p : Fin 5000) (k : Fin 128) (r : Fin 100000)
    (hr : r.val = 5000 * t.val + p.val) :
    (iblk0 V c 1 t : Vec Ideal S5000x128 .f32) (ix2 p k) = (V c main_v22 : S100000x128.Idx → EReal) (ix2 r k) := by
  obtain ⟨-, -, e0, e1, -⟩ := blockIndex0 t
  unfold iblk0
  rw [View.read_apply]
  show V c main_v22 _ = V c main_v22 _
  congr 1
  funext a
  apply Fin.ext
  match a with
  | ⟨0, _⟩ => show win0_1.index t (0 : Fin 2) * 5000 + 1 * p.val = r.val; rw [e0, hr]; omega
  | ⟨1, _⟩ => show win0_1.index t (1 : Fin 2) * 128 + 1 * k.val = k.val; rw [e1]; omega

/-- The weight block at every point is the whole weight matrix. -/
theorem weightBlock0_apply (c : Dev nD) (t : Fin cfg0.N) (k q q' : Fin 128) (hq : q'.val = q.val) :
    (iblk0 V c 2 t : Vec Ideal S128x128 .f32) (ix2 k q) = (V c main_arg4 : S128x128.Idx → EReal) (ix2 k q') := by
  obtain ⟨-, -, -, -, e0, e1, -⟩ := blockIndex0 t
  unfold iblk0
  rw [View.read_apply]
  show V c main_arg4 _ = V c main_arg4 _
  congr 1
  funext a
  apply Fin.ext
  match a with
  | ⟨0, _⟩ => show win0_2.index t (0 : Fin 2) * 128 + 1 * k.val = k.val; rw [e0]; omega
  | ⟨1, _⟩ => show win0_2.index t (1 : Fin 2) * 128 + 1 * q.val = q'.val; rw [e1, hq]; omega

/-- The bias block at every point is the whole bias row. -/
theorem biasBlock0_apply (c : Dev nD) (t : Fin cfg0.N) (q q' : Fin 128) (hq : q'.val = q.val) :
    (iblk0 V c 3 t : Vec Ideal S1x128 .f32) (ix2 (0 : Fin 1) q) = (V c main_v23 : S1x128.Idx → EReal) (ix2 (0 : Fin 1) q') := by
  obtain ⟨-, -, -, -, -, -, e0, e1, -⟩ := blockIndex0 t
  unfold iblk0
  rw [View.read_apply]
  show V c main_v23 _ = V c main_v23 _
  congr 1
  funext a
  apply Fin.ext
  match a with
  | ⟨0, _⟩ => show win0_3.index t (0 : Fin 2) * 1 + 1 * (0 : Fin 1).val = (0 : Fin 1).val; rw [e0]; omega
  | ⟨1, _⟩ => show win0_3.index t (1 : Fin 2) * 128 + 1 * q.val = q'.val; rw [e1, hq]; omega

/-- What point t writes back is block t (rows 5000·t .. 5000·t + 4999) of the layer's whole-array value. -/
theorem flushed0_eq (c : Dev nD) (t : Fin cfg0.N) :
    (dat0 (F := Ideal) V c).flushed 4 t
      = ((cfg0.win 4).blk t).view.read (Elt Ideal)
          (Cert.Spec.gin (V c main_arg0) (V c main_v22) (V c main_arg4) (fun j => V c main_v23 (ix2 (0 : Fin 1) j))) := by
  show (cfg0.win 4).cut (grid0.coords t) ((dat0 (F := Ideal) V c).after 4 t) = _
  rw [after0_4]
  unfold out0_4
  rw [View.canon_unit_zero zeroOff0]
  simp only [View.ld_unit_zero (S := S5000x128) zeroOff0, View.ld_unit_zero (S := S128x128) zeroOff0,
    View.ld_unit_zero (S := S1x128) zeroOff0]
  obtain ⟨-, -, -, -, -, -, -, -, e0, e1⟩ := blockIndex0 t
  funext y
  obtain ⟨p, q, rfl⟩ : ∃ (p : Fin 5000) (q : Fin 128), y = ix2 p q := ⟨y 0, y 1, eq_ix2 y⟩
  show k0_pay1 (iblk0 V c 0 t) (iblk0 V c 1 t) (iblk0 V c 2 t) (iblk0 V c 3 t) (ix2 p q)
      = Cert.Spec.gin (V c main_arg0) (V c main_v22) (V c main_arg4) (fun j => V c main_v23 (ix2 (0 : Fin 1) j))
          (((cfg0.win 4).blk t).view.emb (ix2 p q))
  have hrow : ((((cfg0.win 4).blk t).view.emb (ix2 p q)) 0).val = 5000 * t.val + p.val := by
    show win0_4.index t (0 : Fin 2) * 5000 + 1 * p.val = _; rw [e0]; omega
  have hcol : ((((cfg0.win 4).blk t).view.emb (ix2 p q)) 1).val = q.val := by
    show win0_4.index t (1 : Fin 2) * 128 + 1 * q.val = _; rw [e1]; omega
  refine (k0_pay1_apply _ _ _ _ p q).trans ?_
  exact gin_of_block _ _ _ _ _ _ _ _ p q _
    (fun k => nodeBlock0_apply V c t p k _ hrow) (fun k => aggBlock0_apply V c t p k _ hrow)
    (fun k => weightBlock0_apply V c t k q _ hcol) (biasBlock0_apply V c t q _ hcol)

/-- An array entry lies in point t's output block exactly when its row is one of the block's 5000 rows. -/
theorem mem_outBlock0 (t : Fin cfg0.N) (i : S100000x128.Idx) :
    i ∈ ((cfg0.win 4).blk t).view.set
      ↔ ∀ a : Fin 2, win0_4.index t a * S5000x128.size a ≤ (i a).val
          ∧ (i a).val < win0_4.index t a * S5000x128.size a + S5000x128.size a := by
  show i ∈ ((View.whole main_v24).slice (win0_4.rect t)).set ↔ _
  rw [View.set_slice_whole, Rect.mem_set_unit]
  exact Iff.rfl

/-- Twenty blocks of 5000 rows tile the 100000 rows: row r lies in the block of point r / 5000. -/
theorem cover0 (i : S100000x128.Idx) :
    ∃ t : Fin cfg0.N, (cfg0.win 4).flush t = true ∧ i ∈ ((cfg0.win 4).blk t).view.set := by
  have h0 : (i 0).val < 100000 := (i 0).isLt
  have h1 : (i 1).val < 128 := (i 1).isLt
  have hN : cfg0.N = 20 := rfl
  let t : Fin cfg0.N := ⟨(i 0).val / 5000, by rw [hN]; omega⟩
  have ht : t.val = (i 0).val / 5000 := rfl
  obtain ⟨-, -, -, -, -, -, -, -, e0, e1⟩ := blockIndex0 t
  refine ⟨t, flush0_4 t, ?_⟩
  rw [mem_outBlock0]
  intro a
  match a with
  | ⟨0, _⟩ =>
    show win0_4.index t (0 : Fin 2) * 5000 ≤ (i 0).val ∧ (i 0).val < win0_4.index t (0 : Fin 2) * 5000 + 5000
    rw [e0, ht]; omega
  | ⟨1, _⟩ =>
    show win0_4.index t (1 : Fin 2) * 128 ≤ (i 1).val ∧ (i 1).val < win0_4.index t (1 : Fin 2) * 128 + 128
    rw [e1]; omega

/-! ## Region 1: from the blocks to the array -/

/-- The offsets of a whole-block rectangle, all zero. -/
theorem zeroOff1 : (![0, 0] : Fin 2 → Nat) = fun _ => 0 :=
  funext fun a => by match a with | ⟨0, _⟩ => rfl | ⟨1, _⟩ => rfl

/-- Where each window's block sits at grid point t: the two node windows and the output at block row t, column
    block 0; the weight and the bias windows at block (0, 0) throughout. -/
theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row p of the node block at point t is row 5000·t + p of the node array. -/
theorem nodeBlock1_apply (c : Dev nD) (t : Fin cfg1.N) (p : Fin 5000) (k : Fin 128) (r : Fin 100000)
    (hr : r.val = 5000 * t.val + p.val) :
    (iblk1 V c 0 t : Vec Ideal S5000x128 .f32) (ix2 p k) = (V c main_v24 : S100000x128.Idx → EReal) (ix2 r k) := by
  obtain ⟨e0, e1, -⟩ := blockIndex1 t
  unfold iblk1
  rw [View.read_apply]
  show V c main_v24 _ = V c main_v24 _
  congr 1
  funext a
  apply Fin.ext
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- Row p of the aggregate block at point t is row 5000·t + p of the aggregate array. -/
theorem aggBlock1_apply (c : Dev nD) (t : Fin cfg1.N) (p : Fin 5000) (k : Fin 128) (r : Fin 100000)
    (hr : r.val = 5000 * t.val + p.val) :
    (iblk1 V c 1 t : Vec Ideal S5000x128 .f32) (ix2 p k) = (V c main_v47 : S100000x128.Idx → EReal) (ix2 r k) := by
  obtain ⟨-, -, e0, e1, -⟩ := blockIndex1 t
  unfold iblk1
  rw [View.read_apply]
  show V c main_v47 _ = V c main_v47 _
  congr 1
  funext a
  apply Fin.ext
  match a with
  | ⟨0, _⟩ => show win1_1.index t (0 : Fin 2) * 5000 + 1 * p.val = r.val; rw [e0, hr]; omega
  | ⟨1, _⟩ => show win1_1.index t (1 : Fin 2) * 128 + 1 * k.val = k.val; rw [e1]; omega

/-- The weight block at every point is the whole weight matrix. -/
theorem weightBlock1_apply (c : Dev nD) (t : Fin cfg1.N) (k q q' : Fin 128) (hq : q'.val = q.val) :
    (iblk1 V c 2 t : Vec Ideal S128x128 .f32) (ix2 k q) = (V c main_arg6 : S128x128.Idx → EReal) (ix2 k q') := by
  obtain ⟨-, -, -, -, e0, e1, -⟩ := blockIndex1 t
  unfold iblk1
  rw [View.read_apply]
  show V c main_arg6 _ = V c main_arg6 _
  congr 1
  funext a
  apply Fin.ext
  match a with
  | ⟨0, _⟩ => show win1_2.index t (0 : Fin 2) * 128 + 1 * k.val = k.val; rw [e0]; omega
  | ⟨1, _⟩ => show win1_2.index t (1 : Fin 2) * 128 + 1 * q.val = q'.val; rw [e1, hq]; omega

/-- The bias block at every point is the whole bias row. -/
theorem biasBlock1_apply (c : Dev nD) (t : Fin cfg1.N) (q q' : Fin 128) (hq : q'.val = q.val) :
    (iblk1 V c 3 t : Vec Ideal S1x128 .f32) (ix2 (0 : Fin 1) q) = (V c main_v48 : S1x128.Idx → EReal) (ix2 (0 : Fin 1) q') := by
  obtain ⟨-, -, -, -, -, -, e0, e1, -⟩ := blockIndex1 t
  unfold iblk1
  rw [View.read_apply]
  show V c main_v48 _ = V c main_v48 _
  congr 1
  funext a
  apply Fin.ext
  match a with
  | ⟨0, _⟩ => show win1_3.index t (0 : Fin 2) * 1 + 1 * (0 : Fin 1).val = (0 : Fin 1).val; rw [e0]; omega
  | ⟨1, _⟩ => show win1_3.index t (1 : Fin 2) * 128 + 1 * q.val = q'.val; rw [e1, hq]; omega

/-- What point t writes back is block t (rows 5000·t .. 5000·t + 4999) of the layer's whole-array value. -/
theorem flushed1_eq (c : Dev nD) (t : Fin cfg1.N) :
    (dat1 (F := Ideal) V c).flushed 4 t
      = ((cfg1.win 4).blk t).view.read (Elt Ideal)
          (Cert.Spec.gin (V c main_v24) (V c main_v47) (V c main_arg6) (fun j => V c main_v48 (ix2 (0 : Fin 1) j))) := by
  show (cfg1.win 4).cut (grid1.coords t) ((dat1 (F := Ideal) V c).after 4 t) = _
  rw [after1_4]
  unfold out1_4
  rw [View.canon_unit_zero zeroOff1]
  simp only [View.ld_unit_zero (S := S5000x128) zeroOff1, View.ld_unit_zero (S := S128x128) zeroOff1,
    View.ld_unit_zero (S := S1x128) zeroOff1]
  obtain ⟨-, -, -, -, -, -, -, -, e0, e1⟩ := blockIndex1 t
  funext y
  obtain ⟨p, q, rfl⟩ : ∃ (p : Fin 5000) (q : Fin 128), y = ix2 p q := ⟨y 0, y 1, eq_ix2 y⟩
  show k1_pay1 (iblk1 V c 0 t) (iblk1 V c 1 t) (iblk1 V c 2 t) (iblk1 V c 3 t) (ix2 p q)
      = Cert.Spec.gin (V c main_v24) (V c main_v47) (V c main_arg6) (fun j => V c main_v48 (ix2 (0 : Fin 1) j))
          (((cfg1.win 4).blk t).view.emb (ix2 p q))
  have hrow : ((((cfg1.win 4).blk t).view.emb (ix2 p q)) 0).val = 5000 * t.val + p.val := by
    show win1_4.index t (0 : Fin 2) * 5000 + 1 * p.val = _; rw [e0]; omega
  have hcol : ((((cfg1.win 4).blk t).view.emb (ix2 p q)) 1).val = q.val := by
    show win1_4.index t (1 : Fin 2) * 128 + 1 * q.val = _; rw [e1]; omega
  refine (k1_pay1_apply _ _ _ _ p q).trans ?_
  exact gin_of_block _ _ _ _ _ _ _ _ p q _
    (fun k => nodeBlock1_apply V c t p k _ hrow) (fun k => aggBlock1_apply V c t p k _ hrow)
    (fun k => weightBlock1_apply V c t k q _ hcol) (biasBlock1_apply V c t q _ hcol)

/-- An array entry lies in point t's output block exactly when its row is one of the block's 5000 rows. -/
theorem mem_outBlock1 (t : Fin cfg1.N) (i : S100000x128.Idx) :
    i ∈ ((cfg1.win 4).blk t).view.set
      ↔ ∀ a : Fin 2, win1_4.index t a * S5000x128.size a ≤ (i a).val
          ∧ (i a).val < win1_4.index t a * S5000x128.size a + S5000x128.size a := by
  show i ∈ ((View.whole main_v49).slice (win1_4.rect t)).set ↔ _
  rw [View.set_slice_whole, Rect.mem_set_unit]
  exact Iff.rfl

/-- Twenty blocks of 5000 rows tile the 100000 rows: row r lies in the block of point r / 5000. -/
theorem cover1 (i : S100000x128.Idx) :
    ∃ t : Fin cfg1.N, (cfg1.win 4).flush t = true ∧ i ∈ ((cfg1.win 4).blk t).view.set := by
  have h0 : (i 0).val < 100000 := (i 0).isLt
  have h1 : (i 1).val < 128 := (i 1).isLt
  have hN : cfg1.N = 20 := rfl
  let t : Fin cfg1.N := ⟨(i 0).val / 5000, by rw [hN]; omega⟩
  have ht : t.val = (i 0).val / 5000 := rfl
  obtain ⟨-, -, -, -, -, -, -, -, e0, e1⟩ := blockIndex1 t
  refine ⟨t, flush1_4 t, ?_⟩
  rw [mem_outBlock1]
  intro a
  match a with
  | ⟨0, _⟩ =>
    show win1_4.index t (0 : Fin 2) * 5000 ≤ (i 0).val ∧ (i 0).val < win1_4.index t (0 : Fin 2) * 5000 + 5000
    rw [e0, ht]; omega
  | ⟨1, _⟩ =>
    show win1_4.index t (1 : Fin 2) * 128 ≤ (i 1).val ∧ (i 1).val < win1_4.index t (1 : Fin 2) * 128 + 128
    rw [e1]; omega

/-- Region 0's output array after the region. -/
theorem arrAt0_eq (c : Dev nD) :
    (dat0 (F := Ideal) V c).arrAt 4 cfg0.N
      = Cert.Spec.gin (V c main_arg0) (V c main_v22) (V c main_arg4) (fun j => V c main_v23 (ix2 (0 : Fin 1) j)) :=
  (dat0 (F := Ideal) V c).arrAt_eq_of_cover 4 _ (fun t _ => flushed0_eq V c t) cover0

/-- Region 1's output array after the region. -/
theorem arrAt1_eq (c : Dev nD) :
    (dat1 (F := Ideal) V c).arrAt 4 cfg1.N
      = Cert.Spec.gin (V c main_v24) (V c main_v47) (V c main_arg6) (fun j => V c main_v48 (ix2 (0 : Fin 1) j)) :=
  (dat1 (F := Ideal) V c).arrAt_eq_of_cover 4 _ (fun t _ => flushed1_eq V c t) cover1

end Cert.KernelIdeal.Hand

end
-- ==== Proof.LibOneHot.lean ====
import Mathlib.Data.EReal.Basic
import Mathlib.Data.EReal.Operations
import Mathlib.Algebra.BigOperators.Fin
import Mathlib.Algebra.BigOperators.Group.Finset.Piecewise
import Mathlib.Data.Fintype.BigOperators
import Mathlib.Logic.Equiv.Fin.Basic
import Mathlib.Tactic.Ring

/-!
# One-hot gathers and block sums over the extended reals

General facts about finite sums of extended real numbers, used when a table
row is picked out by multiplying a one-hot row into the table.

* The extended reals are not a ring: `x - x = 0` and distributivity fail at the
  infinities.  For entries that are real numbers they hold, and the proofs go
  through the reals: choose real witnesses, move the inclusion `ℝ → EReal`
  outside the products, differences and finite sums, and finish in `ℝ`.
* `sum_onehot_sub`: `∑ n, (δ(n = a) - δ(n = b)) * x n = x a - x b` for a real
  column `x`; `sum_onehot_zero` is the same with the column identically zero.
* Addition of extended reals is commutative and associative with no side
  condition, so regrouping needs no finiteness: `sum_blocks` cuts a sum over
  `Fin (B * T)` into `B` blocks of `T`, `add_sixteen` collects sixteen terms
  added one after the other, `foldl_add_range` evaluates a running sum.
-/

namespace Cert.LibOneHot

open Finset

/-- An extended real that is a real number. -/
def IsReal (x : EReal) : Prop := ∃ r : ℝ, x = (r : EReal)

/-- A real number minus itself is zero (false at the infinities). -/
theorem sub_self_of_isReal {x : EReal} (h : IsReal x) : x - x = 0 := by
  obtain ⟨r, rfl⟩ := h
  rw [← EReal.coe_sub, sub_self, EReal.coe_zero]

/-- The difference of two real numbers is a real number. -/
theorem isReal_sub {x y : EReal} (hx : IsReal x) (hy : IsReal y) : IsReal (x - y) := by
  obtain ⟨r, rfl⟩ := hx
  obtain ⟨s, rfl⟩ := hy
  exact ⟨r - s, (EReal.coe_sub r s).symm⟩

/-- Zero is a real number. -/
theorem isReal_zero : IsReal (0 : EReal) := ⟨0, EReal.coe_zero.symm⟩

/-- The inclusion of the reals commutes with finite sums. -/
theorem coe_sum {ι : Type*} (s : Finset ι) (f : ι → ℝ) :
    ((∑ n ∈ s, f n : ℝ) : EReal) = ∑ n ∈ s, (f n : EReal) := by
  classical
  induction s using Finset.induction_on with
  | empty => simp
  | insert a s ha ih =>
    rw [Finset.sum_insert ha, Finset.sum_insert ha, EReal.coe_add, ih]

/-- the one-hot difference row times a real column is the difference of the two picked entries -/
theorem sum_onehot_sub {ι : Type*} [Fintype ι] [DecidableEq ι] (x : ι → EReal)
    (hx : ∀ n, IsReal (x n)) (a b : ι) :
    ∑ n, ((if n = a then (1 : EReal) else 0) - (if n = b then (1 : EReal) else 0)) * x n
      = x a - x b := by
  -- real witnesses for the column
  choose r hr using hx
  -- each term is the image of the corresponding real term
  have key : ∀ n,
      ((if n = a then (1 : EReal) else 0) - (if n = b then (1 : EReal) else 0)) * x n
        = ((((if n = a then (1 : ℝ) else 0) - (if n = b then (1 : ℝ) else 0)) * r n : ℝ) :
            EReal) := by
    intro n
    rw [hr n, EReal.coe_mul, EReal.coe_sub]
    congr 2 <;> split_ifs <;> simp
  -- so the sum is the image of the real sum, which is computed in the reals
  rw [Finset.sum_congr rfl (fun n _ => key n), ← coe_sum, hr a, hr b, ← EReal.coe_sub]
  congr 1
  simp [sub_mul, Finset.sum_sub_distrib]

/-- the same with the column identically zero: the sum is zero -/
theorem sum_onehot_zero {ι : Type*} [Fintype ι] [DecidableEq ι] (a b : ι) :
    ∑ n : ι, ((if n = a then (1 : EReal) else 0) - (if n = b then (1 : EReal) else 0))
      * (0 : EReal) = 0 := by
  simp

/-- a sum over Fin (B * T) as B blocks of T -/
theorem sum_blocks (B T : ℕ) (f : ℕ → EReal) :
    ∑ n : Fin (B * T), f n.val = ∑ c : Fin B, ∑ j : Fin T, f (c.val * T + j.val) := by
  -- the index `n` is written uniquely as `c * T + j` with `c < B`, `j < T`
  rw [← (finProdFinEquiv (m := B) (n := T)).sum_comp (fun n => f n.val),
    Fintype.sum_prod_type]
  refine Finset.sum_congr rfl fun c _ => Finset.sum_congr rfl fun j _ => ?_
  congr 1
  simp only [finProdFinEquiv_apply_val]
  ring

/-- Sixteen terms written out. -/
theorem sum_sixteen (g : Fin 16 → EReal) :
    ∑ c, g c = g 0 + g 1 + g 2 + g 3 + g 4 + g 5 + g 6 + g 7 + g 8 + g 9 + g 10 + g 11
      + g 12 + g 13 + g 14 + g 15 := by
  rw [Fin.sum_univ_castSucc, Fin.sum_univ_castSucc, Fin.sum_univ_castSucc,
    Fin.sum_univ_castSucc, Fin.sum_univ_castSucc, Fin.sum_univ_castSucc,
    Fin.sum_univ_castSucc, Fin.sum_univ_castSucc, Fin.sum_univ_eight]
  rfl

/-- sixteen terms added one after the other onto a start value are the start value plus their sum -/
theorem add_sixteen (s : EReal) (g : Fin 16 → EReal) :
    s + g 0 + g 1 + g 2 + g 3 + g 4 + g 5 + g 6 + g 7 + g 8 + g 9 + g 10 + g 11 + g 12
      + g 13 + g 14 + g 15 = s + ∑ c, g c := by
  rw [sum_sixteen]
  simp only [add_assoc]

/-- a running sum: adding block c's sum at step c, from a start value, over B steps -/
theorem foldl_add_range (B : ℕ) (g : ℕ → EReal) (s : EReal) :
    (List.range B).foldl (fun acc c => acc + g c) s = s + ∑ c : Fin B, g c.val := by
  induction B with
  | zero => simp
  | succ n ih =>
    -- the last step adds `g n` to the running sum of the first `n` steps
    rw [List.range_succ, List.foldl_append, ih, Fin.sum_univ_castSucc]
    simp [add_assoc]

end Cert.LibOneHot
-- ==== Proof.ValPool.lean ====
/-
  Region 2's two output arrays at the ideal instance, as functions of the arrays the region finds.  The first scratch
  after point n holds, at (g, d), the sum over the first 5000·(n+1) nodes of onehot(gid r = g) · h(r, d) — by induction on
  the point, a block's contribution being the matrix unit's product of the transposed one-hot block with the node block —
  and the second the same with h replaced by 1; multiplying by a one-hot entry selects, on the extended reals with no side
  condition (1 · x = x, 0 · x = 0).  The one write-back, at the last point, stores the quotient and its decoder.
-/
import proofs.«408682_j48163763257711_1_alg».proof.Proof.KIData2
import proofs.«408682_j48163763257711_1_alg».proof.Proof.Spec
import proofs.«408682_j48163763257711_1_alg».proof.Proof.LibOneHot
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost
set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

namespace Pool

/-- A comparison word widened and converted: one where the two words agree, zero elsewhere. -/
theorem sitofp_eq_word (x y : BitVec 32) :
    (FloatOps.sitofp (F := Ideal) .f32 ((IntOp.cmpi .eq x y).setWidth 32) : EReal) = if x = y then 1 else 0 := by
  by_cases h : x = y
  · subst h
    rw [if_pos rfl]
    have e : IntOp.cmpi .eq x x = 1#1 := by simp [IntOp.cmpi]
    rw [e]
    show (((1#1 : BitVec 1).setWidth 32).toInt : ℝ) = (1 : EReal)
    have : ((1#1 : BitVec 1).setWidth 32).toInt = 1 := by decide
    rw [this]; norm_cast
  · rw [if_neg h]
    have e : IntOp.cmpi .eq x y = 0#1 := by
      unfold IntOp.cmpi
      rw [show (x == y) = false from beq_eq_false_iff_ne.mpr h]
      rfl
    rw [e]
    show (((0#1 : BitVec 1).setWidth 32).toInt : ℝ) = (0 : EReal)
    have : ((0#1 : BitVec 1).setWidth 32).toInt = 0 := by decide
    rw [this]; norm_cast

/-- The one-hot block at (row r, graph g). -/
theorem onehot_apply (v3 : Vec Ideal S5000x1 .i32) (r : Fin 5000) (g : Fin 64) :
    k2_pay3 (F := Ideal) v3 (ix2 r g) = if v3 (ix2 r (0 : Fin 1)) = BitVec.ofNat 32 g.val then (1 : EReal) else 0 := by
  unfold k2_pay3
  have hA : broadcastTo S5000x64 (shapeCast S5000x1 v3 shapeCasts_S5000x1_S5000x1) broadcasts_S5000x1_S5000x64 (ix2 r g)
      = v3 (ix2 r (0 : Fin 1)) := by
    rw [shapeCast_self]
    exact broadcastTo_apply v3 broadcasts_S5000x1_S5000x64 (ix2 r g) (ix2 r (0 : Fin 1)) (fun a => match a with
      | ⟨0, _⟩ => by show r.val = if (5000 : Nat) = 1 then 0 else r.val; rw [if_neg (by decide)]
      | ⟨1, _⟩ => by show 0 = if (1 : Nat) = 1 then 0 else g.val; rw [if_pos rfl])
  have hB : broadcastTo S5000x64 (iota Kind.tc S1x64 32 [1] iota_S1x64_d1_w32) broadcasts_S1x64_S5000x64 (ix2 r g)
      = BitVec.ofNat 32 g.val :=
    (broadcastTo_1b_ab_apply _ broadcasts_S1x64_S5000x64 r g).trans (iota_single_apply Kind.tc S1x64 32 1 iota_S1x64_d1_w32 (ix2 (0 : Fin 1) g))
  refine Eq.trans ?_ (sitofp_eq_word (v3 (ix2 r (0 : Fin 1))) (BitVec.ofNat 32 g.val))
  show FloatOps.sitofp (F := Ideal) .f32 ((IntOp.cmpi .eq _ _).setWidth 32) = _
  rw [hA, hB]

/-! The pooling product contracts the 5000 rows of both operands: output (g, d) pairs row r of the one-hot block's column g
    with row r of the node block's column d. -/
theorem poolDot_lhs_0 (i : S64x128.Idx) (q : dot_S5000x64_S5000x128_S64x128_0_0_1_1_n_n.contr.Idx) :
    (dot_S5000x64_S5000x128_S64x128_0_0_1_1_n_n.lhsIdx i q 0).val = (q ⟨0, by decide⟩).val :=
  dot_S5000x64_S5000x128_S64x128_0_0_1_1_n_n.lhsIdx_val_of_single rfl i q
theorem poolDot_lhs_1 (i : S64x128.Idx) (q : dot_S5000x64_S5000x128_S64x128_0_0_1_1_n_n.contr.Idx) :
    (dot_S5000x64_S5000x128_S64x128_0_0_1_1_n_n.lhsIdx i q 1).val = (i 0).val := by
  unfold DotDims.lhsIdx
  rw [dif_neg (show ¬(1 : Fin S5000x64.rank) ∈ dot_S5000x64_S5000x128_S64x128_0_0_1_1_n_n.lhsBatch by decide), dif_pos (show (1 : Fin S5000x64.rank) ∈ dot_S5000x64_S5000x128_S64x128_0_0_1_1_n_n.lhsNonContracting by decide)]
  rfl
theorem poolDot_rhs_0 (i : S64x128.Idx) (q : dot_S5000x64_S5000x128_S64x128_0_0_1_1_n_n.contr.Idx) :
    (dot_S5000x64_S5000x128_S64x128_0_0_1_1_n_n.rhsIdx i q 0).val = (q ⟨0, by decide⟩).val :=
  dot_S5000x64_S5000x128_S64x128_0_0_1_1_n_n.rhsIdx_val_of_single rfl i q
theorem poolDot_rhs_1 (i : S64x128.Idx) (q : dot_S5000x64_S5000x128_S64x128_0_0_1_1_n_n.contr.Idx) :
    (dot_S5000x64_S5000x128_S64x128_0_0_1_1_n_n.rhsIdx i q 1).val = (i 1).val := by
  unfold DotDims.rhsIdx
  rw [dif_neg (show ¬(1 : Fin S5000x128.rank) ∈ dot_S5000x64_S5000x128_S64x128_0_0_1_1_n_n.rhsBatch by decide), dif_pos (show (1 : Fin S5000x128.rank) ∈ dot_S5000x64_S5000x128_S64x128_0_0_1_1_n_n.rhsNonContracting by decide)]
  rfl

/-- The pooling product into the zero accumulator, at (g, d): the plain sum over the block's rows. -/
theorem poolDot_apply (A : FVec Ideal S5000x64 .bf16) (B : FVec Ideal S5000x128 .bf16) (g : Fin 64) (d : Fin 128) :
    matmul dot_S5000x64_S5000x128_S64x128_0_0_1_1_n_n none A B (constant (F := Ideal) S64x128 .f32 0x00000000#32) (ix2 g d)
      = ∑ r : Fin 5000, A (ix2 r g) * B (ix2 r d) := by
  show FloatOps.matmul dot_S5000x64_S5000x128_S64x128_0_0_1_1_n_n none A B (constant (F := Ideal) S64x128 .f32 0x00000000#32) (ix2 g d) = _
  rw [Ideal.matmul_constant_zero_apply, ← Equiv.sum_comp (contrEquiv1 dot_S5000x64_S5000x128_S64x128_0_0_1_1_n_n 5000 rfl rfl).symm]
  refine Finset.sum_congr rfl fun k _ => ?_
  have hk := contrEquiv1_symm_val dot_S5000x64_S5000x128_S64x128_0_0_1_1_n_n 5000 rfl rfl k
  have el : dot_S5000x64_S5000x128_S64x128_0_0_1_1_n_n.lhsIdx (ix2 g d) ((contrEquiv1 dot_S5000x64_S5000x128_S64x128_0_0_1_1_n_n 5000 rfl rfl).symm k) = ix2 k g := funext fun a => Fin.ext (by
    match a with
    | ⟨0, _⟩ => exact (poolDot_lhs_0 _ _).trans hk
    | ⟨1, _⟩ => exact poolDot_lhs_1 _ _)
  have er : dot_S5000x64_S5000x128_S64x128_0_0_1_1_n_n.rhsIdx (ix2 g d) ((contrEquiv1 dot_S5000x64_S5000x128_S64x128_0_0_1_1_n_n 5000 rfl rfl).symm k) = ix2 k d := funext fun a => Fin.ext (by
    match a with
    | ⟨0, _⟩ => exact (poolDot_rhs_0 _ _).trans hk
    | ⟨1, _⟩ => exact poolDot_rhs_1 _ _)
  rw [el, er]

/-- The two values the scratch is reset to are the zero block. -/
theorem pay1_apply (i : S64x128.Idx) : (k2_pay1 (F := Ideal)) i = 0 := by
  unfold k2_pay1
  rw [shapeCast_self]
  exact Ideal.ofBits_zero_f32
theorem pay2_apply (i : S64x128.Idx) : (k2_pay2 (F := Ideal)) i = 0 := by
  unfold k2_pay2
  rw [shapeCast_self]
  exact Ideal.ofBits_zero_f32

/-- A one-hot factor selects: on the extended reals with no side condition. -/
theorem ite_one_zero_mul (p : Prop) [Decidable p] (x : EReal) : (if p then (1 : EReal) else 0) * x = if p then x else 0 := by
  by_cases h : p
  · rw [if_pos h, if_pos h, one_mul]
  · rw [if_neg h, if_neg h, zero_mul]

/-- The sum update at (g, d): what the scratch held plus the block's rows of graph g. -/
theorem pay4_apply (v3 : Vec Ideal S5000x1 .i32) (v12 : Vec Ideal S5000x128 .f32) (s : Vec Ideal S64x128 .f32) (g : Fin 64) (d : Fin 128) :
    k2_pay4 (F := Ideal) v3 v12 s (ix2 g d)
      = s (ix2 g d) + ∑ r : Fin 5000, if v3 (ix2 r (0 : Fin 1)) = BitVec.ofNat 32 g.val then v12 (ix2 r d) else 0 := by
  unfold k2_pay4
  rw [shapeCast_self, shapeCast_self]
  refine (addf_apply _ _ (ix2 g d)).trans ?_
  refine congrArg (s (ix2 g d) + ·) ?_
  refine (poolDot_apply _ _ g d).trans ?_
  refine Finset.sum_congr rfl fun r _ => ?_
  rw [onehot_apply v3 r g]
  exact ite_one_zero_mul _ _

/-- The count update at (g, d): what the scratch held plus the number of the block's rows of graph g. -/
theorem pay5_apply (v3 : Vec Ideal S5000x1 .i32) (s : Vec Ideal S64x128 .f32) (g : Fin 64) (d : Fin 128) :
    k2_pay5 (F := Ideal) v3 s (ix2 g d)
      = s (ix2 g d) + ∑ r : Fin 5000, if v3 (ix2 r (0 : Fin 1)) = BitVec.ofNat 32 g.val then (1 : EReal) else 0 := by
  unfold k2_pay5
  rw [shapeCast_self]
  refine (addf_apply _ _ (ix2 g d)).trans ?_
  refine congrArg (s (ix2 g d) + ·) ?_
  refine (poolDot_apply _ _ g d).trans ?_
  refine Finset.sum_congr rfl fun r _ => ?_
  rw [onehot_apply v3 r g]
  refine (ite_one_zero_mul _ _).trans ?_
  show (if _ then Ideal.ofBits .bf16 0x3F80#16 else 0) = _
  rw [Ideal.ofBits_one_bf16]

/-- The quotient at an index. -/
theorem pay6_apply (s n : Vec Ideal S64x128 .f32) (i : S64x128.Idx) :
    k2_pay6 (F := Ideal) s n i = Ideal.div (s i) (max (n i) 1) := by
  unfold k2_pay6
  show Ideal.div (s i) (max (n i) (Ideal.ofBits .f32 0x3F800000#32)) = _
  rw [Ideal.ofBits_one_f32]

/-! The decoder's two products contract the left operand's columns with the right operand's rows. -/

theorem decDot1_lhs_0 (i : S64x128.Idx) (q : dot_S64x128_S128x128_S64x128_1_0_0_1_n_n.contr.Idx) :
    (dot_S64x128_S128x128_S64x128_1_0_0_1_n_n.lhsIdx i q 0).val = (i 0).val := by
  unfold DotDims.lhsIdx
  rw [dif_neg (show ¬(0 : Fin S64x128.rank) ∈ dot_S64x128_S128x128_S64x128_1_0_0_1_n_n.lhsBatch by decide), dif_pos (show (0 : Fin S64x128.rank) ∈ dot_S64x128_S128x128_S64x128_1_0_0_1_n_n.lhsNonContracting by decide)]
  rfl
theorem decDot1_lhs_1 (i : S64x128.Idx) (q : dot_S64x128_S128x128_S64x128_1_0_0_1_n_n.contr.Idx) :
    (dot_S64x128_S128x128_S64x128_1_0_0_1_n_n.lhsIdx i q 1).val = (q ⟨0, by decide⟩).val :=
  dot_S64x128_S128x128_S64x128_1_0_0_1_n_n.lhsIdx_val_of_single rfl i q
theorem decDot1_rhs_0 (i : S64x128.Idx) (q : dot_S64x128_S128x128_S64x128_1_0_0_1_n_n.contr.Idx) :
    (dot_S64x128_S128x128_S64x128_1_0_0_1_n_n.rhsIdx i q 0).val = (q ⟨0, by decide⟩).val :=
  dot_S64x128_S128x128_S64x128_1_0_0_1_n_n.rhsIdx_val_of_single rfl i q
theorem decDot1_rhs_1 (i : S64x128.Idx) (q : dot_S64x128_S128x128_S64x128_1_0_0_1_n_n.contr.Idx) :
    (dot_S64x128_S128x128_S64x128_1_0_0_1_n_n.rhsIdx i q 1).val = (i 1).val := by
  unfold DotDims.rhsIdx
  rw [dif_neg (show ¬(1 : Fin S128x128.rank) ∈ dot_S64x128_S128x128_S64x128_1_0_0_1_n_n.rhsBatch by decide), dif_pos (show (1 : Fin S128x128.rank) ∈ dot_S64x128_S128x128_S64x128_1_0_0_1_n_n.rhsNonContracting by decide)]
  rfl

/-- The first decoder product into the zero accumulator at (g, j). -/
theorem decDot1_apply (A : FVec Ideal S64x128 .bf16) (B : FVec Ideal S128x128 .bf16) (g : Fin 64) (j : Fin 128) :
    matmul dot_S64x128_S128x128_S64x128_1_0_0_1_n_n none A B (constant (F := Ideal) S64x128 .f32 0x00000000#32) (ix2 g j)
      = ∑ k : Fin 128, A (ix2 g k) * B (ix2 k j) := by
  show FloatOps.matmul dot_S64x128_S128x128_S64x128_1_0_0_1_n_n none A B (constant (F := Ideal) S64x128 .f32 0x00000000#32) (ix2 g j) = _
  rw [Ideal.matmul_constant_zero_apply, ← Equiv.sum_comp (contrEquiv1 dot_S64x128_S128x128_S64x128_1_0_0_1_n_n 128 rfl rfl).symm]
  refine Finset.sum_congr rfl fun k _ => ?_
  have hk := contrEquiv1_symm_val dot_S64x128_S128x128_S64x128_1_0_0_1_n_n 128 rfl rfl k
  have el : dot_S64x128_S128x128_S64x128_1_0_0_1_n_n.lhsIdx (ix2 g j) ((contrEquiv1 dot_S64x128_S128x128_S64x128_1_0_0_1_n_n 128 rfl rfl).symm k) = ix2 g k := funext fun a => Fin.ext (by
    match a with
    | ⟨0, _⟩ => exact decDot1_lhs_0 _ _
    | ⟨1, _⟩ => exact (decDot1_lhs_1 _ _).trans hk)
  have er : dot_S64x128_S128x128_S64x128_1_0_0_1_n_n.rhsIdx (ix2 g j) ((contrEquiv1 dot_S64x128_S128x128_S64x128_1_0_0_1_n_n 128 rfl rfl).symm k) = ix2 k j := funext fun a => Fin.ext (by
    match a with
    | ⟨0, _⟩ => exact (decDot1_rhs_0 _ _).trans hk
    | ⟨1, _⟩ => exact decDot1_rhs_1 _ _)
  rw [el, er]

theorem decDot2_lhs_0 (i : S64x64.Idx) (q : dot_S64x128_S128x64_S64x64_1_0_0_1_n_n.contr.Idx) :
    (dot_S64x128_S128x64_S64x64_1_0_0_1_n_n.lhsIdx i q 0).val = (i 0).val := by
  unfold DotDims.lhsIdx
  rw [dif_neg (show ¬(0 : Fin S64x128.rank) ∈ dot_S64x128_S128x64_S64x64_1_0_0_1_n_n.lhsBatch by decide), dif_pos (show (0 : Fin S64x128.rank) ∈ dot_S64x128_S128x64_S64x64_1_0_0_1_n_n.lhsNonContracting by decide)]
  rfl
theorem decDot2_lhs_1 (i : S64x64.Idx) (q : dot_S64x128_S128x64_S64x64_1_0_0_1_n_n.contr.Idx) :
    (dot_S64x128_S128x64_S64x64_1_0_0_1_n_n.lhsIdx i q 1).val = (q ⟨0, by decide⟩).val :=
  dot_S64x128_S128x64_S64x64_1_0_0_1_n_n.lhsIdx_val_of_single rfl i q
theorem decDot2_rhs_0 (i : S64x64.Idx) (q : dot_S64x128_S128x64_S64x64_1_0_0_1_n_n.contr.Idx) :
    (dot_S64x128_S128x64_S64x64_1_0_0_1_n_n.rhsIdx i q 0).val = (q ⟨0, by decide⟩).val :=
  dot_S64x128_S128x64_S64x64_1_0_0_1_n_n.rhsIdx_val_of_single rfl i q
theorem decDot2_rhs_1 (i : S64x64.Idx) (q : dot_S64x128_S128x64_S64x64_1_0_0_1_n_n.contr.Idx) :
    (dot_S64x128_S128x64_S64x64_1_0_0_1_n_n.rhsIdx i q 1).val = (i 1).val := by
  unfold DotDims.rhsIdx
  rw [dif_neg (show ¬(1 : Fin S128x64.rank) ∈ dot_S64x128_S128x64_S64x64_1_0_0_1_n_n.rhsBatch by decide), dif_pos (show (1 : Fin S128x64.rank) ∈ dot_S64x128_S128x64_S64x64_1_0_0_1_n_n.rhsNonContracting by decide)]
  rfl

/-- The second decoder product into the zero accumulator at (g, j). -/
theorem decDot2_apply (A : FVec Ideal S64x128 .bf16) (B : FVec Ideal S128x64 .bf16) (g : Fin 64) (j : Fin 64) :
    matmul dot_S64x128_S128x64_S64x64_1_0_0_1_n_n none A B (constant (F := Ideal) S64x64 .f32 0x00000000#32) (ix2 g j)
      = ∑ k : Fin 128, A (ix2 g k) * B (ix2 k j) := by
  show FloatOps.matmul dot_S64x128_S128x64_S64x64_1_0_0_1_n_n none A B (constant (F := Ideal) S64x64 .f32 0x00000000#32) (ix2 g j) = _
  rw [Ideal.matmul_constant_zero_apply, ← Equiv.sum_comp (contrEquiv1 dot_S64x128_S128x64_S64x64_1_0_0_1_n_n 128 rfl rfl).symm]
  refine Finset.sum_congr rfl fun k _ => ?_
  have hk := contrEquiv1_symm_val dot_S64x128_S128x64_S64x64_1_0_0_1_n_n 128 rfl rfl k
  have el : dot_S64x128_S128x64_S64x64_1_0_0_1_n_n.lhsIdx (ix2 g j) ((contrEquiv1 dot_S64x128_S128x64_S64x64_1_0_0_1_n_n 128 rfl rfl).symm k) = ix2 g k := funext fun a => Fin.ext (by
    match a with
    | ⟨0, _⟩ => exact decDot2_lhs_0 _ _
    | ⟨1, _⟩ => exact (decDot2_lhs_1 _ _).trans hk)
  have er : dot_S64x128_S128x64_S64x64_1_0_0_1_n_n.rhsIdx (ix2 g j) ((contrEquiv1 dot_S64x128_S128x64_S64x64_1_0_0_1_n_n 128 rfl rfl).symm k) = ix2 k j := funext fun a => Fin.ext (by
    match a with
    | ⟨0, _⟩ => exact (decDot2_rhs_0 _ _).trans hk
    | ⟨1, _⟩ => exact decDot2_rhs_1 _ _)
  rw [el, er]

/-- The decoder at (g, j), over the quotient block. -/
theorem pay7_apply (s n : Vec Ideal S64x128 .f32) (W1 : Vec Ideal S128x128 .f32) (b1 : Vec Ideal S1x128 .f32)
    (W2 : Vec Ideal S128x64 .f32) (b2 : Vec Ideal S1x64 .f32) (g : Fin 64) (j : Fin 64) :
    k2_pay7 (F := Ideal) s n W1 b1 W2 b2 (ix2 g j)
      = (∑ k : Fin 128, (max ((∑ l : Fin 128, k2_pay6 (F := Ideal) s n (ix2 g l) * W1 (ix2 l k)) + b1 (ix2 (0 : Fin 1) k)) 0) * W2 (ix2 k j))
        + b2 (ix2 (0 : Fin 1) j) := by
  unfold k2_pay7
  rw [shapeCast_self, shapeCast_self]
  refine (addf_apply _ _ (ix2 g j)).trans ?_
  refine congrArg₂ (· + ·) ?_ (broadcastTo_1b_ab_apply b2 broadcasts_S1x64_S64x64 g j)
  refine (decDot2_apply _ _ g j).trans ?_
  refine Finset.sum_congr rfl fun k _ => ?_
  refine congrArg (· * W2 (ix2 k j)) ?_
  show max (matmul dot_S64x128_S128x128_S64x128_1_0_0_1_n_n none _ _ (constant (F := Ideal) S64x128 .f32 0x00000000#32) (ix2 g k) + broadcastTo S64x128 b1 broadcasts_S1x128_S64x128 (ix2 g k)) (Ideal.ofBits .f32 0x00000000#32) = _
  rw [Ideal.ofBits_zero_f32, decDot1_apply, broadcastTo_1b_ab_apply]
  rfl

variable (V : (c : Dev nD) → (b : Ref sig .tc) → Buf (Elt Ideal) ((c : Thread nD τ).loc b))

/-- The node block and the graph-id block at point t, at their literal vector types. -/
abbrev nodeBlk (c : Dev nD) (t : Fin cfg2.N) : Vec Ideal S5000x128 .f32 := iblk2 V c 0 t
abbrev gidBlk (c : Dev nD) (t : Fin cfg2.N) : Vec Ideal S5000x1 .i32 := iblk2 V c 1 t

/-- The block indices of the two row windows at point t: block t of the rows, block 0 of the columns. -/
theorem rowIdx_facts : ∀ t : Fin cfg2.N, win2_0.index t 0 = t.val ∧ win2_0.index t 1 = 0 ∧ win2_1.index t 0 = t.val ∧ win2_1.index t 1 = 0 :=
  (by decide +kernel : ∀ t : Fin grid2.N, win2_0.index t 0 = t.val ∧ win2_0.index t 1 = 0 ∧ win2_1.index t 0 = t.val ∧ win2_1.index t 1 = 0)

/-- The node block at point t is rows 5000·t .. 5000·t + 4999 of the node array. -/
theorem nodeBlk_apply (c : Dev nD) (t : Fin cfg2.N) (r : Fin 5000) (d : Fin 128) (hr : t.val * 5000 + r.val < 100000) :
    nodeBlk V c t (ix2 r d) = V c main_v49 (ix2 ⟨t.val * 5000 + r.val, hr⟩ d) := by
  have hi := rowIdx_facts t
  unfold nodeBlk iblk2
  rw [View.read_apply]
  show V c main_v49 _ = V c main_v49 _
  congr 1
  funext a
  apply Fin.ext
  match a with
  | ⟨0, _⟩ => show win2_0.index t 0 * 5000 + 1 * r.val = t.val * 5000 + r.val; rw [hi.1]; omega
  | ⟨1, _⟩ => show win2_0.index t 1 * 128 + 1 * d.val = d.val; rw [hi.2.1]; omega

/-- The graph-id block at point t is the same rows of the graph-id column. -/
theorem gidBlk_apply (c : Dev nD) (t : Fin cfg2.N) (r : Fin 5000) (hr : t.val * 5000 + r.val < 100000) :
    gidBlk V c t (ix2 r (0 : Fin 1)) = V c main_v50 (ix2 ⟨t.val * 5000 + r.val, hr⟩ (0 : Fin 1)) := by
  have hi := rowIdx_facts t
  unfold gidBlk iblk2
  rw [View.read_apply]
  show V c main_v50 _ = V c main_v50 _
  congr 1
  funext a
  apply Fin.ext
  match a with
  | ⟨0, _⟩ => show win2_1.index t 0 * 5000 + 1 * r.val = t.val * 5000 + r.val; rw [hi.2.2.1]; omega
  | ⟨1, _⟩ => show win2_1.index t 1 * 1 + 1 * 0 = 0; rw [hi.2.2.2]

/-- The weight and bias windows sit at block (0, 0) at every point: their block is the whole array. -/
theorem wholeIdx_facts : ∀ t : Fin cfg2.N, (win2_2.index t 0 = 0 ∧ win2_2.index t 1 = 0) ∧ (win2_3.index t 0 = 0 ∧ win2_3.index t 1 = 0)
    ∧ (win2_4.index t 0 = 0 ∧ win2_4.index t 1 = 0) ∧ (win2_5.index t 0 = 0 ∧ win2_5.index t 1 = 0) :=
  (by decide +kernel : ∀ t : Fin grid2.N, (win2_2.index t 0 = 0 ∧ win2_2.index t 1 = 0) ∧ (win2_3.index t 0 = 0 ∧ win2_3.index t 1 = 0)
    ∧ (win2_4.index t 0 = 0 ∧ win2_4.index t 1 = 0) ∧ (win2_5.index t 0 = 0 ∧ win2_5.index t 1 = 0))

/-- The first weight block is the first weight array. -/
theorem w1Blk_apply (c : Dev nD) (t : Fin cfg2.N) (l : Fin 128) (k : Fin 128) :
    (iblk2 V c 2 t : Vec Ideal S128x128 .f32) (ix2 l k) = V c main_arg8 (ix2 l k) := by
  have hi := (wholeIdx_facts t).1
  unfold iblk2
  rw [View.read_apply]
  show V c main_arg8 _ = V c main_arg8 _
  congr 1
  funext a
  apply Fin.ext
  match a with
  | ⟨0, _⟩ => show win2_2.index t 0 * 128 + 1 * (l : Fin 128).val = (l : Fin 128).val; rw [hi.1]; omega
  | ⟨1, _⟩ => show win2_2.index t 1 * 128 + 1 * (k : Fin 128).val = (k : Fin 128).val; rw [hi.2]; omega

/-- The first bias block is the first bias row. -/
theorem b1Blk_apply (c : Dev nD) (t : Fin cfg2.N)  (k : Fin 128) :
    (iblk2 V c 3 t : Vec Ideal S1x128 .f32) (ix2 (0 : Fin 1) k) = V c main_v51 (ix2 (0 : Fin 1) k) := by
  have hi := (wholeIdx_facts t).2.1
  unfold iblk2
  rw [View.read_apply]
  show V c main_v51 _ = V c main_v51 _
  congr 1
  funext a
  apply Fin.ext
  match a with
  | ⟨0, _⟩ => show win2_3.index t 0 * 1 + 1 * ((0 : Fin 1) : Fin 1).val = ((0 : Fin 1) : Fin 1).val; rw [hi.1]; omega
  | ⟨1, _⟩ => show win2_3.index t 1 * 128 + 1 * (k : Fin 128).val = (k : Fin 128).val; rw [hi.2]; omega

/-- The second weight block is the second weight array. -/
theorem w2Blk_apply (c : Dev nD) (t : Fin cfg2.N) (k : Fin 128) (j : Fin 64) :
    (iblk2 V c 4 t : Vec Ideal S128x64 .f32) (ix2 k j) = V c main_arg10 (ix2 k j) := by
  have hi := (wholeIdx_facts t).2.2.1
  unfold iblk2
  rw [View.read_apply]
  show V c main_arg10 _ = V c main_arg10 _
  congr 1
  funext a
  apply Fin.ext
  match a with
  | ⟨0, _⟩ => show win2_4.index t 0 * 128 + 1 * (k : Fin 128).val = (k : Fin 128).val; rw [hi.1]; omega
  | ⟨1, _⟩ => show win2_4.index t 1 * 64 + 1 * (j : Fin 64).val = (j : Fin 64).val; rw [hi.2]; omega

/-- The second bias block is the second bias row. -/
theorem b2Blk_apply (c : Dev nD) (t : Fin cfg2.N)  (j : Fin 64) :
    (iblk2 V c 5 t : Vec Ideal S1x64 .f32) (ix2 (0 : Fin 1) j) = V c main_v52 (ix2 (0 : Fin 1) j) := by
  have hi := (wholeIdx_facts t).2.2.2
  unfold iblk2
  rw [View.read_apply]
  show V c main_v52 _ = V c main_v52 _
  congr 1
  funext a
  apply Fin.ext
  match a with
  | ⟨0, _⟩ => show win2_5.index t 0 * 1 + 1 * ((0 : Fin 1) : Fin 1).val = ((0 : Fin 1) : Fin 1).val; rw [hi.1]; omega
  | ⟨1, _⟩ => show win2_5.index t 1 * 64 + 1 * (j : Fin 64).val = (j : Fin 64).val; rw [hi.2]; omega

/-- Node r's term of the feature sum at (g, d), and of the count at g; zero past the array's end (never reached). -/
def sumTerm (c : Dev nD) (g : Fin 64) (d : Fin 128) (r : ℕ) : EReal :=
  if hr : r < 100000 then
    (if V c main_v50 (ix2 (⟨r, hr⟩ : Fin 100000) (0 : Fin 1)) = BitVec.ofNat 32 g.val then V c main_v49 (ix2 (⟨r, hr⟩ : Fin 100000) d) else 0)
  else 0
def cntTerm (c : Dev nD) (g : Fin 64) (r : ℕ) : EReal :=
  if hr : r < 100000 then
    (if V c main_v50 (ix2 (⟨r, hr⟩ : Fin 100000) (0 : Fin 1)) = BitVec.ofNat 32 g.val then (1 : EReal) else 0)
  else 0

theorem lt20 (t : Fin cfg2.N) : t.val < 20 := by
  exact Nat.lt_of_lt_of_eq t.isLt N_2

/-- One block's selected rows are the terms of rows 5000·t .. 5000·t + 4999. -/
theorem blkSum_eq (c : Dev nD) (t : Fin cfg2.N) (g : Fin 64) (d : Fin 128) :
    (∑ r : Fin 5000, if gidBlk V c t (ix2 r (0 : Fin 1)) = BitVec.ofNat 32 g.val then nodeBlk V c t (ix2 r d) else 0)
      = ∑ j : Fin 5000, sumTerm V c g d (t.val * 5000 + j.val) := by
  have hN := lt20 t
  refine Finset.sum_congr rfl fun r _ => ?_
  have hr : t.val * 5000 + r.val < 100000 := by have := r.isLt; omega
  rw [gidBlk_apply V c t r hr, nodeBlk_apply V c t r d hr]
  unfold sumTerm
  rw [dif_pos hr]

theorem blkCnt_eq (c : Dev nD) (t : Fin cfg2.N) (g : Fin 64) :
    (∑ r : Fin 5000, if gidBlk V c t (ix2 r (0 : Fin 1)) = BitVec.ofNat 32 g.val then (1 : EReal) else 0)
      = ∑ j : Fin 5000, cntTerm V c g (t.val * 5000 + j.val) := by
  have hN := lt20 t
  refine Finset.sum_congr rfl fun r _ => ?_
  have hr : t.val * 5000 + r.val < 100000 := by have := r.isLt; omega
  rw [gidBlk_apply V c t r hr]
  unfold cntTerm
  rw [dif_pos hr]

/-- The accumulators after point n: the terms of the first n + 1 blocks, block by block. -/
theorem acc_eq (c : Dev nD) : ∀ (n : ℕ) (hn : n < cfg2.N) (g : Fin 64) (d : Fin 128),
    (accAt V c n hn).1 (ix2 g d) = ∑ b : Fin (n + 1), ∑ j : Fin 5000, sumTerm V c g d (b.val * 5000 + j.val)
    ∧ (accAt V c n hn).2 (ix2 g d) = ∑ b : Fin (n + 1), ∑ j : Fin 5000, cntTerm V c g (b.val * 5000 + j.val)
  | 0, hn, g, d => by
    rw [accAt_zero]
    dsimp only
    constructor
    · refine (pay4_apply (iblk2 V c 1 ⟨0, hn⟩) (iblk2 V c 0 ⟨0, hn⟩) (k2_pay1 (F := Ideal)) g d).trans ?_
      rw [pay1_apply, zero_add, Fin.sum_univ_one]
      exact blkSum_eq V c ⟨0, hn⟩ g d
    · refine (pay5_apply (iblk2 V c 1 ⟨0, hn⟩) (k2_pay2 (F := Ideal)) g d).trans ?_
      rw [pay2_apply, zero_add, Fin.sum_univ_one]
      exact blkCnt_eq V c ⟨0, hn⟩ g
  | n + 1, hn, g, d => by
    have ih := acc_eq c n (Nat.lt_of_succ_lt hn) g d
    rw [accAt_succ]
    dsimp only
    constructor
    · refine (pay4_apply (iblk2 V c 1 ⟨n + 1, hn⟩) (iblk2 V c 0 ⟨n + 1, hn⟩) (accAt V c n (Nat.lt_of_succ_lt hn)).1 g d).trans ?_
      have e := Fin.sum_univ_castSucc (fun b : Fin (n + 1 + 1) => ∑ j : Fin 5000, sumTerm V c g d (b.val * 5000 + j.val))
      rw [e, ih.1]
      exact congrArg (_ + ·) (blkSum_eq V c ⟨n + 1, hn⟩ g d)
    · refine (pay5_apply (iblk2 V c 1 ⟨n + 1, hn⟩) (accAt V c n (Nat.lt_of_succ_lt hn)).2 g d).trans ?_
      have e := Fin.sum_univ_castSucc (fun b : Fin (n + 1 + 1) => ∑ j : Fin 5000, cntTerm V c g (b.val * 5000 + j.val))
      rw [e, ih.2]
      exact congrArg (_ + ·) (blkCnt_eq V c ⟨n + 1, hn⟩ g)

/-- The last point. -/
theorem h19 : 19 < cfg2.N := by rw [show cfg2.N = 20 from N_2]; decide
abbrev t19 : Fin cfg2.N := ⟨19, h19⟩

/-- Twenty blocks of 5000 rows tile the 100000 rows. -/
theorem sumAll_eq (c : Dev nD) (g : Fin 64) (d : Fin 128) :
    ∑ b : Fin (19 + 1), ∑ j : Fin 5000, sumTerm V c g d (b.val * 5000 + j.val)
      = Cert.Spec.poolSum (V c main_v49) (fun r => V c main_v50 (ix2 r (0 : Fin 1))) (ix2 g d) := by
  refine (Cert.LibOneHot.sum_blocks 20 5000 (sumTerm V c g d)).symm.trans ?_
  unfold Cert.Spec.poolSum
  show ∑ n : Fin 100000, sumTerm V c g d n.val = _
  refine Finset.sum_congr rfl fun r _ => ?_
  unfold sumTerm
  rw [dif_pos r.isLt]

theorem cntAll_eq (c : Dev nD) (g : Fin 64) :
    ∑ b : Fin (19 + 1), ∑ j : Fin 5000, cntTerm V c g (b.val * 5000 + j.val)
      = Cert.Spec.poolCnt (fun r => V c main_v50 (ix2 r (0 : Fin 1))) g := by
  refine (Cert.LibOneHot.sum_blocks 20 5000 (cntTerm V c g)).symm.trans ?_
  unfold Cert.Spec.poolCnt
  show ∑ n : Fin 100000, cntTerm V c g n.val = _
  refine Finset.sum_congr rfl fun r _ => ?_
  unfold cntTerm
  rw [dif_pos r.isLt]

/-- The quotient of the accumulators after the last point is the pooled mean. -/
theorem quot_eq (c : Dev nD) (g : Fin 64) (d : Fin 128) :
    k2_pay6 (F := Ideal) (accAt V c 19 h19).1 (accAt V c 19 h19).2 (ix2 g d)
      = Cert.Spec.pool (V c main_v49) (fun r => V c main_v50 (ix2 r (0 : Fin 1))) (ix2 g d) := by
  refine (pay6_apply (accAt V c 19 h19).1 (accAt V c 19 h19).2 (ix2 g d)).trans ?_
  rw [(acc_eq V c 19 h19 g d).1, (acc_eq V c 19 h19 g d).2, sumAll_eq, cntAll_eq]
  rfl

/-- The decoder of that quotient over the weight and bias blocks is the specification's decoder. -/
theorem dec_eq (c : Dev nD) (g : Fin 64) (j : Fin 64) :
    k2_pay7 (F := Ideal) (accAt V c 19 h19).1 (accAt V c 19 h19).2 (iblk2 V c 2 t19) (iblk2 V c 3 t19) (iblk2 V c 4 t19) (iblk2 V c 5 t19) (ix2 g j)
      = Cert.Spec.dec (Cert.Spec.pool (V c main_v49) (fun r => V c main_v50 (ix2 r (0 : Fin 1))))
          (V c main_arg8) (fun j => V c main_v51 (ix2 (0 : Fin 1) j)) (V c main_arg10) (fun j => V c main_v52 (ix2 (0 : Fin 1) j)) (ix2 g j) := by
  refine (pay7_apply (accAt V c 19 h19).1 (accAt V c 19 h19).2 (iblk2 V c 2 t19) (iblk2 V c 3 t19) (iblk2 V c 4 t19) (iblk2 V c 5 t19) g j).trans ?_
  unfold Cert.Spec.dec
  refine congrArg₂ (· + ·) ?_ (b2Blk_apply V c t19 j)
  refine Finset.sum_congr rfl fun k _ => ?_
  refine congrArg₂ (· * ·) ?_ (w2Blk_apply V c t19 k j)
  refine congrArg (max · 0) ?_
  refine congrArg₂ (· + ·) ?_ (b1Blk_apply V c t19 k)
  refine Finset.sum_congr rfl fun l _ => ?_
  exact congrArg₂ (· * ·) (quot_eq V c g l) (w1Blk_apply V c t19 l k)

/-- The one write-back of result 0, at the last point, whose block is the whole array, writes the pooled means. -/
theorem flushed6_eq (c : Dev nD) (t : Fin cfg2.N) (hf : (cfg2.win 6).flush t = true) :
    (dat2 (F := Ideal) V c).flushed 6 t
      = ((cfg2.win 6).blk t).view.read (Elt Ideal) (Cert.Spec.pool (V c main_v49) (fun r => V c main_v50 (ix2 r (0 : Fin 1)))) := by
  have h19' : t.val = 19 := by have := (flush2_6 t).mp hf; have := lt20 t; omega
  obtain rfl : t = t19 := Fin.ext h19'
  show (cfg2.win 6).cut (grid2.coords t19) ((dat2 (F := Ideal) V c).after 6 t19) = _
  rw [after2_6]
  have e : (cfg2.win 6).cut (grid2.coords t19) (k2_pay6 (F := Ideal) (accAt V c 19 h19).1 (accAt V c 19 h19).2)
      = Cert.Spec.pool (V c main_v49) (fun r => V c main_v50 (ix2 r (0 : Fin 1))) :=
    funext fun i => by
      obtain ⟨g, d, rfl⟩ : ∃ (g : Fin 64) (d : Fin 128), i = ix2 g d := ⟨i 0, i 1, eq_ix2 i⟩
      exact quot_eq V c g d
  refine e.trans ?_
  have hz' : (fun a => win2_6.index t19 a * main_v53_0.ty.shape.size a) = fun _ => 0 := funext fun a => by fin_cases a <;> decide
  exact (Memref.read_access_unit_zero (Elt Ideal) main_v53_0 hz' (fun a => by rw [congrFun hz' a]; simp)
    (Cert.Spec.pool (V c main_v49) (fun r => V c main_v50 (ix2 r (0 : Fin 1))))).symm

/-- The one write-back of result 1 writes the decoder of the pooled means. -/
theorem flushed7_eq (c : Dev nD) (t : Fin cfg2.N) (hf : (cfg2.win 7).flush t = true) :
    (dat2 (F := Ideal) V c).flushed 7 t
      = ((cfg2.win 7).blk t).view.read (Elt Ideal) (Cert.Spec.dec (Cert.Spec.pool (V c main_v49) (fun r => V c main_v50 (ix2 r (0 : Fin 1))))
          (V c main_arg8) (fun j => V c main_v51 (ix2 (0 : Fin 1) j)) (V c main_arg10) (fun j => V c main_v52 (ix2 (0 : Fin 1) j))) := by
  have h19' : t.val = 19 := by have := (flush2_7 t).mp hf; have := lt20 t; omega
  obtain rfl : t = t19 := Fin.ext h19'
  show (cfg2.win 7).cut (grid2.coords t19) ((dat2 (F := Ideal) V c).after 7 t19) = _
  rw [after2_7]
  have e : (cfg2.win 7).cut (grid2.coords t19) (k2_pay7 (F := Ideal) (accAt V c 19 h19).1 (accAt V c 19 h19).2
        (iblk2 V c 2 t19) (iblk2 V c 3 t19) (iblk2 V c 4 t19) (iblk2 V c 5 t19))
      = Cert.Spec.dec (Cert.Spec.pool (V c main_v49) (fun r => V c main_v50 (ix2 r (0 : Fin 1))))
          (V c main_arg8) (fun j => V c main_v51 (ix2 (0 : Fin 1) j)) (V c main_arg10) (fun j => V c main_v52 (ix2 (0 : Fin 1) j)) :=
    funext fun i => by
      obtain ⟨g, j, rfl⟩ : ∃ (g : Fin 64) (j : Fin 64), i = ix2 g j := ⟨i 0, i 1, eq_ix2 i⟩
      exact dec_eq V c g j
  refine e.trans ?_
  have hz' : (fun a => win2_7.index t19 a * main_v53_1.ty.shape.size a) = fun _ => 0 := funext fun a => by fin_cases a <;> decide
  exact (Memref.read_access_unit_zero (Elt Ideal) main_v53_1 hz' (fun a => by rw [congrFun hz' a]; simp)
    (Cert.Spec.dec (Cert.Spec.pool (V c main_v49) (fun r => V c main_v50 (ix2 r (0 : Fin 1))))
          (V c main_arg8) (fun j => V c main_v51 (ix2 (0 : Fin 1) j)) (V c main_arg10) (fun j => V c main_v52 (ix2 (0 : Fin 1) j)))).symm

end Pool

variable (V : (c : Dev nD) → (b : Ref sig .tc) → Buf (Elt Ideal) ((c : Thread nD τ).loc b))

/-- The pooled means: result 0. -/
theorem res0_eq (c : Dev nD) :
    (dat2 (F := Ideal) V c).arrAt 6 cfg2.N
      = Cert.Spec.pool (V c main_v49) (fun r => V c main_v50 (ix2 r (0 : Fin 1))) :=
  (dat2 (F := Ideal) V c).arrAt_eq_of_cover 6 _ (Pool.flushed6_eq V c) fun i =>
    ⟨Pool.t19, (flush2_6 Pool.t19).mpr rfl, by
      show i ∈ ((View.whole main_v53_0).slice (win2_6.rect Pool.t19)).set
      rw [View.set_slice_whole, Rect.mem_set_unit]
      intro a
      have h0 : (i 0 : Nat) < 64 := (i 0).isLt
      have h1 : (i 1 : Nat) < 128 := (i 1).isLt
      match a with
      | ⟨0, _⟩ =>
        show win2_6.index Pool.t19 0 * win2_6.size 0 ≤ (i 0 : Nat) ∧ (i 0 : Nat) < win2_6.index Pool.t19 0 * win2_6.size 0 + win2_6.xsize (grid2.coords Pool.t19) 0
        rw [show win2_6.index Pool.t19 0 * win2_6.size 0 = 0 from by decide +kernel, show win2_6.xsize (grid2.coords Pool.t19) 0 = 64 from by decide +kernel]; omega
      | ⟨1, _⟩ =>
        show win2_6.index Pool.t19 1 * win2_6.size 1 ≤ (i 1 : Nat) ∧ (i 1 : Nat) < win2_6.index Pool.t19 1 * win2_6.size 1 + win2_6.xsize (grid2.coords Pool.t19) 1
        rw [show win2_6.index Pool.t19 1 * win2_6.size 1 = 0 from by decide +kernel, show win2_6.xsize (grid2.coords Pool.t19) 1 = 128 from by decide +kernel]; omega⟩

/-- The decoder of the pooled means: result 1. -/
theorem res1_eq (c : Dev nD) :
    (dat2 (F := Ideal) V c).arrAt 7 cfg2.N
      = Cert.Spec.dec (Cert.Spec.pool (V c main_v49) (fun r => V c main_v50 (ix2 r (0 : Fin 1))))
          (V c main_arg8) (fun j => V c main_v51 (ix2 (0 : Fin 1) j)) (V c main_arg10) (fun j => V c main_v52 (ix2 (0 : Fin 1) j)) :=
  (dat2 (F := Ideal) V c).arrAt_eq_of_cover 7 _ (Pool.flushed7_eq V c) fun i =>
    ⟨Pool.t19, (flush2_7 Pool.t19).mpr rfl, by
      show i ∈ ((View.whole main_v53_1).slice (win2_7.rect Pool.t19)).set
      rw [View.set_slice_whole, Rect.mem_set_unit]
      intro a
      have h0 : (i 0 : Nat) < 64 := (i 0).isLt
      have h1 : (i 1 : Nat) < 64 := (i 1).isLt
      match a with
      | ⟨0, _⟩ =>
        show win2_7.index Pool.t19 0 * win2_7.size 0 ≤ (i 0 : Nat) ∧ (i 0 : Nat) < win2_7.index Pool.t19 0 * win2_7.size 0 + win2_7.xsize (grid2.coords Pool.t19) 0
        rw [show win2_7.index Pool.t19 0 * win2_7.size 0 = 0 from by decide +kernel, show win2_7.xsize (grid2.coords Pool.t19) 0 = 64 from by decide +kernel]; omega
      | ⟨1, _⟩ =>
        show win2_7.index Pool.t19 1 * win2_7.size 1 ≤ (i 1 : Nat) ∧ (i 1 : Nat) < win2_7.index Pool.t19 1 * win2_7.size 1 + win2_7.xsize (grid2.coords Pool.t19) 1
        rw [show win2_7.index Pool.t19 1 * win2_7.size 1 = 0 from by decide +kernel, show win2_7.xsize (grid2.coords Pool.t19) 1 = 64 from by decide +kernel]; omega⟩

end Cert.KernelIdeal.Hand

end
-- ==== Proof.MeanAgg.lean ====
/-
  The mean-aggregation chain that BOTH programs apply on the host before each GIN layer, as ONE function of the node
  features and the two edge-endpoint arrays: wrap a negative source index by adding 100000, gather the source rows (1.6M x 128),
  scatter-add them at the destination rows into zeros, scatter-add ones the same way for the in-degrees, divide the sums by
  max(degree, 1) and keep the quotient only where the degree is positive (zero elsewhere).  The operations, their
  dimension-number records and literals are the printed program's own, in its order; nothing here is opened: both sides
  of the certificate apply this function to equal arguments.
-/
import proofs.«408682_j48163763257711_1_alg».proof.Proof.Gen.KernelIdeal

noncomputable section

namespace Cert.KernelIdeal.Hand

open Idealize.ShloMosaic Cert.KernelIdeal Cert.KernelIdeal.Gen

variable {F : FTy → Type} [FloatOps F]

/-- `jnp.where(deg[:, None] > 0, agg_sum / maximum(deg, 1)[:, None], 0)` of the gathered-and-scattered rows. -/
def meanAgg (x : FVec F S100000x128 .f32) (src dst : IVec S1600000 32) : FVec F S100000x128 .f32 :=
  have c : IVec S_ 32 := constantI S_ 32 0#32
  have v0 : IVec S1600000 32 := broadcastInDim S1600000 ![] bcast_S_S1600000 c
  have v1 : IVec S1600000 1 := cmpi .slt src v0
  have c_0 : IVec S_ 32 := constantI S_ 32 100000#32
  have v2 : IVec S1600000 32 := broadcastInDim S1600000 ![] bcast_S_S1600000 c_0
  have v3 : IVec S1600000 32 := addi src v2
  have v4 : IVec S1600000 32 := select v1 v3 src
  have v5 : IVec S1600000x1 32 := broadcastInDim S1600000x1 ![0] bcast_S1600000_S1600000x1_0 v4
  have v6 : FVec F S1600000x128 .f32 := Host.gather gather_S100000x128_S1600000x1_S1600000x128_1_0_n_n_0_1_1128 x v5
  have cst : FVec F S_ .f32 := constant S_ .f32 0x00000000#32
  have v7 : FVec F S100000x128 .f32 := broadcastInDim S100000x128 ![] bcast_S_S100000x128 cst
  have v8 : IVec S1600000x1 32 := broadcastInDim S1600000x1 ![0] bcast_S1600000_S1600000x1_0 dst
  have v9 : FVec F S100000x128 .f32 := Host.scatterAdd scatter_S100000x128_S1600000x1_S1600000x128_1_0_0_1 v7 v8 v6
  have cst_1 : FVec F S_ .f32 := constant S_ .f32 0x3F800000#32
  have v10 : FVec F S1600000 .f32 := broadcastInDim S1600000 ![] bcast_S_S1600000 cst_1
  have cst_2 : FVec F S_ .f32 := constant S_ .f32 0x00000000#32
  have v11 : FVec F S100000 .f32 := broadcastInDim S100000 ![] bcast_S_S100000 cst_2
  have v12 : IVec S1600000x1 32 := broadcastInDim S1600000x1 ![0] bcast_S1600000_S1600000x1_0 dst
  have v13 : FVec F S100000 .f32 := Host.scatterAdd scatter_S100000_S1600000x1_S1600000_n_0_0_1 v11 v12 v10
  have v14 : FVec F S100000x1 .f32 := broadcastInDim S100000x1 ![0] bcast_S100000_S100000x1_0 v13
  have cst_3 : FVec F S_ .f32 := constant S_ .f32 0x00000000#32
  have v15 : FVec F S100000x1 .f32 := broadcastInDim S100000x1 ![] bcast_S_S100000x1 cst_3
  have v16 : IVec S100000x1 1 := cmpf .ogt v14 v15
  have cst_4 : FVec F S_ .f32 := constant S_ .f32 0x3F800000#32
  have v17 : FVec F S100000 .f32 := broadcastInDim S100000 ![] bcast_S_S100000 cst_4
  have v18 : FVec F S100000 .f32 := maximumf v13 v17
  have v19 : FVec F S100000x1 .f32 := broadcastInDim S100000x1 ![0] bcast_S100000_S100000x1_0 v18
  have v20 : FVec F S100000x128 .f32 := broadcastInDim S100000x128 ![0, 1] bcast_S100000x1_S100000x128_0_1 v19
  have v21 : FVec F S100000x128 .f32 := Host.divf v9 v20
  have cst_5 : FVec F S_ .f32 := constant S_ .f32 0x00000000#32
  have w0 : FVec F S_ .f32 := id cst_5
  have w1 : IVec S100000x128 1 := broadcastInDim S100000x128 ![0, 1] bcast_S100000x1_S100000x128_0_1 v16
  have w2 : FVec F S100000x128 .f32 := broadcastInDim S100000x128 ![] bcast_S_S100000x128 w0
  select w1 v21 w2

end Cert.KernelIdeal.Hand

end
-- ==== Proof.SpecOut.lean ====
/-
  The two results as functions of the twelve arguments, on the extended reals: two GIN layers, each over the shared
  mean-aggregation chain of its input, then the per-graph mean and its decoder.  Both runs' final contents are stated
  with these terms.
-/
import proofs.«408682_j48163763257711_1_alg».proof.Proof.MeanAgg
import proofs.«408682_j48163763257711_1_alg».proof.Proof.Spec

noncomputable section

namespace Cert.KernelIdeal.Hand

open Idealize.ShloMosaic Idealize.ShloMosaic.ValueIdx Cert.KernelIdeal

/-- The node features after the first GIN layer. -/
def layer1 (x : FVec Ideal S100000x128 .f32) (src dst : IVec S1600000 32) (W1 : FVec Ideal S128x128 .f32) (b1 : FVec Ideal S128 .f32) :
    FVec Ideal S100000x128 .f32 :=
  Cert.Spec.gin x (meanAgg (F := Ideal) x src dst) W1 (fun j => b1 (ix1 j))

/-- The node features after the second GIN layer. -/
def layer2 (x : FVec Ideal S100000x128 .f32) (src dst : IVec S1600000 32) (W1 : FVec Ideal S128x128 .f32) (b1 : FVec Ideal S128 .f32)
    (W2 : FVec Ideal S128x128 .f32) (b2 : FVec Ideal S128 .f32) : FVec Ideal S100000x128 .f32 :=
  Cert.Spec.gin (layer1 x src dst W1 b1) (meanAgg (F := Ideal) (layer1 x src dst W1 b1) src dst) W2 (fun j => b2 (ix1 j))

/-- Result 0: the per-graph means of the second layer's features. -/
def out0 (x : FVec Ideal S100000x128 .f32) (src dst : IVec S1600000 32) (gid : IVec S100000 32)
    (W1 : FVec Ideal S128x128 .f32) (b1 : FVec Ideal S128 .f32) (W2 : FVec Ideal S128x128 .f32) (b2 : FVec Ideal S128 .f32) :
    FVec Ideal S64x128 .f32 :=
  Cert.Spec.pool (layer2 x src dst W1 b1 W2 b2) (fun r => gid (ix1 r))

/-- Result 1: the decoder of result 0. -/
def out1 (x : FVec Ideal S100000x128 .f32) (src dst : IVec S1600000 32) (gid : IVec S100000 32)
    (W1 : FVec Ideal S128x128 .f32) (b1 : FVec Ideal S128 .f32) (W2 : FVec Ideal S128x128 .f32) (b2 : FVec Ideal S128 .f32)
    (Wd1 : FVec Ideal S128x128 .f32) (bd1 : FVec Ideal S128 .f32) (Wd2 : FVec Ideal S128x64 .f32) (bd2 : FVec Ideal S64 .f32) :
    FVec Ideal S64x64 .f32 :=
  Cert.Spec.dec (out0 x src dst gid W1 b1 W2 b2) Wd1 (fun j => bd1 (ix1 j)) Wd2 (fun j => bd2 (ix1 j))

end Cert.KernelIdeal.Hand

end
-- ==== Proof.KValues.lean ====
/-
  The idealized kernel program's two results as the specification's functions of its arguments: the fold of buffer
  contents read stretch by stretch — each host stretch is the shared mean-aggregation chain or a reshape of a bias or of
  the graph ids; each GIN region's output array is the layer function of what it found; region 2's two output arrays are
  the pooled means and their decoder.
-/
import proofs.«408682_j48163763257711_1_alg».proof.Proof.KIFold
import proofs.«408682_j48163763257711_1_alg».proof.Proof.ValGin
import proofs.«408682_j48163763257711_1_alg».proof.Proof.ValPool
import proofs.«408682_j48163763257711_1_alg».proof.Proof.SpecOut
import proofs.«408682_j48163763257711_1_alg».proof.Proof.Gen.KernelIdeal.Regions
import Idealize.ShloMosaic.Lib.StableHlo.Run
import Idealize.ShloMosaic.Lib.ValueLayout
import Idealize.ShloMosaic.Lib.Pipeline.Value
set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ)

/-! ## Buffers a stretch leaves alone

A host stretch changes only the buffers its operations write; a kernel region changes only its own arrays.  The twelve
arguments are written by nothing, so each is read at any boundary as launched. -/

/-- Up to region 0's entry: a buffer none of the first three host stretches writes is as launched. -/
theorem W3_through (c : Dev nD) (r : Ref sig .tc) (h0 : r ∉ hostOps0_W) (h1 : r ∉ hostOps0_1_W) (h2 : r ∉ hostOps0_2_W) :
    W3 m c (Proc.devRef .tc r) = m (c, Proc.devRef .tc r) :=
  (StableHlo.after_of_writes_sub hostOps0_2 _ hostOps0_2_writes h2).trans <|
    (StableHlo.after_of_writes_sub hostOps0_1 _ hostOps0_1_writes h1).trans <|
      StableHlo.after_of_writes_sub hostOps0 _ hostOps0_writes h0

/-- Across region 0 as well, for a buffer that is none of its five arrays. -/
theorem W4_through (c : Dev nD) (r : Ref sig .tc) (hne : ∀ w, Pipeline.arrRef spec0 w ≠ r)
    (h0 : r ∉ hostOps0_W) (h1 : r ∉ hostOps0_1_W) (h2 : r ∉ hostOps0_2_W) :
    W4 m c (Proc.devRef .tc r) = m (c, Proc.devRef .tc r) :=
  (W4_of_ne m c r hne).trans (W3_through m c r h0 h1 h2)

/-- From region 0's exit to region 1's entry: a buffer none of the next three host stretches writes. -/
theorem W7_of_W4 (c : Dev nD) (r : Ref sig .tc) (h0 : r ∉ hostOps1_W) (h1 : r ∉ hostOps1_1_W) (h2 : r ∉ hostOps1_2_W) :
    W7 m c (Proc.devRef .tc r) = W4 m c (Proc.devRef .tc r) :=
  (StableHlo.after_of_writes_sub hostOps1_2 _ hostOps1_2_writes h2).trans <|
    (StableHlo.after_of_writes_sub hostOps1_1 _ hostOps1_1_writes h1).trans <|
      StableHlo.after_of_writes_sub hostOps1 _ hostOps1_writes h0

/-- Up to region 1's entry from the launch. -/
theorem W7_through (c : Dev nD) (r : Ref sig .tc) (hne : ∀ w, Pipeline.arrRef spec0 w ≠ r)
    (h0 : r ∉ hostOps0_W) (h1 : r ∉ hostOps0_1_W) (h2 : r ∉ hostOps0_2_W)
    (h3 : r ∉ hostOps1_W) (h4 : r ∉ hostOps1_1_W) (h5 : r ∉ hostOps1_2_W) :
    W7 m c (Proc.devRef .tc r) = m (c, Proc.devRef .tc r) :=
  (W7_of_W4 m c r h3 h4 h5).trans (W4_through m c r hne h0 h1 h2)

/-- Across region 1 as well, for a buffer that is none of its five arrays either. -/
theorem W8_through (c : Dev nD) (r : Ref sig .tc) (hne0 : ∀ w, Pipeline.arrRef spec0 w ≠ r)
    (hne1 : ∀ w, Pipeline.arrRef spec1 w ≠ r)
    (h0 : r ∉ hostOps0_W) (h1 : r ∉ hostOps0_1_W) (h2 : r ∉ hostOps0_2_W)
    (h3 : r ∉ hostOps1_W) (h4 : r ∉ hostOps1_1_W) (h5 : r ∉ hostOps1_2_W) :
    W8 m c (Proc.devRef .tc r) = m (c, Proc.devRef .tc r) :=
  (W8_of_ne m c r hne1).trans (W7_through m c r hne0 h0 h1 h2 h3 h4 h5)

/-- Up to region 2's entry from the launch. -/
theorem W9_through (c : Dev nD) (r : Ref sig .tc) (hne0 : ∀ w, Pipeline.arrRef spec0 w ≠ r)
    (hne1 : ∀ w, Pipeline.arrRef spec1 w ≠ r)
    (h0 : r ∉ hostOps0_W) (h1 : r ∉ hostOps0_1_W) (h2 : r ∉ hostOps0_2_W)
    (h3 : r ∉ hostOps1_W) (h4 : r ∉ hostOps1_1_W) (h5 : r ∉ hostOps1_2_W) (h6 : r ∉ hostOps2_W) :
    W9 m c (Proc.devRef .tc r) = m (c, Proc.devRef .tc r) :=
  (StableHlo.after_of_writes_sub hostOps2 _ hostOps2_writes h6).trans
    (W8_through m c r hne0 hne1 h0 h1 h2 h3 h4 h5)

/-! ## The mean-aggregation chain, read off the host lines

The thirty lines of a first stretch compute the sums, the degrees, their quotient and the mask; the four lines of the
masked-quotient call select.  The call's lines are read first over ANY contents before them (so that the transports
between a value's type and its buffer's type, which are identities, are removed while the operands are still names);
the three operands are then the first stretch's lines in order, which are the chain's own lines. -/

/-- The four lines of the first masked-quotient call, over any contents before it. -/
theorem where0_read (V1 : Valuation τ sig (Elt Ideal)) :
    (StableHlo.after hostOps0_1 V1 (Proc.devRef .tc main_v22) : FVec Ideal S100000x128 .f32)
      = select
          (broadcastInDim S100000x128 ![0, 1] bcast_S100000x1_S100000x128_0_1 (V1 (Proc.devRef .tc main_v16) : IVec S100000x1 1))
          (V1 (Proc.devRef .tc main_v21) : FVec Ideal S100000x128 .f32)
          (broadcastInDim S100000x128 ![] bcast_S_S100000x128 (id (V1 (Proc.devRef .tc main_cst_5) : FVec Ideal S_ .f32))) := by
  after_results_simp
  simp only [cast_eq]

/-- The four lines of the second masked-quotient call, over any contents before it. -/
theorem where1_read (V1 : Valuation τ sig (Elt Ideal)) :
    (StableHlo.after hostOps1_1 V1 (Proc.devRef .tc main_v47) : FVec Ideal S100000x128 .f32)
      = select
          (broadcastInDim S100000x128 ![0, 1] bcast_S100000x1_S100000x128_0_1 (V1 (Proc.devRef .tc main_v41) : IVec S100000x1 1))
          (V1 (Proc.devRef .tc main_v46) : FVec Ideal S100000x128 .f32)
          (broadcastInDim S100000x128 ![] bcast_S_S100000x128 (id (V1 (Proc.devRef .tc main_cst_13) : FVec Ideal S_ .f32))) := by
  after_results_simp
  simp only [cast_eq]

/-- Before region 0 the aggregate buffer holds the chain of the launched features and edge endpoints. -/
theorem W2_v22 (c : Dev nD) :
    (W2 m c (Proc.devRef .tc main_v22) : FVec Ideal S100000x128 .f32)
      = meanAgg (F := Ideal) (m (c, Proc.devRef .tc main_arg0)) (m (c, Proc.devRef .tc main_arg1))
          (m (c, Proc.devRef .tc main_arg2)) := by
  show StableHlo.after hostOps0_1 (StableHlo.after hostOps0 (fun b => m (c, b))) (Proc.devRef .tc main_v22) = _
  rw [where0_read]
  unfold meanAgg
  after_results_simp

/-- Before region 1 the second aggregate buffer holds the same chain of what region 0 left in its output array and of
    the edge endpoints as they then are. -/
theorem W6_v47 (c : Dev nD) :
    (W6 m c (Proc.devRef .tc main_v47) : FVec Ideal S100000x128 .f32)
      = meanAgg (F := Ideal) (W4 m c (Proc.devRef .tc main_v24)) (W4 m c (Proc.devRef .tc main_arg1))
          (W4 m c (Proc.devRef .tc main_arg2)) := by
  show StableHlo.after hostOps1_1 (StableHlo.after hostOps1 (W4 m c)) (Proc.devRef .tc main_v47) = _
  rw [where1_read]
  unfold meanAgg
  after_results_simp

/-! ## Layout: a vector as a column -/

/-- An `[a]` array cast to `[a, 1]` reads, at `(i, u)`, the operand at `i`, whatever the unit coordinate `u`: both
    positions are `i` in row-major order. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## What region 0 finds -/

theorem U3_arg0 (c : Dev nD) : U3 m c main_arg0 = m ((c.tc : Thread nD τ).loc main_arg0) :=
  W3_through m c main_arg0 (by decide) (by decide) (by decide)

theorem U3_arg4 (c : Dev nD) : U3 m c main_arg4 = m ((c.tc : Thread nD τ).loc main_arg4) :=
  W3_through m c main_arg4 (by decide) (by decide) (by decide)

/-- The aggregate: the last stretch before the region (the bias reshape) does not write it. -/
theorem U3_v22 (c : Dev nD) :
    (U3 m c main_v22 : FVec Ideal S100000x128 .f32)
      = meanAgg (F := Ideal) (m ((c.tc : Thread nD τ).loc main_arg0)) (m ((c.tc : Thread nD τ).loc main_arg1))
          (m ((c.tc : Thread nD τ).loc main_arg2)) :=
  (StableHlo.after_of_writes_sub hostOps0_2 _ hostOps0_2_writes (by decide)).trans (W2_v22 m c)

/-- The first bias as a row: entry `(0, j)` is the launched vector's entry `j`. -/
theorem U3_v23 (c : Dev nD) (j : Fin 128) :
    (U3 m c main_v23 : FVec Ideal S1x128 .f32) (ix2 (0 : Fin 1) j) = m ((c.tc : Thread nD τ).loc main_arg5) (ix1 j) := by
  show StableHlo.after hostOps0_2 (StableHlo.after hostOps0_1 (StableHlo.after hostOps0 (fun b => m (c, b))))
      (Proc.devRef .tc main_v23) (ix2 (0 : Fin 1) j) = _
  rw [StableHlo.after_cons, StableHlo.after_nil, StableHlo.reshape_result,
    StableHlo.after_of_writes_sub hostOps0_1 _ hostOps0_1_writes (by decide),
    StableHlo.after_of_writes_sub hostOps0 _ hostOps0_writes (by decide)]
  exact shapeCast_a_1a_apply _ _ 0 j

/-- Region 0's output array is the first layer of the launched arguments. -/
theorem region0_out (c : Dev nD) :
    (dat0 (F := Ideal) (U3 m) c).arrAt 4 cfg0.N
      = layer1 (m ((c.tc : Thread nD τ).loc main_arg0)) (m ((c.tc : Thread nD τ).loc main_arg1))
          (m ((c.tc : Thread nD τ).loc main_arg2)) (m ((c.tc : Thread nD τ).loc main_arg4))
          (m ((c.tc : Thread nD τ).loc main_arg5)) := by
  rw [arrAt0_eq (U3 m) c, U3_arg0 m c, U3_v22 m c, U3_arg4 m c]
  unfold layer1
  exact congrArg (Cert.Spec.gin _ _ _) (funext fun j => U3_v23 m c j)

/-! ## What region 1 finds -/

/-- Region 0's output array after it. -/
theorem W4_v24 (c : Dev nD) : W4 m c (Proc.devRef .tc main_v24) = (dat0 (U3 m) c).arrAt 4 cfg0.N := W4_arr m c 4

/-- The next three host stretches do not write it. -/
theorem U7_v24 (c : Dev nD) : U7 m c main_v24 = (dat0 (U3 m) c).arrAt 4 cfg0.N :=
  (W7_of_W4 m c main_v24 (by decide) (by decide) (by decide)).trans (W4_v24 m c)

theorem U7_arg6 (c : Dev nD) : U7 m c main_arg6 = m ((c.tc : Thread nD τ).loc main_arg6) :=
  W7_through m c main_arg6 (by decide) (by decide) (by decide) (by decide) (by decide) (by decide) (by decide)

/-- The second aggregate: the chain of region 0's output and of the edge endpoints, which are still as launched. -/
theorem U7_v47 (c : Dev nD) :
    (U7 m c main_v47 : FVec Ideal S100000x128 .f32)
      = meanAgg (F := Ideal) ((dat0 (U3 m) c).arrAt 4 cfg0.N) (m ((c.tc : Thread nD τ).loc main_arg1))
          (m ((c.tc : Thread nD τ).loc main_arg2)) := by
  refine (StableHlo.after_of_writes_sub hostOps1_2 _ hostOps1_2_writes (by decide)).trans ?_
  refine (W6_v47 m c).trans ?_
  rw [W4_v24 m c, W4_through m c main_arg1 (by decide) (by decide) (by decide) (by decide),
    W4_through m c main_arg2 (by decide) (by decide) (by decide) (by decide)]

/-- The second bias as a row. -/
theorem U7_v48 (c : Dev nD) (j : Fin 128) :
    (U7 m c main_v48 : FVec Ideal S1x128 .f32) (ix2 (0 : Fin 1) j) = m ((c.tc : Thread nD τ).loc main_arg7) (ix1 j) := by
  show StableHlo.after hostOps1_2 (StableHlo.after hostOps1_1 (StableHlo.after hostOps1 (W4 m c)))
      (Proc.devRef .tc main_v48) (ix2 (0 : Fin 1) j) = _
  rw [StableHlo.after_cons, StableHlo.after_nil, StableHlo.reshape_result,
    StableHlo.after_of_writes_sub hostOps1_1 _ hostOps1_1_writes (by decide),
    StableHlo.after_of_writes_sub hostOps1 _ hostOps1_writes (by decide),
    W4_through m c main_arg7 (by decide) (by decide) (by decide) (by decide)]
  exact shapeCast_a_1a_apply _ _ 0 j

/-- Region 1's output array is the second layer of the launched arguments. -/
theorem region1_out (c : Dev nD) :
    (dat1 (F := Ideal) (U7 m) c).arrAt 4 cfg1.N
      = layer2 (m ((c.tc : Thread nD τ).loc main_arg0)) (m ((c.tc : Thread nD τ).loc main_arg1))
          (m ((c.tc : Thread nD τ).loc main_arg2)) (m ((c.tc : Thread nD τ).loc main_arg4))
          (m ((c.tc : Thread nD τ).loc main_arg5)) (m ((c.tc : Thread nD τ).loc main_arg6))
          (m ((c.tc : Thread nD τ).loc main_arg7)) := by
  rw [arrAt1_eq (U7 m) c, U7_v24 m c, U7_v47 m c, U7_arg6 m c, region0_out m c]
  unfold layer2
  exact congrArg (Cert.Spec.gin _ _ _) (funext fun j => U7_v48 m c j)

/-! ## What region 2 finds -/

/-- Region 1's output array after it. -/
theorem W8_v49 (c : Dev nD) : W8 m c (Proc.devRef .tc main_v49) = (dat1 (U7 m) c).arrAt 4 cfg1.N := W8_arr m c 4

/-- The three reshapes before region 2 do not write it. -/
theorem U9_v49 (c : Dev nD) : U9 m c main_v49 = (dat1 (U7 m) c).arrAt 4 cfg1.N :=
  (StableHlo.after_of_writes_sub hostOps2 _ hostOps2_writes (by decide)).trans (W8_v49 m c)

theorem U9_arg8 (c : Dev nD) : U9 m c main_arg8 = m ((c.tc : Thread nD τ).loc main_arg8) :=
  W9_through m c main_arg8 (by decide) (by decide) (by decide) (by decide) (by decide) (by decide) (by decide) (by decide)
    (by decide)

theorem U9_arg10 (c : Dev nD) : U9 m c main_arg10 = m ((c.tc : Thread nD τ).loc main_arg10) :=
  W9_through m c main_arg10 (by decide) (by decide) (by decide) (by decide) (by decide) (by decide) (by decide) (by decide)
    (by decide)

/-- The graph ids as a column: entry `(r, 0)` is the launched vector's entry `r`. -/
theorem U9_v50 (c : Dev nD) (r : Fin 100000) :
    (U9 m c main_v50 : IVec S100000x1 32) (ix2 r (0 : Fin 1)) = m ((c.tc : Thread nD τ).loc main_arg3) (ix1 r) := by
  show StableHlo.after hostOps2 (W8 m c) (Proc.devRef .tc main_v50) (ix2 r (0 : Fin 1)) = _
  after_results
  rw [W8_through m c main_arg3 (by decide) (by decide) (by decide) (by decide) (by decide) (by decide) (by decide)
    (by decide)]
  exact shapeCast_a_a1_apply _ _ r 0

/-- The decoder's first bias as a row. -/
theorem U9_v51 (c : Dev nD) (j : Fin 128) :
    (U9 m c main_v51 : FVec Ideal S1x128 .f32) (ix2 (0 : Fin 1) j) = m ((c.tc : Thread nD τ).loc main_arg9) (ix1 j) := by
  show StableHlo.after hostOps2 (W8 m c) (Proc.devRef .tc main_v51) (ix2 (0 : Fin 1) j) = _
  after_results
  rw [W8_through m c main_arg9 (by decide) (by decide) (by decide) (by decide) (by decide) (by decide) (by decide)
    (by decide)]
  exact shapeCast_a_1a_apply _ _ 0 j

/-- The decoder's second bias as a row. -/
theorem U9_v52 (c : Dev nD) (j : Fin 64) :
    (U9 m c main_v52 : FVec Ideal S1x64 .f32) (ix2 (0 : Fin 1) j) = m ((c.tc : Thread nD τ).loc main_arg11) (ix1 j) := by
  show StableHlo.after hostOps2 (W8 m c) (Proc.devRef .tc main_v52) (ix2 (0 : Fin 1) j) = _
  after_results
  rw [W8_through m c main_arg11 (by decide) (by decide) (by decide) (by decide) (by decide) (by decide) (by decide)
    (by decide)]
  exact shapeCast_a_1a_apply _ _ 0 j

/-! ## The two results -/

/-- Result 0 at the end of @main. -/
theorem kernel_out0 (c : Dev nD) :
    (dat2 (F := Ideal) (U9 m) c).arrAt 6 cfg2.N
      = out0 (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  rw [res0_eq (U9 m) c, U9_v49 m c, region1_out m c]
  unfold out0
  exact congrArg (Cert.Spec.pool _) (funext fun r => U9_v50 m c r)

/-- Result 1 at the end of @main. -/
theorem kernel_out1 (c : Dev nD) :
    (dat2 (F := Ideal) (U9 m) c).arrAt 7 cfg2.N
      = out1 (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11)) := by
  have e50 : (fun r : Fin 100000 => U9 m c main_v50 (ix2 r (0 : Fin 1)))
      = fun r => m ((c.tc : Thread nD τ).loc main_arg3) (ix1 r) := funext fun r => U9_v50 m c r
  have e51 : (fun j : Fin 128 => U9 m c main_v51 (ix2 (0 : Fin 1) j))
      = fun j => m ((c.tc : Thread nD τ).loc main_arg9) (ix1 j) := funext fun j => U9_v51 m c j
  have e52 : (fun j : Fin 64 => U9 m c main_v52 (ix2 (0 : Fin 1) j))
      = fun j => m ((c.tc : Thread nD τ).loc main_arg11) (ix1 j) := funext fun j => U9_v52 m c j
  rw [res1_eq (U9 m) c, U9_v49 m c, region1_out m c, U9_arg8 m c, U9_arg10 m c, e50, e51, e52]
  unfold out1 out0
  with_reducible rfl

end Cert.KernelIdeal.Hand

end
-- ==== Proof.LibScatterLanding.lean ====
/-
  Where an accumulating or overwriting scatter's update lands — for ANY scatter dimension numbers.

  StableHLO's scatter drops an update unless its result index (the start index read as a SIGNED integer and NOT clamped,
  plus the update's window coordinate) names an element of the operand. So "update j lands on element i" says exactly
  that, on every operand axis, the signed start plus the window coordinate IS i's coordinate — whatever the index words
  are, in range or not: an out-of-range update simply lands nowhere. With it, the accumulating scatter at an element is
  the operand there plus the sum of the updates that land there, the landing test a decidable equation between integers.
  Library imports only.
-/
import Idealize.ShloMosaic.PureOps.Ideal

noncomputable section

namespace Cert.Sage

open Idealize.ShloMosaic

/-- An update lands on element i exactly when, on every axis, its signed start plus its window coordinate is i's
    coordinate. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro h a
    by_cases hr : ∀ a, 0 ≤ d.start j idx a + d.window j a ∧ d.start j idx a + d.window j a < s.size a
    · rw [dif_pos hr] at h
      -- the landing index is the start plus the window coordinate, which is non-negative here
      have hv : (d.start j idx a + (d.window j a : Int)).toNat = (i a).val :=
        congrArg Fin.val (congrFun (Option.some.inj h) a)
      have h0 := (hr a).1
      omega
    · rw [dif_neg hr] at h
      exact absurd h (by simp)
  · intro h
    -- the equations put every coordinate in range, because every coordinate of i is in range
    have hr : ∀ a, 0 ≤ d.start j idx a + d.window j a ∧ d.start j idx a + d.window j a < s.size a := by
      intro a
      have h1 := h a
      have h2 := (i a).isLt
      omega
    rw [dif_pos hr]
    refine congrArg some ?_
    funext a
    refine Fin.ext ?_
    show (d.start j idx a + (d.window j a : Int)).toNat = (i a).val
    have h1 := h a
    omega

/-- The accumulating float scatter read at an element, on the extended reals: the operand there plus every update that
    lands there. -/
theorem scatterAdd_at {s si u : Shape} {w : Nat} (d : ScatterDims s si u) (x : s.Idx → EReal) (idx : IVec si w)
    (upd : u.Idx → EReal) (i : s.Idx) :
    Host.scatterAdd (F := Ideal) (φ := .f32) d x idx upd i
      = x i + ∑ j ∈ Finset.univ.filter (fun j => d.resultIdx? j idx = some i), upd j := rfl

end Cert.Sage

end
-- ==== Proof.RefIsSpec.lean ====
/-
  The idealized reference's run with its two results named by the specification: its @main is host operations only — the
  shared mean-aggregation chain, a whole matrix product plus bias and a maximum with zero for each GIN layer, two
  accumulating scatters at the graph ids for the per-graph sums and counts, a quotient, and the decoder's two products.
  Each stage is read at an index: a whole product is the plain sum over the contracted axis, an accumulating scatter into
  zeros at an element is the sum of the updates that land there, and an update lands on graph g exactly when its id word is g's.
-/
import proofs.«408682_j48163763257711_1_alg».proof.Proof.RefReadP
import proofs.«408682_j48163763257711_1_alg».proof.Proof.SpecOut
import proofs.«408682_j48163763257711_1_alg».proof.Proof.LibScatterLanding
import Idealize.ShloMosaic.Lib.ValueIdx
import Idealize.ShloMosaic.Lib.ValueLayout
import Idealize.ShloMosaic.Lib.Pipeline.Value
import Idealize.ShloMosaic.Lib.StableHlo.Run
import Idealize.ShloMosaic.Lib.IdealHost
import Idealize.ShloMosaic.PureOps.Ideal.Laws

set_option maxRecDepth 16384

noncomputable section

namespace Cert.ReferenceIdeal.Hand

open Idealize.ShloMosaic Idealize.ShloMosaic.TcCoe Idealize.ShloMosaic.ValueIdx
open Idealize.SL Idealize.SL.Sem
open Cert.ReferenceIdeal Cert.ReferenceIdeal.Gen

/-! ## Where the per-graph scatters land -/

/-- A 32-bit word read as a signed integer is the small natural g exactly when it is g's word. -/
theorem toInt_eq_small_iff (w : BitVec 32) (g : Nat) (hg : g < 64) :
    w.toInt = (g : Int) ↔ w = BitVec.ofNat 32 g := by
  have hn : (BitVec.ofNat 32 g).toNat = g := by rw [BitVec.toNat_ofNat]; omega
  have hw : (BitVec.ofNat 32 g).toInt = (g : Int) := by
    rw [BitVec.toInt_eq_toNat_of_lt (by rw [hn]; omega), hn]
  rw [← hw]
  exact BitVec.toInt_inj

/-- Row scatter into [64,128]: on the row axis the start is the id word read signed. -/
theorem rows_start0 (j : S100000x128.Idx) (ids : IVec S100000x1 32) :
    scatter_S64x128_S100000x1_S100000x128_1_0_0_1.start j ids 0 = (ids (ix2 (j 0) 0)).toInt := by
  unfold ScatterDims.start
  rw [dif_pos (show (0 : Fin S64x128.rank) ∈ scatter_S64x128_S100000x1_S100000x128_1_0_0_1.scatterDimsToOperandDims by decide)]
  refine congrArg (fun q => (ids q).toInt) ?_
  funext b
  match b with
  | ⟨0, _⟩ => rfl
  | ⟨1, _⟩ => rfl

/-- … and on the feature axis it is zero: no index component names that axis. -/
theorem rows_start1 (j : S100000x128.Idx) (ids : IVec S100000x1 32) :
    scatter_S64x128_S100000x1_S100000x128_1_0_0_1.start j ids 1 = 0 := by
  unfold ScatterDims.start
  rw [dif_neg (show ¬ (1 : Fin S64x128.rank) ∈ scatter_S64x128_S100000x1_S100000x128_1_0_0_1.scatterDimsToOperandDims by decide)]

/-- The row axis is an inserted one: its window coordinate is zero. -/
theorem rows_window0 (j : S100000x128.Idx) :
    scatter_S64x128_S100000x1_S100000x128_1_0_0_1.window j 0 = 0 := by
  unfold ScatterDims.window
  rw [dif_neg (show ¬ (0 : Fin S64x128.rank) ∈ scatter_S64x128_S100000x1_S100000x128_1_0_0_1.sKept by decide)]

/-- The feature axis carries the update's feature coordinate. -/
theorem rows_window1 (j : S100000x128.Idx) :
    scatter_S64x128_S100000x1_S100000x128_1_0_0_1.window j 1 = (j 1).val := by
  unfold ScatterDims.window
  rw [dif_pos (show (1 : Fin S64x128.rank) ∈ scatter_S64x128_S100000x1_S100000x128_1_0_0_1.sKept by decide)]
  rfl

/-- Node r's feature d lands on entry (g, d') exactly when r's id word is g's word and d = d'. -/
theorem rows_lands (r : Fin 100000) (d : Fin 128) (ids : IVec S100000x1 32) (g : Fin 64) (d' : Fin 128) :
    scatter_S64x128_S100000x1_S100000x128_1_0_0_1.resultIdx? (ix2 r d) ids = some (ix2 g d')
      ↔ ids (ix2 r 0) = BitVec.ofNat 32 g.val ∧ d = d' := by
  rw [Cert.Sage.resultIdx?_eq_some_iff, ← toInt_eq_small_iff _ _ g.isLt]
  constructor
  · intro h
    have h0 := h 0
    have h1 := h 1
    rw [rows_start0, rows_window0] at h0
    rw [rows_start1, rows_window1] at h1
    refine ⟨?_, Fin.ext ?_⟩
    · simpa using h0
    · have h1' : ((d.val : Nat) : Int) = ((d'.val : Nat) : Int) := by simpa using h1
      exact_mod_cast h1'
  · rintro ⟨h0, rfl⟩ a
    match a with
    | ⟨0, _⟩ =>
      show scatter_S64x128_S100000x1_S100000x128_1_0_0_1.start (ix2 r d) ids 0
        + ((scatter_S64x128_S100000x1_S100000x128_1_0_0_1.window (ix2 r d) 0 : Nat) : Int) = ((g.val : Nat) : Int)
      rw [rows_start0, rows_window0]
      simpa using h0
    | ⟨1, _⟩ =>
      show scatter_S64x128_S100000x1_S100000x128_1_0_0_1.start (ix2 r d) ids 1
        + ((scatter_S64x128_S100000x1_S100000x128_1_0_0_1.window (ix2 r d) 1 : Nat) : Int) = ((d.val : Nat) : Int)
      rw [rows_start1, rows_window1]
      simp

/-- The accumulating row scatter into zeros, at an entry: the sum of the rows whose id word is the entry's graph. -/
theorem rows_sum_at (z : FVec Ideal S64x128 .f32) (hz : ∀ i, z i = 0) (ids : IVec S100000x1 32)
    (h : FVec Ideal S100000x128 .f32) (i : S64x128.Idx) :
    Host.scatterAdd (F := Ideal) scatter_S64x128_S100000x1_S100000x128_1_0_0_1 z ids h i
      = Cert.Spec.poolSum h (fun r => ids (ix2 r 0)) i := by
  obtain ⟨g, d', rfl⟩ : ∃ (g : Fin 64) (d' : Fin 128), i = ix2 g d' := ⟨i 0, i 1, eq_ix2 i⟩
  rw [Cert.Sage.scatterAdd_at, hz, zero_add, Finset.sum_filter, sum_idx2]
  show _ = ∑ r : Fin 100000, if ids (ix2 r 0) = BitVec.ofNat 32 g.val then h (ix2 r d') else 0
  refine Finset.sum_congr rfl fun r _ => ?_
  simp only [rows_lands]
  by_cases hc : ids (ix2 r 0) = BitVec.ofNat 32 g.val
  · simp only [hc, true_and, if_true]
    rw [Finset.sum_ite_eq' Finset.univ d' (fun b => h (ix2 r b)), if_pos (Finset.mem_univ _)]
  · simp only [hc, false_and, if_false, Finset.sum_const_zero]

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n := ⟨fun j => j 0, ix1, fun j => (eq_ix1 j).symm, fun _ => rfl⟩
  exact (Equiv.sum_comp e.symm f).symm

/-- Count scatter into [64]: the start on the one axis is the id word read signed. -/
theorem cnt_start0 (j : S100000.Idx) (ids : IVec S100000x1 32) :
    scatter_S64_S100000x1_S100000_n_0_0_1.start j ids 0 = (ids (ix2 (j 0) 0)).toInt := by
  unfold ScatterDims.start
  rw [dif_pos (show (0 : Fin S64.rank) ∈ scatter_S64_S100000x1_S100000_n_0_0_1.scatterDimsToOperandDims by decide)]
  refine congrArg (fun q => (ids q).toInt) ?_
  funext b
  match b with
  | ⟨0, _⟩ => rfl
  | ⟨1, _⟩ => rfl

/-- That axis is an inserted one: its window coordinate is zero. -/
theorem cnt_window0 (j : S100000.Idx) :
    scatter_S64_S100000x1_S100000_n_0_0_1.window j 0 = 0 := by
  unfold ScatterDims.window
  rw [dif_neg (show ¬ (0 : Fin S64.rank) ∈ scatter_S64_S100000x1_S100000_n_0_0_1.sKept by decide)]

/-- Node r's one lands on graph g exactly when r's id word is g's word. -/
theorem cnt_lands (r : Fin 100000) (ids : IVec S100000x1 32) (g : Fin 64) :
    scatter_S64_S100000x1_S100000_n_0_0_1.resultIdx? (ix1 r) ids = some (ix1 g)
      ↔ ids (ix2 r 0) = BitVec.ofNat 32 g.val := by
  rw [Cert.Sage.resultIdx?_eq_some_iff, ← toInt_eq_small_iff _ _ g.isLt]
  constructor
  · intro h
    have h0 := h 0
    rw [cnt_start0, cnt_window0] at h0
    simpa using h0
  · intro h0 a
    match a with
    | ⟨0, _⟩ =>
      show scatter_S64_S100000x1_S100000_n_0_0_1.start (ix1 r) ids 0
        + ((scatter_S64_S100000x1_S100000_n_0_0_1.window (ix1 r) 0 : Nat) : Int) = ((g.val : Nat) : Int)
      rw [cnt_start0, cnt_window0]
      simpa using h0

/-- The accumulating scatter of ones into zeros, at a graph: the number of nodes whose id word is the graph's. -/
theorem cnt_sum_at (z : FVec Ideal S64 .f32) (hz : ∀ i, z i = 0) (ids : IVec S100000x1 32)
    (o : FVec Ideal S100000 .f32) (ho : ∀ j, o j = 1) (i : S64.Idx) :
    Host.scatterAdd (F := Ideal) scatter_S64_S100000x1_S100000_n_0_0_1 z ids o i
      = Cert.Spec.poolCnt (fun r => ids (ix2 r 0)) (i 0) := by
  obtain ⟨g, rfl⟩ : ∃ g : Fin 64, i = ix1 g := ⟨i 0, eq_ix1 i⟩
  rw [Cert.Sage.scatterAdd_at, hz, zero_add, Finset.sum_filter, sum_idx1]
  show _ = ∑ r : Fin 100000, if ids (ix2 r 0) = BitVec.ofNat 32 g.val then (1 : EReal) else 0
  refine Finset.sum_congr rfl fun r _ => ?_
  simp only [cnt_lands, ho]

/-! ## The stages, each as the specification's function of the stage before -/

open Cert.ReferenceIdeal.ReadP

section Stages

variable (x0 : FVec Ideal S100000x128 .f32) (x1 x2 : IVec S1600000 32) (x3 : IVec S100000 32)
  (x4 : FVec Ideal S128x128 .f32) (x5 : FVec Ideal S128 .f32) (x6 : FVec Ideal S128x128 .f32) (x7 : FVec Ideal S128 .f32)
  (x8 : FVec Ideal S128x128 .f32) (x9 : FVec Ideal S128 .f32) (x10 : FVec Ideal S128x64 .f32) (x11 : FVec Ideal S64 .f32)

/-- The first aggregate is the shared mean-aggregation chain of the node features: the same operations with the same
    literals and dimension numbers, so the two terms are one. -/
theorem agg1_eq : val_main_v22 (F := Ideal) x0 x1 x2 = Cert.KernelIdeal.Hand.meanAgg (F := Ideal) x0 x1 x2 := rfl

/-- The second aggregate is the same chain applied to the first layer's features. -/
theorem agg2_eq : val_main_v51 (F := Ideal) x0 x1 x2 x4 x5
    = Cert.KernelIdeal.Hand.meanAgg (F := Ideal) (val_main_v28 (F := Ideal) x0 x1 x2 x4 x5) x1 x2 := rfl

/-- One GIN layer at an entry: the whole product of (x + a) with W over the feature axis, plus the bias of the entry's
    column, floored at zero — with the row, column and bias indices given by their coordinates. -/
theorem gin_at (x a : FVec Ideal S100000x128 .f32) (W : FVec Ideal S128x128 .f32) (b : FVec Ideal S128 .f32)
    (i : S100000x128.Idx) (L : Fin 128 → S100000x128.Idx) (R : Fin 128 → S128x128.Idx) (B : S128.Idx)
    (hL : ∀ k, L k = ix2 (i 0) k) (hR : ∀ k, R k = ix2 k (i 1)) (hB : B = ix1 (i 1)) :
    max ((∑ k : Fin 128, (x (L k) + a (L k)) * W (R k)) + b B) 0
      = Cert.Spec.gin x a W (fun j => b (ix1 j)) i := by
  simp only [hL, hR, hB]
  rfl

/-- The first layer's features are the GIN layer of the inputs and their aggregate. -/
theorem feat1_eq : val_main_v28 (F := Ideal) x0 x1 x2 x4 x5
    = Cert.Spec.gin x0 (val_main_v22 (F := Ideal) x0 x1 x2) x4 (fun j => x5 (ix1 j)) := by
  funext i
  rw [val_main_v28_apply, val_main_v27_apply, val_main_v24_apply, val_main_v26_apply, val_main_v25_apply,
    val_main_call1_v0_apply, val_main_call1_cst_apply]
  simp only [val_main_v23_apply, Ideal.addf_def, Ideal.maximumf_def, Ideal.ofBits_def, Ideal.ofBits_zero_f32]
  exact gin_at x0 (val_main_v22 (F := Ideal) x0 x1 x2) x4 x5 i (lidx_main_v24 i) (ridx_main_v24 i)
    (idx_main_v25 (idx_main_v26 i))
    (fun k => funext fun a => by match a with | ⟨0, _⟩ => rfl | ⟨1, _⟩ => rfl)
    (fun k => funext fun a => by match a with | ⟨0, _⟩ => rfl | ⟨1, _⟩ => rfl)
    (funext fun a => by match a with | ⟨0, _⟩ => rfl)

/-- The second layer's features are the GIN layer of the first layer's features and their aggregate. -/
theorem feat2_eq : val_main_v57 (F := Ideal) x0 x1 x2 x4 x5 x6 x7
    = Cert.Spec.gin (val_main_v28 (F := Ideal) x0 x1 x2 x4 x5) (val_main_v51 (F := Ideal) x0 x1 x2 x4 x5) x6
        (fun j => x7 (ix1 j)) := by
  funext i
  rw [val_main_v57_apply, val_main_v56_apply, val_main_v53_apply, val_main_v55_apply, val_main_v54_apply,
    val_main_call3_v0_apply, val_main_call3_cst_apply]
  simp only [val_main_v52_apply, Ideal.addf_def, Ideal.maximumf_def, Ideal.ofBits_def, Ideal.ofBits_zero_f32]
  exact gin_at (val_main_v28 (F := Ideal) x0 x1 x2 x4 x5) (val_main_v51 (F := Ideal) x0 x1 x2 x4 x5) x6 x7 i
    (lidx_main_v53 i) (ridx_main_v53 i) (idx_main_v54 (idx_main_v55 i))
    (fun k => funext fun a => by match a with | ⟨0, _⟩ => rfl | ⟨1, _⟩ => rfl)
    (fun k => funext fun a => by match a with | ⟨0, _⟩ => rfl | ⟨1, _⟩ => rfl)
    (funext fun a => by match a with | ⟨0, _⟩ => rfl)

/-- The graph-id column read at node r is r's id word. -/
theorem ids_col (r : Fin 100000) : val_main_v59 (F := Ideal) x3 (ix2 r 0) = x3 (ix1 r) := by
  rw [val_main_v59_apply]
  exact congrArg x3 (funext fun a => by match a with | ⟨0, _⟩ => rfl)

/-- The same column, built a second time for the counts. -/
theorem ids_col' (r : Fin 100000) : val_main_v63 (F := Ideal) x3 (ix2 r 0) = x3 (ix1 r) := by
  rw [val_main_v63_apply]
  exact congrArg x3 (funext fun a => by match a with | ⟨0, _⟩ => rfl)

/-- The per-graph sums of the second layer's features. -/
theorem sums_eq (i : S64x128.Idx) : val_main_v60 (F := Ideal) x0 x1 x2 x3 x4 x5 x6 x7 i
    = Cert.Spec.poolSum (val_main_v57 (F := Ideal) x0 x1 x2 x4 x5 x6 x7) (fun r => x3 (ix1 r)) i := by
  unfold val_main_v60
  rw [rows_sum_at _ (fun j => by
    rw [val_main_v58_apply, val_main_cst_14_apply, Ideal.ofBits_def, Ideal.ofBits_zero_f32])]
  exact congrArg (fun gid => Cert.Spec.poolSum _ gid i) (funext fun r => ids_col x3 r)

/-- The per-graph node counts. -/
theorem cnts_eq (g : S64.Idx) : val_main_v64 (F := Ideal) x3 g = Cert.Spec.poolCnt (fun r => x3 (ix1 r)) (g 0) := by
  unfold val_main_v64
  rw [cnt_sum_at _ (fun j => by
      rw [val_main_v62_apply, val_main_cst_16_apply, Ideal.ofBits_def, Ideal.ofBits_zero_f32]) _ _
    (fun j => by rw [val_main_v61_apply, val_main_cst_15_apply, Ideal.ofBits_def, Ideal.ofBits_one_f32])]
  exact congrArg (fun gid => Cert.Spec.poolCnt gid (g 0)) (funext fun r => ids_col' x3 r)

/-- Result 0 is the per-graph mean of the second layer's features: sums over counts floored at one. -/
theorem mean_eq : val_main_v69 (F := Ideal) x0 x1 x2 x3 x4 x5 x6 x7
    = Cert.Spec.pool (val_main_v57 (F := Ideal) x0 x1 x2 x4 x5 x6 x7) (fun r => x3 (ix1 r)) := by
  funext i
  rw [val_main_v69_apply, val_main_v68_apply, val_main_v67_apply, val_main_v66_apply, val_main_v65_apply,
    val_main_cst_17_apply, sums_eq, cnts_eq]
  simp only [Ideal.hostDivf_def, Ideal.maximumf_def, Ideal.ofBits_def, Ideal.ofBits_one_f32]
  rfl

/-- The decoder at entry (p, q): the second product over the floored first product plus its bias, plus the second
    bias — with every index given by its coordinates. -/
theorem dec_at (hg : FVec Ideal S64x128 .f32) (W1 : FVec Ideal S128x128 .f32) (b1 : FVec Ideal S128 .f32)
    (W2 : FVec Ideal S128x64 .f32) (b2 : FVec Ideal S64 .f32) (p q : Fin 64)
    (L2 : Fin 128 → S64x128.Idx) (R2 : Fin 128 → S128x64.Idx) (L1 : S64x128.Idx → Fin 128 → S64x128.Idx)
    (R1 : S64x128.Idx → Fin 128 → S128x128.Idx) (B1 : S64x128.Idx → S128.Idx) (B2 : S64.Idx)
    (hL2 : ∀ k, L2 k = ix2 p k) (hR2 : ∀ k, R2 k = ix2 k q)
    (hL1 : ∀ (k l : Fin 128), L1 (ix2 p k) l = ix2 p l) (hR1 : ∀ (k l : Fin 128), R1 (ix2 p k) l = ix2 l k)
    (hB1 : ∀ k : Fin 128, B1 (ix2 p k) = ix1 k) (hB2 : B2 = ix1 q) :
    (∑ k : Fin 128, max ((∑ l : Fin 128, hg (L1 (L2 k) l) * W1 (R1 (L2 k) l)) + b1 (B1 (L2 k))) 0 * W2 (R2 k)) + b2 B2
      = Cert.Spec.dec hg W1 (fun j => b1 (ix1 j)) W2 (fun j => b2 (ix1 j)) (ix2 p q) := by
  simp only [hL2, hR2, hL1, hR1, hB1, hB2]
  rfl

/-- Result 1 is the decoder of result 0. -/
theorem dec_eq : val_main_v78 (F := Ideal) x0 x1 x2 x3 x4 x5 x6 x7 x8 x9 x10 x11
    = Cert.Spec.dec (val_main_v69 (F := Ideal) x0 x1 x2 x3 x4 x5 x6 x7) x8 (fun j => x9 (ix1 j)) x10
        (fun j => x11 (ix1 j)) := by
  funext i
  obtain ⟨p, q, rfl⟩ : ∃ (p q : Fin 64), i = ix2 p q := ⟨i 0, i 1, eq_ix2 i⟩
  rw [val_main_v78_apply, val_main_v75_apply, val_main_v77_apply, val_main_v76_apply]
  simp only [val_main_v74_apply, val_main_v73_apply, val_main_v70_apply, val_main_v72_apply, val_main_v71_apply,
    val_main_call4_v0_apply, val_main_call4_cst_apply, Ideal.addf_def, Ideal.maximumf_def, Ideal.ofBits_def,
    Ideal.ofBits_zero_f32]
  exact dec_at (val_main_v69 (F := Ideal) x0 x1 x2 x3 x4 x5 x6 x7) x8 x9 x10 x11 p q
    (lidx_main_v75 (ix2 p q)) (ridx_main_v75 (ix2 p q)) lidx_main_v70 ridx_main_v70
    (fun j => idx_main_v71 (idx_main_v72 j)) (idx_main_v76 (idx_main_v77 (ix2 p q)))
    (fun k => funext fun a => by match a with | ⟨0, _⟩ => rfl | ⟨1, _⟩ => rfl)
    (fun k => funext fun a => by match a with | ⟨0, _⟩ => rfl | ⟨1, _⟩ => rfl)
    (fun k l => funext fun a => by match a with | ⟨0, _⟩ => rfl | ⟨1, _⟩ => rfl)
    (fun k l => funext fun a => by match a with | ⟨0, _⟩ => rfl | ⟨1, _⟩ => rfl)
    (fun k => funext fun a => by match a with | ⟨0, _⟩ => rfl)
    (funext fun a => by match a with | ⟨0, _⟩ => rfl)

/-! ## The two results as the specification's functions of the arguments -/

/-- The first layer's features, by the specification's name. -/
theorem layer1_eq : val_main_v28 (F := Ideal) x0 x1 x2 x4 x5 = Cert.KernelIdeal.Hand.layer1 x0 x1 x2 x4 x5 := by
  rw [feat1_eq, agg1_eq]
  rfl

/-- The second layer's features, by the specification's name. -/
theorem layer2_eq : val_main_v57 (F := Ideal) x0 x1 x2 x4 x5 x6 x7
    = Cert.KernelIdeal.Hand.layer2 x0 x1 x2 x4 x5 x6 x7 := by
  rw [feat2_eq, agg2_eq, layer1_eq]
  rfl

/-- Result 0, by the specification's name. -/
theorem out0_eq : val_main_v69 (F := Ideal) x0 x1 x2 x3 x4 x5 x6 x7
    = Cert.KernelIdeal.Hand.out0 x0 x1 x2 x3 x4 x5 x6 x7 := by
  rw [mean_eq, layer2_eq]
  rfl

/-- Result 1, by the specification's name. -/
theorem out1_eq : val_main_v78 (F := Ideal) x0 x1 x2 x3 x4 x5 x6 x7 x8 x9 x10 x11
    = Cert.KernelIdeal.Hand.out1 x0 x1 x2 x3 x4 x5 x6 x7 x8 x9 x10 x11 := by
  rw [dec_eq, out0_eq]
  rfl

end Stages

/-- THE REFERENCE'S RUN: every weakly fair execution terminates, nothing faulting, with the two results at the
    specification's functions of the arguments and the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v69)
        = Cert.KernelIdeal.Hand.out0 (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_v78)
        = Cert.KernelIdeal.Hand.out1 (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine (θ_run (defs (F := Ideal)) _ _).mono (fun _ h c => ⟨(h c).1.trans ?_, (h c).2.1.trans ?_, (h c).2.2⟩)
    (Cert.ReferenceIdeal.ValueP.run (F := Ideal) m ρ)
  · exact (val_main_v69_eq m c).trans (out0_eq _ _ _ _ _ _ _ _)
  · exact (val_main_v78_eq m c).trans (out1_eq _ _ _ _ _ _ _ _ _ _ _ _)

end Cert.ReferenceIdeal.Hand

end
-- ==== Proof.lean ====
/-
  The certificate's five claims.

  The kernel program is: the mean-aggregation chain on the host, a GIN combine kernel (twenty blocks of 5000 node rows:
  max((x + agg)·W + b, 0)), the chain again on that layer's output, the combine kernel again, and a pooling kernel that
  accumulates onehot(graph id)ᵀ·h and onehot(graph id)ᵀ·1 over the twenty blocks in two scratch buffers and at the last
  block stores their quotient (the per-graph mean) and the two-layer decoder of it.  The reference does the same with two
  whole matrix products and two accumulating scatters at the graph ids.

  * The three frames: each program's run (the kernel programs' as ten items — host stretches and three kernel regions,
    each region's body obligation proved per grid point —, the reference's as host operations) terminates without a fault
    and no item writes an argument array.
  * preserves: the idealization rewrote nothing, the conjunct is `True`.
  * algebraic: on the extended reals both programs end with the same two arrays, the specification's functions
    `out0` / `out1` of the twelve arguments: the shared host chain is carried as one function; a combine block's matrix
    product into a zero accumulator is the plain sum that the whole product is, row by row; multiplying by a one-hot
    entry and summing over all nodes is summing the updates that land on a graph (1·x = x and 0·x = 0 for every extended
    real, and sums of extended reals regroup freely), so the block-accumulated one-hot products are the accumulating
    scatters; the decoder is the same two products.  No step needs the inputs finite.
-/
import proofs.«408682_j48163763257711_1_alg».proof.Defs
import proofs.«408682_j48163763257711_1_alg».proof.Proof.Gen.Kernel
import proofs.«408682_j48163763257711_1_alg».proof.Proof.Gen.KernelIdeal
import proofs.«408682_j48163763257711_1_alg».proof.Proof.Gen.ReferenceIdeal
import proofs.«408682_j48163763257711_1_alg».proof.Proof.Gen.Pre_finite_inputs
import proofs.«408682_j48163763257711_1_alg».proof.Proof.KRun
import proofs.«408682_j48163763257711_1_alg».proof.Proof.KIRun
import proofs.«408682_j48163763257711_1_alg».proof.Proof.KValues
import proofs.«408682_j48163763257711_1_alg».proof.Proof.RefIsSpec

noncomputable section

namespace Cert.Proof

open Idealize.ShloMosaic Idealize.SL.Sem

/-- The word-level kernel program runs and leaves its arguments as launched. -/
theorem frame_k : Cert.frame_Kernel (hKernel := Cert.Kernel.Gen.facts) (hPre_finite_inputs := Cert.Pre_finite_inputs.Gen.facts) :=
  fun m ρ _ =>
  (θ_run (Cert.Kernel.defs (F := Bits)) _ _).mono (fun r h c => ⟨
    (h c _ (Cert.Kernel.Hand.mem_uc Cert.Kernel.main_arg0 (by decide))).trans (Cert.Kernel.Hand.W10_main_arg0 m c),
    (h c _ (Cert.Kernel.Hand.mem_uc Cert.Kernel.main_arg1 (by decide))).trans (Cert.Kernel.Hand.W10_main_arg1 m c),
    (h c _ (Cert.Kernel.Hand.mem_uc Cert.Kernel.main_arg2 (by decide))).trans (Cert.Kernel.Hand.W10_main_arg2 m c),
    (h c _ (Cert.Kernel.Hand.mem_uc Cert.Kernel.main_arg3 (by decide))).trans (Cert.Kernel.Hand.W10_main_arg3 m c),
    (h c _ (Cert.Kernel.Hand.mem_uc Cert.Kernel.main_arg4 (by decide))).trans (Cert.Kernel.Hand.W10_main_arg4 m c),
    (h c _ (Cert.Kernel.Hand.mem_uc Cert.Kernel.main_arg5 (by decide))).trans (Cert.Kernel.Hand.W10_main_arg5 m c),
    (h c _ (Cert.Kernel.Hand.mem_uc Cert.Kernel.main_arg6 (by decide))).trans (Cert.Kernel.Hand.W10_main_arg6 m c),
    (h c _ (Cert.Kernel.Hand.mem_uc Cert.Kernel.main_arg7 (by decide))).trans (Cert.Kernel.Hand.W10_main_arg7 m c),
    (h c _ (Cert.Kernel.Hand.mem_uc Cert.Kernel.main_arg8 (by decide))).trans (Cert.Kernel.Hand.W10_main_arg8 m c),
    (h c _ (Cert.Kernel.Hand.mem_uc Cert.Kernel.main_arg9 (by decide))).trans (Cert.Kernel.Hand.W10_main_arg9 m c),
    (h c _ (Cert.Kernel.Hand.mem_uc Cert.Kernel.main_arg10 (by decide))).trans (Cert.Kernel.Hand.W10_main_arg10 m c),
    (h c _ (Cert.Kernel.Hand.mem_uc Cert.Kernel.main_arg11 (by decide))).trans (Cert.Kernel.Hand.W10_main_arg11 m c)⟩)
    (Cert.Kernel.Hand.run_all (F := Bits) m ρ)

/-- The idealized kernel program runs and leaves its arguments as launched. -/
theorem frame_ki : Cert.frame_KernelIdeal (hKernelIdeal := Cert.KernelIdeal.Gen.facts) (hPre_finite_inputs := Cert.Pre_finite_inputs.Gen.facts) :=
  fun m ρ _ =>
  (θ_run (Cert.KernelIdeal.defs (F := Ideal)) _ _).mono (fun r h c => ⟨
    (h c _ (Cert.KernelIdeal.Hand.mem_uc Cert.KernelIdeal.main_arg0 (by decide))).trans (Cert.KernelIdeal.Hand.W10_main_arg0 m c),
    (h c _ (Cert.KernelIdeal.Hand.mem_uc Cert.KernelIdeal.main_arg1 (by decide))).trans (Cert.KernelIdeal.Hand.W10_main_arg1 m c),
    (h c _ (Cert.KernelIdeal.Hand.mem_uc Cert.KernelIdeal.main_arg2 (by decide))).trans (Cert.KernelIdeal.Hand.W10_main_arg2 m c),
    (h c _ (Cert.KernelIdeal.Hand.mem_uc Cert.KernelIdeal.main_arg3 (by decide))).trans (Cert.KernelIdeal.Hand.W10_main_arg3 m c),
    (h c _ (Cert.KernelIdeal.Hand.mem_uc Cert.KernelIdeal.main_arg4 (by decide))).trans (Cert.KernelIdeal.Hand.W10_main_arg4 m c),
    (h c _ (Cert.KernelIdeal.Hand.mem_uc Cert.KernelIdeal.main_arg5 (by decide))).trans (Cert.KernelIdeal.Hand.W10_main_arg5 m c),
    (h c _ (Cert.KernelIdeal.Hand.mem_uc Cert.KernelIdeal.main_arg6 (by decide))).trans (Cert.KernelIdeal.Hand.W10_main_arg6 m c),
    (h c _ (Cert.KernelIdeal.Hand.mem_uc Cert.KernelIdeal.main_arg7 (by decide))).trans (Cert.KernelIdeal.Hand.W10_main_arg7 m c),
    (h c _ (Cert.KernelIdeal.Hand.mem_uc Cert.KernelIdeal.main_arg8 (by decide))).trans (Cert.KernelIdeal.Hand.W10_main_arg8 m c),
    (h c _ (Cert.KernelIdeal.Hand.mem_uc Cert.KernelIdeal.main_arg9 (by decide))).trans (Cert.KernelIdeal.Hand.W10_main_arg9 m c),
    (h c _ (Cert.KernelIdeal.Hand.mem_uc Cert.KernelIdeal.main_arg10 (by decide))).trans (Cert.KernelIdeal.Hand.W10_main_arg10 m c),
    (h c _ (Cert.KernelIdeal.Hand.mem_uc Cert.KernelIdeal.main_arg11 (by decide))).trans (Cert.KernelIdeal.Hand.W10_main_arg11 m c)⟩)
    (Cert.KernelIdeal.Hand.run_all (F := Ideal) m ρ)

/-- The idealized reference runs and leaves its arguments as launched: its run with the results dropped. -/
theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2.2) (Cert.ReferenceIdeal.Hand.ref_run m ρ)

/-- Equal arguments give equal first results. -/
theorem out0_congr {x x' : FVec Ideal Cert.KernelIdeal.S100000x128 .f32} {s s' d d' : IVec Cert.KernelIdeal.S1600000 32} {g g' : IVec Cert.KernelIdeal.S100000 32}
    {W1 W1' W2 W2' : FVec Ideal Cert.KernelIdeal.S128x128 .f32} {b1 b1' b2 b2' : FVec Ideal Cert.KernelIdeal.S128 .f32}
    (h0 : x' = x) (h1 : s' = s) (h2 : d' = d) (h3 : g' = g) (h4 : W1' = W1) (h5 : b1' = b1) (h6 : W2' = W2) (h7 : b2' = b2) :
    Cert.KernelIdeal.Hand.out0 x' s' d' g' W1' b1' W2' b2' = Cert.KernelIdeal.Hand.out0 x s d g W1 b1 W2 b2 := by
  subst h0 h1 h2 h3 h4 h5 h6 h7; rfl

/-- Equal arguments give equal second results. -/
theorem out1_congr {x x' : FVec Ideal Cert.KernelIdeal.S100000x128 .f32} {s s' d d' : IVec Cert.KernelIdeal.S1600000 32} {g g' : IVec Cert.KernelIdeal.S100000 32}
    {W1 W1' W2 W2' Wd1 Wd1' : FVec Ideal Cert.KernelIdeal.S128x128 .f32} {b1 b1' b2 b2' bd1 bd1' : FVec Ideal Cert.KernelIdeal.S128 .f32}
    {Wd2 Wd2' : FVec Ideal Cert.KernelIdeal.S128x64 .f32} {bd2 bd2' : FVec Ideal Cert.KernelIdeal.S64 .f32}
    (h0 : x' = x) (h1 : s' = s) (h2 : d' = d) (h3 : g' = g) (h4 : W1' = W1) (h5 : b1' = b1) (h6 : W2' = W2) (h7 : b2' = b2)
    (h8 : Wd1' = Wd1) (h9 : bd1' = bd1) (h10 : Wd2' = Wd2) (h11 : bd2' = bd2) :
    Cert.KernelIdeal.Hand.out1 x' s' d' g' W1' b1' W2' b2' Wd1' bd1' Wd2' bd2' = Cert.KernelIdeal.Hand.out1 x s d g W1 b1 W2 b2 Wd1 bd1 Wd2 bd2 := by
  subst h0 h1 h2 h3 h4 h5 h6 h7 h8 h9 h10 h11; rfl

/-- Both idealized programs end with the specification's two arrays of the (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.out0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.KernelIdeal.Hand.out1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run (Cert.KernelIdeal.defs (F := Ideal)) _ _).mono (fun r h c => ⟨
      ((h c _ (Cert.KernelIdeal.Hand.mem_uc Cert.KernelIdeal.main_v53_0 (by decide))).trans (Cert.KernelIdeal.Hand.W10_res0 m c)).trans (Cert.KernelIdeal.Hand.kernel_out0 m c),
      ((h c _ (Cert.KernelIdeal.Hand.mem_uc Cert.KernelIdeal.main_v53_1 (by decide))).trans (Cert.KernelIdeal.Hand.W10_res1 m c)).trans (Cert.KernelIdeal.Hand.kernel_out1 m c),
      (h c _ (Cert.KernelIdeal.Hand.mem_uc Cert.KernelIdeal.main_arg0 (by decide))).trans (Cert.KernelIdeal.Hand.W10_main_arg0 m c),
      (h c _ (Cert.KernelIdeal.Hand.mem_uc Cert.KernelIdeal.main_arg1 (by decide))).trans (Cert.KernelIdeal.Hand.W10_main_arg1 m c),
      (h c _ (Cert.KernelIdeal.Hand.mem_uc Cert.KernelIdeal.main_arg2 (by decide))).trans (Cert.KernelIdeal.Hand.W10_main_arg2 m c),
      (h c _ (Cert.KernelIdeal.Hand.mem_uc Cert.KernelIdeal.main_arg3 (by decide))).trans (Cert.KernelIdeal.Hand.W10_main_arg3 m c),
      (h c _ (Cert.KernelIdeal.Hand.mem_uc Cert.KernelIdeal.main_arg4 (by decide))).trans (Cert.KernelIdeal.Hand.W10_main_arg4 m c),
      (h c _ (Cert.KernelIdeal.Hand.mem_uc Cert.KernelIdeal.main_arg5 (by decide))).trans (Cert.KernelIdeal.Hand.W10_main_arg5 m c),
      (h c _ (Cert.KernelIdeal.Hand.mem_uc Cert.KernelIdeal.main_arg6 (by decide))).trans (Cert.KernelIdeal.Hand.W10_main_arg6 m c),
      (h c _ (Cert.KernelIdeal.Hand.mem_uc Cert.KernelIdeal.main_arg7 (by decide))).trans (Cert.KernelIdeal.Hand.W10_main_arg7 m c),
      (h c _ (Cert.KernelIdeal.Hand.mem_uc Cert.KernelIdeal.main_arg8 (by decide))).trans (Cert.KernelIdeal.Hand.W10_main_arg8 m c),
      (h c _ (Cert.KernelIdeal.Hand.mem_uc Cert.KernelIdeal.main_arg9 (by decide))).trans (Cert.KernelIdeal.Hand.W10_main_arg9 m c),
      (h c _ (Cert.KernelIdeal.Hand.mem_uc Cert.KernelIdeal.main_arg10 (by decide))).trans (Cert.KernelIdeal.Hand.W10_main_arg10 m c),
      (h c _ (Cert.KernelIdeal.Hand.mem_uc Cert.KernelIdeal.main_arg11 (by decide))).trans (Cert.KernelIdeal.Hand.W10_main_arg11 m c)⟩)
      (Cert.KernelIdeal.Hand.run_all (F := Ideal) m ρ)
  · refine (θ_run (Cert.ReferenceIdeal.defs (F := Ideal)) _ _).mono (fun r h c => ?_) (Cert.ReferenceIdeal.Hand.ref_run m' ρ')
    obtain ⟨h0, h1, ha⟩ := h c
    obtain ⟨e0, e1, e2, e3, e4, e5, e6, e7, e8, e9, e10, e11⟩ := hagree c
    exact ⟨h0.trans (out0_congr e0 e1 e2 e3 e4 e5 e6 e7), h1.trans (out1_congr e0 e1 e2 e3 e4 e5 e6 e7 e8 e9 e10 e11), ha⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
